-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S8192x1 : Shape := ⟨2, ![8192, 1]⟩
abbrev S8192 : Shape := ⟨1, ![8192]⟩
abbrev S8192x2047 : Shape := ⟨2, ![8192, 2047]⟩
abbrev S8192x2047x1 : Shape := ⟨3, ![8192, 2047, 1]⟩
abbrev S8192x2047x2 : Shape := ⟨3, ![8192, 2047, 2]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S8192x2048 : S_.BroadcastsInDim S8192x2048 (![] : Fin 0 → Fin S8192x2048.rank)
  reducesTo_S8192x2048_S_d0_1 : S8192x2048.ReducesTo [0, 1] S_
  slices_S8192x2048_S8192x1_0_0 : S8192x2048.Slices ![0, 0] S8192x1
  shapeCasts_S8192x1_S8192 : S8192x1.ShapeCasts S8192
  slices_S8192x2048_S8192x1_0_2047 : S8192x2048.Slices ![0, 2047] S8192x1
  slices_S8192x2048_S8192x2047_0_0 : S8192x2048.Slices ![0, 0] S8192x2047
  slices_S8192x2048_S8192x2047_0_1 : S8192x2048.Slices ![0, 1] S8192x2047
  bcast_S_S8192 : S_.BroadcastsInDim S8192 (![] : Fin 0 → Fin S8192.rank)
  bcast_S8192_S8192x1_0 : S8192.BroadcastsInDim S8192x1 (![0] : Fin 1 → Fin S8192x1.rank)
  bcast_S_S8192x2047 : S_.BroadcastsInDim S8192x2047 (![] : Fin 0 → Fin S8192x2047.rank)
  bcast_S8192x2047_S8192x2047x1_0_1 : S8192x2047.BroadcastsInDim S8192x2047x1 (![0, 1] : Fin 2 → Fin S8192x2047x1.rank)
  concatenates_S8192x2047x1_S8192x2047x1_S8192x2047x2_d2 : Shape.Concatenates [S8192x2047x1, S8192x2047x1] S8192x2047x2 2
  reducesTo_S8192x2047_S8192_d1 : S8192x2047.ReducesTo [1] S8192
  reducesTo_S8192_S_d0 : S8192.ReducesTo [0] S_
  gather_S2048_S8192x1_S8192_n_0_n_n_0_1_1_wf : GatherDims.WF S2048 S8192x1 S8192 [] [0] [] [0] [] 1 ![1]
  gather_S2048x2048_S8192x2047x2_S8192x2047_n_01_n_n_01_2_11_wf : GatherDims.WF S2048x2048 S8192x2047x2 S8192x2047 [] [0, 1] [] [0, 1] [] 2 ![1, 1]

variable [Facts]

def gather_S2048_S8192x1_S8192_n_0_n_n_0_1_1 : GatherDims S2048 S8192x1 S8192 where
  offsetDims := []
  collapsedSliceDims := [0]
  operandBatchingDims := []
  startIndicesBatchingDims := []
  startIndexMap := [0]
  indexVectorDim := 1
  sliceSizes := ![1]
  wf := gather_S2048_S8192x1_S8192_n_0_n_n_0_1_1_wf
def gather_S2048x2048_S8192x2047x2_S8192x2047_n_01_n_n_01_2_11 : GatherDims S2048x2048 S8192x2047x2 S8192x2047 where
  offsetDims := []
  collapsedSliceDims := [0, 1]
  operandBatchingDims := []
  startIndicesBatchingDims := []
  startIndexMap := [0, 1]
  indexVectorDim := 2
  sliceSizes := ![1, 1]
  wf := gather_S2048x2048_S8192x2047x2_S8192x2047_n_01_n_n_01_2_11_wf
def fn_part3 {F : FTy → Type} [FloatOps F] (main_arg0 : FVec F S2048x2048 .f32) (main_v25 : IVec S_ 1) (main_v31 : IVec S8192x2047 32) (main_v46 : FVec F S8192 .f32) (main_v51 : IVec S8192x2047 32) (main_v53 : IVec S8192x2047 1) : IVec S_ 1 :=
  let main_c_16 : IVec S_ 32 := constantI S_ 32 2048#32
  let main_v54 : IVec S8192x2047 32 := broadcastInDim S8192x2047 ![] bcast_S_S8192x2047 main_c_16
  let main_v55 : IVec S8192x2047 32 := addi main_v31 main_v54
  let main_v56 : IVec S8192x2047 32 := select main_v53 main_v55 main_v31
  let main_v57 : IVec S8192x2047x1 32 := broadcastInDim S8192x2047x1 ![0, 1] bcast_S8192x2047_S8192x2047x1_0_1 main_v51
  let main_v58 : IVec S8192x2047x1 32 := broadcastInDim S8192x2047x1 ![0, 1] bcast_S8192x2047_S8192x2047x1_0_1 main_v56
  let main_v59 : IVec S8192x2047x2 32 := (fun a b => concatenate S8192x2047x2 2 [⟨S8192x2047x1, a⟩, ⟨S8192x2047x1, b⟩] concatenates_S8192x2047x1_S8192x2047x1_S8192x2047x2_d2) main_v57 main_v58
  let main_v60 : FVec F S8192x2047 .f32 := (fun x i => Host.gather gather_S2048x2048_S8192x2047x2_S8192x2047_n_01_n_n_01_2_11 x i) main_arg0 main_v59
  let main_cst_17 : FVec F S_ .f32 := constant S_ .f32 0x00000000#32
  let main_v61 : FVec F S8192 .f32 := (fun x v => Host.reduceAdd x v reducesTo_S8192x2047_S8192_d1 h_S_) main_v60 main_cst_17
  let main_v62 : FVec F S8192 .f32 := addf main_v46 main_v61
  let main_cst_18 : FVec F S_ .f32 := constant S_ .f32 0x00000000#32
  let main_v63 : FVec F S_ .f32 := (fun x v => Host.reduceAdd x v reducesTo_S8192_S_d0 h_S_) main_v62 main_cst_18
  let main_cst_19 : FVec F S_ .f32 := constant S_ .f32 0x00000000#32
  let main_v64 : IVec S_ 1 := cmpf .une main_v63 main_cst_19
  let main_v65 : IVec S_ 1 := andi main_v25 main_v64
  main_v65

def fn_part2 {F : FTy → Type} [FloatOps F] (main_arg0 : FVec F S2048x2048 .f32) (main_arg1 : FVec F S2048 .f32) (main_arg2 : FVec F S2048 .f32) (main_v25 : IVec S_ 1) (main_v27 : IVec S8192 32) (main_v29 : IVec S8192 32) (main_v30 : IVec S8192x2047 32) (main_v31 : IVec S8192x2047 32) (main_v33 : IVec S8192 1) (main_v34 : IVec S8192 32) : IVec S_ 1 :=
  let main_v35 : IVec S8192 32 := addi main_v27 main_v34
  let main_v36 : IVec S8192 32 := select main_v33 main_v35 main_v27
  let main_v37 : IVec S8192x1 32 := broadcastInDim S8192x1 ![0] bcast_S8192_S8192x1_0 main_v36
  let main_v38 : FVec F S8192 .f32 := (fun x i => Host.gather gather_S2048_S8192x1_S8192_n_0_n_n_0_1_1 x i) main_arg1 main_v37
  let main_c_11 : IVec S_ 32 := constantI S_ 32 0#32
  let main_v39 : IVec S8192 32 := broadcastInDim S8192 ![] bcast_S_S8192 main_c_11
  let main_v40 : IVec S8192 1 := cmpi .slt main_v29 main_v39
  let main_c_12 : IVec S_ 32 := constantI S_ 32 2048#32
  let main_v41 : IVec S8192 32 := broadcastInDim S8192 ![] bcast_S_S8192 main_c_12
  let main_v42 : IVec S8192 32 := addi main_v29 main_v41
  let main_v43 : IVec S8192 32 := select main_v40 main_v42 main_v29
  let main_v44 : IVec S8192x1 32 := broadcastInDim S8192x1 ![0] bcast_S8192_S8192x1_0 main_v43
  let main_v45 : FVec F S8192 .f32 := (fun x i => Host.gather gather_S2048_S8192x1_S8192_n_0_n_n_0_1_1 x i) main_arg2 main_v44
  let main_v46 : FVec F S8192 .f32 := addf main_v38 main_v45
  let main_c_13 : IVec S_ 32 := constantI S_ 32 0#32
  let main_v47 : IVec S8192x2047 32 := broadcastInDim S8192x2047 ![] bcast_S_S8192x2047 main_c_13
  let main_v48 : IVec S8192x2047 1 := cmpi .slt main_v30 main_v47
  let main_c_14 : IVec S_ 32 := constantI S_ 32 2048#32
  let main_v49 : IVec S8192x2047 32 := broadcastInDim S8192x2047 ![] bcast_S_S8192x2047 main_c_14
  let main_v50 : IVec S8192x2047 32 := addi main_v30 main_v49
  let main_v51 : IVec S8192x2047 32 := select main_v48 main_v50 main_v30
  let main_c_15 : IVec S_ 32 := constantI S_ 32 0#32
  let main_v52 : IVec S8192x2047 32 := broadcastInDim S8192x2047 ![] bcast_S_S8192x2047 main_c_15
  let main_v53 : IVec S8192x2047 1 := cmpi .slt main_v31 main_v52
  fn_part3 (F := F) main_arg0 main_v25 main_v31 main_v46 main_v51 main_v53

def fn_part1 {F : FTy → Type} [FloatOps F] (main_arg0 : FVec F S2048x2048 .f32) (main_arg1 : FVec F S2048 .f32) (main_arg2 : FVec F S2048 .f32) (main_arg4 : IVec S8192x2048 32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_c_6 : IVec S_ 32 := constantI S_ 32 0#32
  let main_v19 : IVec S8192x2048 32 := broadcastInDim S8192x2048 ![] bcast_S_S8192x2048 main_c_6
  let main_v20 : IVec S8192x2048 1 := cmpi .sge main_arg4 main_v19
  let main_c_7 : IVec S_ 32 := constantI S_ 32 2048#32
  let main_v21 : IVec S8192x2048 32 := broadcastInDim S8192x2048 ![] bcast_S_S8192x2048 main_c_7
  let main_v22 : IVec S8192x2048 1 := cmpi .slt main_arg4 main_v21
  let main_v23 : IVec S8192x2048 1 := andi main_v20 main_v22
  let main_c_8 : IVec S_ 1 := constantI S_ 1 1#1
  let main_v24 : IVec S_ 1 := (fun x v => Host.reduce IntOp.andi x v reducesTo_S8192x2048_S_d0_1 h_S_) main_v23 main_c_8
  let main_v25 : IVec S_ 1 := andi main_v18 main_v24
  let main_v26 : IVec S8192x1 32 := (extractStridedSlice S8192x1 ![0, 0] · slices_S8192x2048_S8192x1_0_0) main_arg4
  let main_v27 : IVec S8192 32 := shapeCast S8192 main_v26 shapeCasts_S8192x1_S8192
  let main_v28 : IVec S8192x1 32 := (extractStridedSlice S8192x1 ![0, 2047] · slices_S8192x2048_S8192x1_0_2047) main_arg4
  let main_v29 : IVec S8192 32 := shapeCast S8192 main_v28 shapeCasts_S8192x1_S8192
  let main_v30 : IVec S8192x2047 32 := (extractStridedSlice S8192x2047 ![0, 0] · slices_S8192x2048_S8192x2047_0_0) main_arg4
  let main_v31 : IVec S8192x2047 32 := (extractStridedSlice S8192x2047 ![0, 1] · slices_S8192x2048_S8192x2047_0_1) main_arg4
  let main_c_9 : IVec S_ 32 := constantI S_ 32 0#32
  let main_v32 : IVec S8192 32 := broadcastInDim S8192 ![] bcast_S_S8192 main_c_9
  let main_v33 : IVec S8192 1 := cmpi .slt main_v27 main_v32
  let main_c_10 : IVec S_ 32 := constantI S_ 32 2048#32
  let main_v34 : IVec S8192 32 := broadcastInDim S8192 ![] bcast_S_S8192 main_c_10
  fn_part2 (F := F) main_arg0 main_arg1 main_arg2 main_v25 main_v27 main_v29 main_v30 main_v31 main_v33 main_v34

def fn {F : FTy → Type} [FloatOps F] (main_arg0 : FVec F S2048x2048 .f32) (main_arg1 : FVec F S2048 .f32) (main_arg2 : FVec F S2048 .f32) (main_arg3 : FVec F S2048x2048 .f32) (main_arg4 : IVec S8192x2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg0 main_arg1 main_arg2 main_arg4 main_v13 main_v16
-- ==== Kernel.lean ====
abbrev S2048x2048 : Shape := ⟨2, ![2048, 2048]⟩
abbrev S2048 : Shape := ⟨1, ![2048]⟩
abbrev S8192x2048 : Shape := ⟨2, ![8192, 2048]⟩
abbrev S8192x1 : Shape := ⟨2, ![8192, 1]⟩
abbrev S8192 : Shape := ⟨1, ![8192]⟩
abbrev S8192x2047 : Shape := ⟨2, ![8192, 2047]⟩
abbrev S2048x2048x1 : Shape := ⟨3, ![2048, 2048, 1]⟩
abbrev S2048x2048x2 : Shape := ⟨3, ![2048, 2048, 2]⟩
abbrev S_ : Shape := ⟨0, ![]⟩
abbrev S8192x2047x1 : Shape := ⟨3, ![8192, 2047, 1]⟩
abbrev S8192x2047x2 : Shape := ⟨3, ![8192, 2047, 2]⟩
abbrev S8192x2 : Shape := ⟨2, ![8192, 2]⟩
abbrev S64x128 : Shape := ⟨2, ![64, 128]⟩
abbrev S16x3 : Shape := ⟨2, ![16, 3]⟩
abbrev S32x128 : Shape := ⟨2, ![32, 128]⟩
abbrev S8x3 : Shape := ⟨2, ![8, 3]⟩
abbrev S1x32x128 : Shape := ⟨3, ![1, 32, 128]⟩
abbrev S1 : Shape := ⟨1, ![1]⟩
abbrev S1x1x1 : Shape := ⟨3, ![1, 1, 1]⟩
abbrev S1x1 : Shape := ⟨2, ![1, 1]⟩
abbrev S3 : Shape := ⟨1, ![3]⟩
abbrev S2047 : Shape := ⟨1, ![2047]⟩
abbrev S2047x1 : Shape := ⟨2, ![2047, 1]⟩
abbrev S2047x2 : Shape := ⟨2, ![2047, 2]⟩

abbrev nBuf : Space → Nat
  | .hbm => 130
  | .vmem => 6
  | .smem => 0
  | _ => 0

abbrev hbmTy0_0 (i : Nat) : BufTy := match i % 128 with
  | 0 => ⟨S2048x2048, .f32⟩
  | 1 => ⟨S2048, .f32⟩
  | 2 => ⟨S2048, .f32⟩
  | 3 => ⟨S2048x2048, .f32⟩
  | 4 => ⟨S8192x2048, .i32⟩
  | 5 => ⟨S8192x1, .i32⟩
  | 6 => ⟨S8192, .i32⟩
  | 7 => ⟨S8192x1, .i32⟩
  | 8 => ⟨S8192, .i32⟩
  | 9 => ⟨S8192x2047, .i32⟩
  | 10 => ⟨S8192x2047, .i32⟩
  | 11 => ⟨S2048x2048x1, .f32⟩
  | 12 => ⟨S2048x2048x1, .f32⟩
  | 13 => ⟨S2048x2048x2, .f32⟩
  | 14 => ⟨S_, .i32⟩
  | 15 => ⟨S8192x2047, .i32⟩
  | 16 => ⟨S8192x2047, .i1⟩
  | 17 => ⟨S_, .i32⟩
  | 18 => ⟨S8192x2047, .i32⟩
  | 19 => ⟨S8192x2047, .i32⟩
  | 20 => ⟨S8192x2047, .i32⟩
  | 21 => ⟨S_, .i32⟩
  | 22 => ⟨S8192x2047, .i32⟩
  | 23 => ⟨S8192x2047, .i1⟩
  | 24 => ⟨S_, .i32⟩
  | 25 => ⟨S8192x2047, .i32⟩
  | 26 => ⟨S8192x2047, .i32⟩
  | 27 => ⟨S8192x2047, .i32⟩
  | 28 => ⟨S8192x2047x1, .i32⟩
  | 29 => ⟨S8192x2047x1, .i32⟩
  | 30 => ⟨S8192x2047x2, .i32⟩
  | 31 => ⟨S8192x2047x2, .f32⟩
  | 32 => ⟨S_, .f32⟩
  | 33 => ⟨S8192x2, .f32⟩
  | 34 => ⟨S8192x1, .f32⟩
  | 35 => ⟨S8192, .f32⟩
  | 36 => ⟨S8192x1, .f32⟩
  | 37 => ⟨S8192, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192, .f32⟩
  | 56 => ⟨S8192, .f32⟩
  | 57 => ⟨S8192, .f32⟩
  | 58 => ⟨S64x128, .f32⟩
  | 59 => ⟨S64x128, .f32⟩
  | 60 => ⟨S16x3, .f32⟩
  | 61 => ⟨S_, .f32⟩
  | 62 => ⟨S3, .f32⟩
  | 63 => ⟨S1, .f32⟩
  | 64 => ⟨S_, .f32⟩
  | 65 => ⟨S1, .f32⟩
  | 66 => ⟨S_, .f32⟩
  | 67 => ⟨S1, .f32⟩
  | 68 => ⟨S_, .f32⟩
  | 69 => ⟨S1, .f32⟩
  | 70 => ⟨S_, .f32⟩
  | 71 => ⟨S_, .f32⟩
  | 72 => ⟨S1, .f32⟩
  | 73 => ⟨S_, .f32⟩
  | 74 => ⟨S_, .f32⟩
  | 75 => ⟨S2047, .i32⟩
  | 76 => ⟨S2047, .i32⟩
  | 77 => ⟨S_, .i32⟩
  | 78 => ⟨S2047, .i32⟩
  | 79 => ⟨S2047, .i32⟩
  | 80 => ⟨S_, .i32⟩
  | 81 => ⟨S2047, .i32⟩
  | 82 => ⟨S2047, .i1⟩
  | 83 => ⟨S_, .i32⟩
  | 84 => ⟨S2047, .i32⟩
  | 85 => ⟨S2047, .i32⟩
  | 86 => ⟨S2047, .i32⟩
  | 87 => ⟨S_, .i32⟩
  | 88 => ⟨S2047, .i32⟩
  | 89 => ⟨S2047, .i1⟩
  | 90 => ⟨S_, .i32⟩
  | 91 => ⟨S2047, .i32⟩
  | 92 => ⟨S2047, .i32⟩
  | 93 => ⟨S2047, .i32⟩
  | 94 => ⟨S2047x1, .i32⟩
  | 95 => ⟨S2047x1, .i32⟩
  | 96 => ⟨S2047x2, .i32⟩
  | 97 => ⟨S2047, .f32⟩
  | 98 => ⟨S_, .f32⟩
  | 99 => ⟨S_, .f32⟩
  | 100 => ⟨S_, .f32⟩
  | 101 => ⟨S2047, .i32⟩
  | 102 => ⟨S2047, .i32⟩
  | 103 => ⟨S_, .i32⟩
  | 104 => ⟨S2047, .i32⟩
  | 105 => ⟨S2047, .i32⟩
  | 106 => ⟨S_, .i32⟩
  | 107 => ⟨S2047, .i32⟩
  | 108 => ⟨S2047, .i1⟩
  | 109 => ⟨S_, .i32⟩
  | 110 => ⟨S2047, .i32⟩
  | 111 => ⟨S2047, .i32⟩
  | 112 => ⟨S2047, .i32⟩
  | 113 => ⟨S_, .i32⟩
  | 114 => ⟨S2047, .i32⟩
  | 115 => ⟨S2047, .i1⟩
  | 116 => ⟨S_, .i32⟩
  | 117 => ⟨S2047, .i32⟩
  | 118 => ⟨S2047, .i32⟩
  | 119 => ⟨S2047, .i32⟩
  | 120 => ⟨S2047x1, .i32⟩
  | 121 => ⟨S2047x1, .i32⟩
  | 122 => ⟨S2047x2, .i32⟩
  | 123 => ⟨S2047, .f32⟩
  | 124 => ⟨S_, .f32⟩
  | 125 => ⟨S_, .f32⟩
  | 126 => ⟨S_, .f32⟩
  | 127 => ⟨S_, .f32⟩
  | _ => ⟨S2048x2048, .f32⟩

abbrev hbmTy0_1 (i : Nat) : BufTy := match i % 128 with
  | 0 => ⟨S_, .f32⟩
  | 1 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S8x3, .f32⟩
  | .local _ .vmem, ⟨5, _⟩ => ⟨S8x3, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_v0 : Ref sig .tc := ⟨.hbm, 75, rfl⟩
abbrev main_call0_v1 : Ref sig .tc := ⟨.hbm, 76, rfl⟩
abbrev main_call0_c : Ref sig .tc := ⟨.hbm, 77, rfl⟩
abbrev main_call0_v2 : Ref sig .tc := ⟨.hbm, 78, rfl⟩
abbrev main_call0_v3 : Ref sig .tc := ⟨.hbm, 79, rfl⟩
abbrev main_call0_c_0 : Ref sig .tc := ⟨.hbm, 80, rfl⟩
abbrev main_call0_v4 : Ref sig .tc := ⟨.hbm, 81, rfl⟩
abbrev main_call0_v5 : Ref sig .tc := ⟨.hbm, 82, rfl⟩
abbrev main_call0_c_1 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_c_2 : Ref sig .tc := ⟨.hbm, 87, rfl⟩
abbrev main_call0_v9 : Ref sig .tc := ⟨.hbm, 88, rfl⟩
abbrev main_call0_v10 : Ref sig .tc := ⟨.hbm, 89, rfl⟩
abbrev main_call0_c_3 : Ref sig .tc := ⟨.hbm, 90, rfl⟩
abbrev main_call0_v11 : Ref sig .tc := ⟨.hbm, 91, rfl⟩
abbrev main_call0_v12 : Ref sig .tc := ⟨.hbm, 92, rfl⟩
abbrev main_call0_v13 : Ref sig .tc := ⟨.hbm, 93, rfl⟩
abbrev main_call0_v14 : Ref sig .tc := ⟨.hbm, 94, rfl⟩
abbrev main_call0_v15 : Ref sig .tc := ⟨.hbm, 95, rfl⟩
abbrev main_call0_v16 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_call1_v0 : Ref sig .tc := ⟨.hbm, 101, rfl⟩
abbrev main_call1_v1 : Ref sig .tc := ⟨.hbm, 102, rfl⟩
abbrev main_call1_c : Ref sig .tc := ⟨.hbm, 103, rfl⟩
abbrev main_call1_v2 : Ref sig .tc := ⟨.hbm, 104, rfl⟩
abbrev main_call1_v3 : Ref sig .tc := ⟨.hbm, 105, rfl⟩
abbrev main_call1_c_0 : Ref sig .tc := ⟨.hbm, 106, rfl⟩
abbrev main_call1_v4 : Ref sig .tc := ⟨.hbm, 107, rfl⟩
abbrev main_call1_v5 : Ref sig .tc := ⟨.hbm, 108, rfl⟩
abbrev main_call1_c_1 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_c_2 : Ref sig .tc := ⟨.hbm, 113, rfl⟩
abbrev main_call1_v9 : Ref sig .tc := ⟨.hbm, 114, rfl⟩
abbrev main_call1_v10 : Ref sig .tc := ⟨.hbm, 115, rfl⟩
abbrev main_call1_c_3 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_call1_v15 : Ref sig .tc := ⟨.hbm, 121, rfl⟩
abbrev main_call1_v16 : Ref sig .tc := ⟨.hbm, 122, rfl⟩
abbrev main_v63 : Ref sig .tc := ⟨.hbm, 123, rfl⟩
abbrev main_cst_9 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8192x2048_S8192x1_0_0 : S8192x2048.Slices ![0, 0] S8192x1
  shapeCasts_S8192x1_S8192 : S8192x1.ShapeCasts S8192
  slices_S8192x2048_S8192x1_0_2047 : S8192x2048.Slices ![0, 2047] S8192x1
  slices_S8192x2048_S8192x2047_0_0 : S8192x2048.Slices ![0, 0] S8192x2047
  slices_S8192x2048_S8192x2047_0_1 : S8192x2048.Slices ![0, 1] S8192x2047
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  bcast_S_S8192x2047 : S_.BroadcastsInDim S8192x2047 (![] : Fin 0 → Fin S8192x2047.rank)
  bcast_S8192x2047_S8192x2047x1_0_1 : S8192x2047.BroadcastsInDim S8192x2047x1 (![0, 1] : Fin 2 → Fin S8192x2047x1.rank)
  concatenates_S8192x2047x1_S8192x2047x1_S8192x2047x2_d2 : Shape.Concatenates [S8192x2047x1, S8192x2047x1] S8192x2047x2 2
  reducesTo_S8192x2047x2_S8192x2_d1 : S8192x2047x2.ReducesTo [1] S8192x2
  h_S_ : 0 < S_.numel
  slices_S8192x2_S8192x1_0_0 : S8192x2.Slices ![0, 0] S8192x1
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S64x128 : S8192.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S1x32x128 : S32x128.ShapeCasts S1x32x128
  reduces_S1x32x128_S1 : S1x32x128.Reduces [1, 2] S1
  shapeCasts_S1_S1x1x1 : S1.ShapeCasts S1x1x1
  inpos_S1x1x1_p0_0_0 : ∀ a, (![0, 0, 0] : Fin 3 → Nat) a < S1x1x1.size a
  iota_S8x3_d0_w32 : S8x3.Iotas .tc 32 [0]
  iota_S8x3_d1_w32 : S8x3.Iotas .tc 32 [1]
  shapeCasts_S1x1_S1x1 : S1x1.ShapeCasts S1x1
  broadcasts_S1x1_S8x3 : S1x1.Broadcasts S8x3
  inb_S8x3_S8x3_0_0 : ∀ a, (![0, 0] : Fin 2 → Nat) a + S8x3.size a ≤ S8x3.size a
  h_S8x3 : 0 < S8x3.numel
  reducesTo_S16x3_S3_d0 : S16x3.ReducesTo [0] S3
  slices_S3_S1_0 : S3.Slices ![0] S1
  shapeCasts_S1_S_ : S1.ShapeCasts S_
  slices_S3_S1_1 : S3.Slices ![1] S1
  slices_S3_S1_2 : S3.Slices ![2] S1
  slices_S2048_S1_0 : S2048.Slices ![0] S1
  slices_S2048_S1_2047 : S2048.Slices ![2047] S1
  bcast_S_S2047 : S_.BroadcastsInDim S2047 (![] : Fin 0 → Fin S2047.rank)
  bcast_S2047_S2047x1_0 : S2047.BroadcastsInDim S2047x1 (![0] : Fin 1 → Fin S2047x1.rank)
  concatenates_S2047x1_S2047x1_S2047x2_d1 : Shape.Concatenates [S2047x1, S2047x1] S2047x2 1
  reducesTo_S2047_S_d0 : S2047.ReducesTo [0] S_
  gather_S2048x2048x2_S8192x2047x2_S8192x2047x2_2_01_n_n_01_2_112_wf : GatherDims.WF S2048x2048x2 S8192x2047x2 S8192x2047x2 [2] [0, 1] [] [0, 1] [] 2 ![1, 1, 2]
  gather_S2048_S8192x1_S8192_n_0_n_n_0_1_1_wf : GatherDims.WF S2048 S8192x1 S8192 [] [0] [] [0] [] 1 ![1]
  gather_S2048x2048_S2047x2_S2047_n_01_n_n_01_1_11_wf : GatherDims.WF S2048x2048 S2047x2 S2047 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S64x128.size a
  hwx0_0 : ∀ i : grid0.Coords, EltTy.bits .f32 = 32 ∨ (Rect.block (s := S64x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S64x128.size a
  hwx0_1 : ∀ i : grid0.Coords, EltTy.bits .f32 = 32 ∨ (Rect.block (s := S64x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S16x3.size a
  hwx0_2 : ∀ i : grid0.Coords, EltTy.bits .f32 = 32 ∨ (Rect.block (s := S16x3) S8x3.size (cc0_transform_2 i) (hinb0_2 i)).WholeWords (EltTy.packing .f32)

variable [Facts₀]

def gather_S2048x2048x2_S8192x2047x2_S8192x2047x2_2_01_n_n_01_2_112 : GatherDims S2048x2048x2 S8192x2047x2 S8192x2047x2 where
  offsetDims := [2]
  collapsedSliceDims := [0, 1]
  operandBatchingDims := []
  startIndicesBatchingDims := []
  startIndexMap := [0, 1]
  indexVectorDim := 2
  sliceSizes := ![1, 1, 2]
  wf := gather_S2048x2048x2_S8192x2047x2_S8192x2047x2_2_01_n_n_01_2_112_wf
def gather_S2048_S8192x1_S8192_n_0_n_n_0_1_1 : GatherDims S2048 S8192x1 S8192 where
  offsetDims := []
  collapsedSliceDims := [0]
  operandBatchingDims := []
  startIndicesBatchingDims := []
  startIndexMap := [0]
  indexVectorDim := 1
  sliceSizes := ![1]
  wf := gather_S2048_S8192x1_S8192_n_0_n_n_0_1_1_wf
def gather_S2048x2048_S2047x2_S2047_n_01_n_n_01_1_11 : GatherDims S2048x2048 S2047x2 S2047 where
  offsetDims := []
  collapsedSliceDims := [0, 1]
  operandBatchingDims := []
  startIndicesBatchingDims := []
  startIndexMap := [0, 1]
  indexVectorDim := 1
  sliceSizes := ![1, 1]
  wf := gather_S2048x2048_S2047x2_S2047_n_01_n_n_01_1_11_wf

abbrev win0_0 : Pipeline.Window sig grid0 :=
  Pipeline.Window.ofSpec (Memref.whole main_v44) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S8x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S1 : Shape := ⟨1, ![1]⟩
abbrev S2047 : Shape := ⟨1, ![2047]⟩
abbrev S2047x1 : Shape := ⟨2, ![2047, 1]⟩
abbrev S2047x2 : Shape := ⟨2, ![2047, 2]⟩
abbrev S8192x1 : Shape := ⟨2, ![8192, 1]⟩
abbrev S8192 : Shape := ⟨1, ![8192]⟩
abbrev S8192x2047 : Shape := ⟨2, ![8192, 2047]⟩
abbrev S8192x2047x1 : Shape := ⟨3, ![8192, 2047, 1]⟩
abbrev S8192x2047x2 : Shape := ⟨3, ![8192, 2047, 2]⟩

abbrev nBuf : Space → Nat
  | .hbm => 145
  | .vmem => 0
  | .smem => 0
  | _ => 0

abbrev hbmTy0_0 (i : Nat) : BufTy := match i % 128 with
  | 0 => ⟨S2048x2048, .f32⟩
  | 1 => ⟨S2048, .f32⟩
  | 2 => ⟨S2048, .f32⟩
  | 3 => ⟨S2048x2048, .f32⟩
  | 4 => ⟨S8192x2048, .i32⟩
  | 5 => ⟨S2048, .i32⟩
  | 6 => ⟨S_, .f32⟩
  | 7 => ⟨S2048, .f32⟩
  | 8 => ⟨S_, .i32⟩
  | 9 => ⟨S1, .i32⟩
  | 10 => ⟨S_, .f32⟩
  | 11 => ⟨S2048, .f32⟩
  | 12 => ⟨S_, .f32⟩
  | 13 => ⟨S2048, .f32⟩
  | 14 => ⟨S_, .i32⟩
  | 15 => ⟨S1, .i32⟩
  | 16 => ⟨S_, .f32⟩
  | 17 => ⟨S2048, .f32⟩
  | 18 => ⟨S_, .f32⟩
  | 19 => ⟨S2048x2048, .f32⟩
  | 20 => ⟨S2047, .i32⟩
  | 21 => ⟨S2047, .i32⟩
  | 22 => ⟨S_, .i32⟩
  | 23 => ⟨S2047, .i32⟩
  | 24 => ⟨S2047, .i1⟩
  | 25 => ⟨S_, .i32⟩
  | 26 => ⟨S2047, .i32⟩
  | 27 => ⟨S2047, .i32⟩
  | 28 => ⟨S2047, .i32⟩
  | 29 => ⟨S_, .i32⟩
  | 30 => ⟨S2047, .i32⟩
  | 31 => ⟨S2047, .i1⟩
  | 32 => ⟨S_, .i32⟩
  | 33 => ⟨S2047, .i32⟩
  | 34 => ⟨S2047, .i32⟩
  | 35 => ⟨S2047, .i32⟩
  | 36 => ⟨S2047x1, .i32⟩
  | 37 => ⟨S2047x1, .i32⟩
  | 38 => ⟨S2047x2, .i32⟩
  | 39 => ⟨S_, .f32⟩
  | 40 => ⟨S2047, .f32⟩
  | 41 => ⟨S2048x2048, .f32⟩
  | 42 => ⟨S8192x1, .i32⟩
  | 43 => ⟨S8192, .i32⟩
  | 44 => ⟨S8192x1, .i32⟩
  | 45 => ⟨S8192, .i32⟩
  | 46 => ⟨S8192x2047, .i32⟩
  | 47 => ⟨S8192x2047, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192, .f32⟩
  | 66 => ⟨S8192, .f32⟩
  | 67 => ⟨S_, .i32⟩
  | 68 => ⟨S8192x2047, .i32⟩
  | 69 => ⟨S8192x2047, .i1⟩
  | 70 => ⟨S_, .i32⟩
  | 71 => ⟨S8192x2047, .i32⟩
  | 72 => ⟨S8192x2047, .i32⟩
  | 73 => ⟨S8192x2047, .i32⟩
  | 74 => ⟨S_, .i32⟩
  | 75 => ⟨S8192x2047, .i32⟩
  | 76 => ⟨S8192x2047, .i1⟩
  | 77 => ⟨S_, .i32⟩
  | 78 => ⟨S8192x2047, .i32⟩
  | 79 => ⟨S8192x2047, .i32⟩
  | 80 => ⟨S8192x2047, .i32⟩
  | 81 => ⟨S8192x2047x1, .i32⟩
  | 82 => ⟨S8192x2047x1, .i32⟩
  | 83 => ⟨S8192x2047x2, .i32⟩
  | 84 => ⟨S8192x2047, .f32⟩
  | 85 => ⟨S_, .f32⟩
  | 86 => ⟨S8192, .f32⟩
  | 87 => ⟨S8192, .f32⟩
  | 88 => ⟨S_, .f32⟩
  | 89 => ⟨S_, .f32⟩
  | 90 => ⟨S8192, .f32⟩
  | 91 => ⟨S8192, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S2048, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S2048, .f32⟩
  | 110 => ⟨S8192x1, .f32⟩
  | 111 => ⟨S8192x2047, .f32⟩
  | 112 => ⟨S_, .i32⟩
  | 113 => ⟨S8192x2047, .i32⟩
  | 114 => ⟨S8192x2047, .i1⟩
  | 115 => ⟨S_, .i32⟩
  | 116 => ⟨S8192x2047, .i32⟩
  | 117 => ⟨S8192x2047, .i32⟩
  | 118 => ⟨S8192x2047, .i32⟩
  | 119 => ⟨S_, .i32⟩
  | 120 => ⟨S8192x2047, .i32⟩
  | 121 => ⟨S8192x2047, .i1⟩
  | 122 => ⟨S_, .i32⟩
  | 123 => ⟨S8192x2047, .i32⟩
  | 124 => ⟨S8192x2047, .i32⟩
  | 125 => ⟨S8192x2047, .i32⟩
  | 126 => ⟨S8192x2047x1, .i32⟩
  | 127 => ⟨S8192x2047x1, .i32⟩
  | _ => ⟨S2048x2048, .f32⟩

abbrev hbmTy0_1 (i : Nat) : BufTy := match i % 128 with
  | 0 => ⟨S8192x2047x2, .i32⟩
  | 1 => ⟨S2048x2048, .f32⟩
  | 2 => ⟨S2048, .f32⟩
  | 3 => ⟨S_, .f32⟩
  | 4 => ⟨S_, .f32⟩
  | 5 => ⟨S2048, .f32⟩
  | 6 => ⟨S_, .f32⟩
  | 7 => ⟨S_, .f32⟩
  | 8 => ⟨S_, .f32⟩
  | 9 => ⟨S2048x2048, .f32⟩
  | 10 => ⟨S_, .f32⟩
  | 11 => ⟨S_, .f32⟩
  | 12 => ⟨S_, .f32⟩
  | 13 => ⟨S2048x2048, .f32⟩
  | 14 => ⟨S_, .f32⟩
  | 15 => ⟨S_, .f32⟩
  | 16 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_5 : Ref sig .tc := ⟨.hbm, 22, rfl⟩
abbrev main_v10 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_v16 : Ref sig .tc := ⟨.hbm, 31, rfl⟩
abbrev main_c_8 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_9 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_c_11 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_12 : Ref sig .tc := ⟨.hbm, 57, rfl⟩
abbrev main_v38 : Ref sig .tc := ⟨.hbm, 58, rfl⟩
abbrev main_v39 : Ref sig .tc := ⟨.hbm, 59, rfl⟩
abbrev main_c_13 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_14 : Ref sig .tc := ⟨.hbm, 67, rfl⟩
abbrev main_v46 : Ref sig .tc := ⟨.hbm, 68, rfl⟩
abbrev main_v47 : Ref sig .tc := ⟨.hbm, 69, rfl⟩
abbrev main_c_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_16 : Ref sig .tc := ⟨.hbm, 74, rfl⟩
abbrev main_v51 : Ref sig .tc := ⟨.hbm, 75, rfl⟩
abbrev main_v52 : Ref sig .tc := ⟨.hbm, 76, rfl⟩
abbrev main_c_17 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_cst_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_20 : Ref sig .tc := ⟨.hbm, 92, rfl⟩
abbrev main_v65 : Ref sig .tc := ⟨.hbm, 93, rfl⟩
abbrev main_v66 : Ref sig .tc := ⟨.hbm, 94, rfl⟩
abbrev main_c_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_22 : Ref sig .tc := ⟨.hbm, 101, rfl⟩
abbrev main_v72 : Ref sig .tc := ⟨.hbm, 102, rfl⟩
abbrev main_v73 : Ref sig .tc := ⟨.hbm, 103, rfl⟩
abbrev main_c_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_24 : Ref sig .tc := ⟨.hbm, 112, rfl⟩
abbrev main_v81 : Ref sig .tc := ⟨.hbm, 113, rfl⟩
abbrev main_v82 : Ref sig .tc := ⟨.hbm, 114, rfl⟩
abbrev main_c_25 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_26 : Ref sig .tc := ⟨.hbm, 119, rfl⟩
abbrev main_v86 : Ref sig .tc := ⟨.hbm, 120, rfl⟩
abbrev main_v87 : Ref sig .tc := ⟨.hbm, 121, rfl⟩
abbrev main_c_27 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_28 : Ref sig .tc := ⟨.hbm, 131, rfl⟩
abbrev main_v96 : Ref sig .tc := ⟨.hbm, 132, rfl⟩
abbrev main_v97 : Ref sig .tc := ⟨.hbm, 133, rfl⟩
abbrev main_cst_29 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_30 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_31 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S_S1 : S_.BroadcastsInDim S1 (![] : Fin 0 → Fin S1.rank)
  bcast_S_S2048x2048 : S_.BroadcastsInDim S2048x2048 (![] : Fin 0 → Fin S2048x2048.rank)
  slices_S2048_S2047_0 : S2048.Slices ![0] S2047
  slices_S2048_S2047_1 : S2048.Slices ![1] S2047
  bcast_S_S2047 : S_.BroadcastsInDim S2047 (![] : Fin 0 → Fin S2047.rank)
  bcast_S2047_S2047x1_0 : S2047.BroadcastsInDim S2047x1 (![0] : Fin 1 → Fin S2047x1.rank)
  concatenates_S2047x1_S2047x1_S2047x2_d1 : Shape.Concatenates [S2047x1, S2047x1] S2047x2 1
  slices_S8192x2048_S8192x1_0_0 : S8192x2048.Slices ![0, 0] S8192x1
  shapeCasts_S8192x1_S8192 : S8192x1.ShapeCasts S8192
  slices_S8192x2048_S8192x1_0_2047 : S8192x2048.Slices ![0, 2047] S8192x1
  slices_S8192x2048_S8192x2047_0_0 : S8192x2048.Slices ![0, 0] S8192x2047
  slices_S8192x2048_S8192x2047_0_1 : S8192x2048.Slices ![0, 1] S8192x2047
  bcast_S_S8192 : S_.BroadcastsInDim S8192 (![] : Fin 0 → Fin S8192.rank)
  bcast_S8192_S8192x1_0 : S8192.BroadcastsInDim S8192x1 (![0] : Fin 1 → Fin S8192x1.rank)
  bcast_S_S8192x2047 : S_.BroadcastsInDim S8192x2047 (![] : Fin 0 → Fin S8192x2047.rank)
  bcast_S8192x2047_S8192x2047x1_0_1 : S8192x2047.BroadcastsInDim S8192x2047x1 (![0, 1] : Fin 2 → Fin S8192x2047x1.rank)
  concatenates_S8192x2047x1_S8192x2047x1_S8192x2047x2_d2 : Shape.Concatenates [S8192x2047x1, S8192x2047x1] S8192x2047x2 2
  reducesTo_S8192x2047_S8192_d1 : S8192x2047.ReducesTo [1] S8192
  h_S_ : 0 < S_.numel
  reducesTo_S8192_S_d0 : S8192.ReducesTo [0] S_
  bcast_S8192x1_S8192x2047_0_1 : S8192x1.BroadcastsInDim S8192x2047 (![0, 1] : Fin 2 → Fin S8192x2047.rank)
  reducesTo_S2048_S_d0 : S2048.ReducesTo [0] S_
  reducesTo_S2048x2048_S_d0_1 : S2048x2048.ReducesTo [0, 1] S_
  scatter_S2048_S1_S__n_0_0_0_wf : ScatterDims.WF S2048 S1 S_ [] [0] [0] 0
  scatter_S2048x2048_S2047x2_S2047_n_01_01_1_wf : ScatterDims.WF S2048x2048 S2047x2 S2047 [] [0, 1] [0, 1] 1
  gather_S2048_S8192x1_S8192_n_0_n_n_0_1_1_wf : GatherDims.WF S2048 S8192x1 S8192 [] [0] [] [0] [] 1 ![1]
  gather_S2048x2048_S8192x2047x2_S8192x2047_n_01_n_n_01_2_11_wf : GatherDims.WF S2048x2048 S8192x2047x2 S8192x2047 [] [0, 1] [] [0, 1] [] 2 ![1, 1]
  scatter_S2048_S8192x1_S8192_n_0_0_1_wf : ScatterDims.WF S2048 S8192x1 S8192 [] [0] [0] 1
  scatter_S2048x2048_S8192x2047x2_S8192x2047_n_01_01_2_wf : ScatterDims.WF S2048x2048 S8192x2047x2 S8192x2047 [] [0, 1] [0, 1] 2

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S2048x2048_S2047x2_S2047_n_01_01_1 : ScatterDims S2048x2048 S2047x2 S2047 where
  updateWindowDims := []
  insertedWindowDims := [0, 1]
  scatterDimsToOperandDims := [0, 1]
  indexVectorDim := 1
  wf := scatter_S2048x2048_S2047x2_S2047_n_01_01_1_wf
def gather_S2048_S8192x1_S8192_n_0_n_n_0_1_1 : GatherDims S2048 S8192x1 S8192 where
  offsetDims := []
  collapsedSliceDims := [0]
  operandBatchingDims := []
  startIndicesBatchingDims := []
  startIndexMap := [0]
  indexVectorDim := 1
  sliceSizes := ![1]
  wf := gather_S2048_S8192x1_S8192_n_0_n_n_0_1_1_wf
def gather_S2048x2048_S8192x2047x2_S8192x2047_n_01_n_n_01_2_11 : GatherDims S2048x2048 S8192x2047x2 S8192x2047 where
  offsetDims := []
  collapsedSliceDims := [0, 1]
  operandBatchingDims := []
  startIndicesBatchingDims := []
  startIndexMap := [0, 1]
  indexVectorDim := 2
  sliceSizes := ![1, 1]
  wf := gather_S2048x2048_S8192x2047x2_S8192x2047_n_01_n_n_01_2_11_wf
def scatter_S2048_S8192x1_S8192_n_0_0_1 : ScatterDims S2048 S8192x1 S8192 where
  updateWindowDims := []
  insertedWindowDims := [0]
  scatterDimsToOperandDims := [0]
  indexVectorDim := 1
  wf := scatter_S2048_S8192x1_S8192_n_0_0_1_wf
def scatter_S2048x2048_S8192x2047x2_S8192x2047_n_01_01_2 : ScatterDims S2048x2048 S8192x2047x2 S8192x2047 where
  updateWindowDims := []
  insertedWindowDims := [0, 1]
  scatterDimsToOperandDims := [0, 1]
  indexVectorDim := 2
  wf := scatter_S2048x2048_S8192x2047x2_S8192x2047_n_01_01_2_wf

class Facts : Prop extends Facts₀ where

variable [Facts]
-- ==== Proof.Spec.lean ====
/-
  The importance-sampled path loss, as mathematics, with no program in sight.

  A sample `i` is a path of 2048 word indices `σ i 0, …, σ i 2047`.  Its ratio is
  `pathA i = start (σ i 0) + end (σ i 2047) + ∑ₜ bigram (σ i t) (σ i (t+1))`, its bias sum
  `pathB i = ∑ₜ bias (σ i t) (σ i (t+1))`, and `total = ∑ᵢ pathA i`.

  One program scatters the weights `pathA i / total` back onto the tables (on top of a `-1` on the identity path
  `0 → 1 → … → 2047`) and then takes the dot products with the tables (`scatterLoss`); the other never builds
  the scattered tables and evaluates `identityTerm + (∑ A² + ∑ A·B) / total` (`closedLoss`).  For real-valued
  tables and a nonzero total they are equal: a sum over table cells of `cell · (weights landing on the cell)`
  is the sum over samples of `weight · (cells the sample visits)`, and the weights share the one denominator.
-/
import Idealize.ShloMosaic.PureOps.Ideal

noncomputable section

namespace Cert.PathLoss

open Idealize.ShloMosaic
open scoped BigOperators

variable (σ : Fin 8192 → Fin 2048 → Fin 2048)
variable (st en : Fin 2048 → EReal) (bg bb : Fin 2048 → Fin 2048 → EReal)

/-- The ratio of sample `i`: its first word's start weight, its last word's end weight, and the bigram
    weights of its 2047 consecutive pairs. -/
def pathA (i : Fin 8192) : EReal :=
  (st (σ i 0) + en (σ i 2047)) + ∑ t : Fin 2047, bg (σ i t.castSucc) (σ i t.succ)

/-- The bias summed along sample `i`'s consecutive pairs. -/
def pathB (i : Fin 8192) : EReal :=
  ∑ t : Fin 2047, bb (σ i t.castSucc) (σ i t.succ)

/-- The normaliser: all samples' ratios summed. -/
def total : EReal := ∑ i : Fin 8192, pathA σ st en bg i

/-- The contribution of the `-1` marks on the identity path `0 → 1 → … → 2047`. -/
def identityTerm : EReal :=
  ((-(st 0) - en 2047) - ∑ k : Fin 2047, bg k.castSucc k.succ) - ∑ k : Fin 2047, bb k.castSucc k.succ

/-- The loss in closed form: no scattered table is built. -/
def closedLoss : EReal :=
  identityTerm st en bg bb
    + Ideal.div ((∑ i : Fin 8192, pathA σ st en bg i * pathA σ st en bg i)
                  + (∑ i : Fin 8192, pathA σ st en bg i * pathB σ bb i))
        (total σ st en bg)

/-- Sample `i`'s normalised weight. -/
def weight (i : Fin 8192) : EReal := Ideal.div (pathA σ st en bg i) (total σ st en bg)

/-- The start table's target: `-1` at word 0, plus the weights of the samples that start at `j`. -/
def startT (j : Fin 2048) : EReal :=
  (if j = 0 then (-1 : EReal) else 0) + ∑ i ∈ Finset.univ.filter (fun i : Fin 8192 => σ i 0 = j), weight σ st en bg i

/-- The end table's target: `-1` at word 2047, plus the weights of the samples that end at `j`. -/
def endT (j : Fin 2048) : EReal :=
  (if j = 2047 then (-1 : EReal) else 0) + ∑ i ∈ Finset.univ.filter (fun i : Fin 8192 => σ i 2047 = j), weight σ st en bg i

/-- The bigram table's target: `-1` on the identity path's pairs `(k, k+1)`, plus, for every occurrence of the pair
    `(r, c)` at consecutive positions of a sample, that sample's weight. -/
def bigramT (r c : Fin 2048) : EReal :=
  (if r.val + 1 = c.val then (-1 : EReal) else 0)
    + ∑ p ∈ (Finset.univ : Finset (Fin 8192 × Fin 2047)).filter
        (fun p => σ p.1 p.2.castSucc = r ∧ σ p.1 p.2.succ = c), weight σ st en bg p.1

/-- The loss by scattering: the four dot products of the tables with their targets. -/
def scatterLoss : EReal :=
  ((∑ j : Fin 2048, st j * startT σ st en bg j + ∑ j : Fin 2048, en j * endT σ st en bg j)
      + ∑ r : Fin 2048, ∑ c : Fin 2048, bg r c * bigramT σ st en bg r c)
    + ∑ r : Fin 2048, ∑ c : Fin 2048, bb r c * bigramT σ st en bg r c

/-! ### Counting twice, over the reals -/

/-- A real sum, coerced, is the sum of the coerced terms. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A table dotted with the weights that land on each of its cells is the weighted sum, over the
    samples, of the cell each sample lands on. -/
private theorem sum_mul_fiber {I J : Type*} [Fintype I] [Fintype J] [DecidableEq J]
    (w : I → ℝ) (f : I → J) (g : J → ℝ) :
    ∑ j, g j * ∑ i ∈ Finset.univ.filter (fun i => f i = j), w i = ∑ i, w i * g (f i) := by
  have h : ∀ j, g j * ∑ i ∈ Finset.univ.filter (fun i => f i = j), w i
      = ∑ i ∈ Finset.univ.filter (fun i => f i = j), w i * g (f i) := by
    intro j
    rw [Finset.mul_sum]
    refine Finset.sum_congr rfl (fun i hi => ?_)
    rw [(Finset.mem_filter.mp hi).2, mul_comm]
  rw [Finset.sum_congr rfl (fun j _ => h j)]
  exact Finset.sum_fiberwise Finset.univ f (fun i => w i * g (f i))

/-- One table with a mark at one cell: the mark picks that cell out, the weights follow the samples. -/
private theorem sum_mul_mark_fiber {I J : Type*} [Fintype I] [Fintype J] [DecidableEq J]
    (w : I → ℝ) (f : I → J) (g : J → ℝ) (j0 : J) :
    ∑ j, g j * ((if j = j0 then (-1 : ℝ) else 0) + ∑ i ∈ Finset.univ.filter (fun i => f i = j), w i)
      = -g j0 + ∑ i, w i * g (f i) := by
  simp only [mul_add, Finset.sum_add_distrib, sum_mul_fiber]
  congr 1
  simp [Finset.sum_ite_eq']

/-- The two-index table: cells are pairs, a sample lands on one pair per position. -/
private theorem sum_mul_pair_fiber {I T J : Type*} [Fintype I] [Fintype T] [Fintype J] [DecidableEq J]
    (w : I → ℝ) (f1 f2 : I → T → J) (g : J → J → ℝ) :
    ∑ r, ∑ c, g r c * ∑ p ∈ (Finset.univ : Finset (I × T)).filter
        (fun p => f1 p.1 p.2 = r ∧ f2 p.1 p.2 = c), w p.1
      = ∑ i, w i * ∑ t, g (f1 i t) (f2 i t) := by
  have h := sum_mul_fiber (I := I × T) (J := J × J) (fun p => w p.1)
    (fun p => (f1 p.1 p.2, f2 p.1 p.2)) (fun q => g q.1 q.2)
  rw [Fintype.sum_prod_type, Fintype.sum_prod_type] at h
  simp only [Prod.mk.injEq] at h
  rw [h]
  simp only [Finset.mul_sum]

/-- The marks on the path `0 → 1 → … → n`: the pairs `(r, c)` with `r + 1 = c` are the pairs
    `(k, k + 1)` for `k < n`. -/
private theorem sum_succ_mark (n : ℕ) (g : Fin (n + 1) → Fin (n + 1) → ℝ) :
    ∑ r : Fin (n + 1), ∑ c : Fin (n + 1), g r c * (if r.val + 1 = c.val then (-1 : ℝ) else 0)
      = -∑ k : Fin n, g k.castSucc k.succ := by
  have h : ∀ r : Fin (n + 1), ∑ c : Fin (n + 1), g r c * (if r.val + 1 = c.val then (-1 : ℝ) else 0)
      = ∑ k : Fin n, (if r = k.castSucc then -g k.castSucc k.succ else 0) := by
    intro r
    rw [Fin.sum_univ_succ]
    simp only [Fin.val_zero, Nat.succ_ne_zero, if_false, mul_zero, zero_add, Fin.val_succ, add_left_inj]
    refine Finset.sum_congr rfl (fun k _ => ?_)
    by_cases hk : r = k.castSucc
    · subst hk; simp
    · have : ¬ (r.val = k.val) := fun e => hk (Fin.ext (by simpa using e))
      simp [hk, this]
  rw [Finset.sum_congr rfl (fun r _ => h r), Finset.sum_comm]
  simp [Finset.sum_ite_eq']

/-! ### The same quantities for real tables, and the coercions that carry them -/

section RealTables

variable (s e : Fin 2048 → ℝ) (g b : Fin 2048 → Fin 2048 → ℝ)

/-- `pathA` for real tables. -/
private def pathAR (i : Fin 8192) : ℝ :=
  (s (σ i 0) + e (σ i 2047)) + ∑ t : Fin 2047, g (σ i t.castSucc) (σ i t.succ)

/-- `pathB` for a real bias table. -/
private def pathBR (i : Fin 8192) : ℝ :=
  ∑ t : Fin 2047, b (σ i t.castSucc) (σ i t.succ)

/-- `total` for real tables. -/
private def totalR : ℝ := ∑ i : Fin 8192, pathAR σ s e g i

/-- `weight` for real tables: the ratio times the reciprocal of the total. -/
private def weightR (i : Fin 8192) : ℝ := pathAR σ s e g i * (1 / totalR σ s e g)

/-- `closedLoss` for real tables. -/
private def closedR : ℝ :=
  (((-(s 0) - e 2047) - ∑ k : Fin 2047, g k.castSucc k.succ) - ∑ k : Fin 2047, b k.castSucc k.succ)
    + ((∑ i : Fin 8192, pathAR σ s e g i * pathAR σ s e g i)
        + (∑ i : Fin 8192, pathAR σ s e g i * pathBR σ b i)) * (1 / totalR σ s e g)

/-- `startT` for real tables. -/
private def startR (j : Fin 2048) : ℝ :=
  (if j = 0 then (-1 : ℝ) else 0) + ∑ i ∈ Finset.univ.filter (fun i : Fin 8192 => σ i 0 = j), weightR σ s e g i

/-- `endT` for real tables. -/
private def endR (j : Fin 2048) : ℝ :=
  (if j = 2047 then (-1 : ℝ) else 0) + ∑ i ∈ Finset.univ.filter (fun i : Fin 8192 => σ i 2047 = j), weightR σ s e g i

/-- `bigramT` for real tables. -/
private def bigramR (r c : Fin 2048) : ℝ :=
  (if r.val + 1 = c.val then (-1 : ℝ) else 0)
    + ∑ p ∈ (Finset.univ : Finset (Fin 8192 × Fin 2047)).filter
        (fun p => σ p.1 p.2.castSucc = r ∧ σ p.1 p.2.succ = c), weightR σ s e g p.1

/-- `scatterLoss` for real tables. -/
private def scatterR : ℝ :=
  ((∑ j : Fin 2048, s j * startR σ s e g j + ∑ j : Fin 2048, e j * endR σ s e g j)
      + ∑ r : Fin 2048, ∑ c : Fin 2048, g r c * bigramR σ s e g r c)
    + ∑ r : Fin 2048, ∑ c : Fin 2048, b r c * bigramR σ s e g r c

/-- Over the reals the two losses agree: each scattered dot product is its identity mark plus the weighted
    sum over the samples of what the sample visits; the four weighted sums add up, sample by sample, to
    `weight · (A + B)`, and the weights share the one reciprocal. -/
private theorem closedR_eq_scatterR : closedR σ s e g b = scatterR σ s e g b := by
  have hg : ∑ r : Fin 2048, ∑ c : Fin 2048, g r c * (if r.val + 1 = c.val then (-1 : ℝ) else 0)
      = -∑ k : Fin 2047, g k.castSucc k.succ := sum_succ_mark 2047 g
  have hb : ∑ r : Fin 2048, ∑ c : Fin 2048, b r c * (if r.val + 1 = c.val then (-1 : ℝ) else 0)
      = -∑ k : Fin 2047, b k.castSucc k.succ := sum_succ_mark 2047 b
  have hpg := sum_mul_pair_fiber (weightR σ s e g) (fun i (t : Fin 2047) => σ i t.castSucc)
    (fun i (t : Fin 2047) => σ i t.succ) g
  have hpb := sum_mul_pair_fiber (weightR σ s e g) (fun i (t : Fin 2047) => σ i t.castSucc)
    (fun i (t : Fin 2047) => σ i t.succ) b
  have hsum : ((∑ i : Fin 8192, pathAR σ s e g i * pathAR σ s e g i)
        + (∑ i : Fin 8192, pathAR σ s e g i * pathBR σ b i)) * (1 / totalR σ s e g)
      = ((∑ i, weightR σ s e g i * s (σ i 0) + ∑ i, weightR σ s e g i * e (σ i 2047))
          + ∑ i, weightR σ s e g i * ∑ t : Fin 2047, g (σ i t.castSucc) (σ i t.succ))
        + ∑ i, weightR σ s e g i * ∑ t : Fin 2047, b (σ i t.castSucc) (σ i t.succ) := by
    rw [← Finset.sum_add_distrib, Finset.sum_mul, ← Finset.sum_add_distrib, ← Finset.sum_add_distrib,
      ← Finset.sum_add_distrib]
    refine Finset.sum_congr rfl (fun i _ => ?_)
    simp only [weightR, pathAR, pathBR]
    ring
  unfold closedR scatterR
  simp only [startR, endR, bigramR]
  rw [sum_mul_mark_fiber, sum_mul_mark_fiber]
  simp only [mul_add, Finset.sum_add_distrib]
  rw [hg, hb, hpg, hpb, hsum]
  ring

/-- The real ratio, coerced, is `pathA` of the coerced tables. -/
private theorem pathA_coe (i : Fin 8192) :
    pathA σ (fun j => (s j : EReal)) (fun j => (e j : EReal)) (fun r c => (g r c : EReal)) i
      = ((pathAR σ s e g i : ℝ) : EReal) := by
  simp only [pathA, pathAR, EReal.coe_add, coe_sum]

/-- The real bias sum, coerced, is `pathB` of the coerced table. -/
private theorem pathB_coe (i : Fin 8192) :
    pathB σ (fun r c => (b r c : EReal)) i = ((pathBR σ b i : ℝ) : EReal) := by
  simp only [pathB, pathBR, coe_sum]

/-- The real total, coerced, is `total` of the coerced tables. -/
private theorem total_coe :
    total σ (fun j => (s j : EReal)) (fun j => (e j : EReal)) (fun r c => (g r c : EReal))
      = ((totalR σ s e g : ℝ) : EReal) := by
  simp only [total, totalR, pathA_coe, coe_sum]

/-- Division by the real, nonzero total is the product with its reciprocal. -/
private theorem weight_coe (hS : totalR σ s e g ≠ 0) (i : Fin 8192) :
    weight σ (fun j => (s j : EReal)) (fun j => (e j : EReal)) (fun r c => (g r c : EReal)) i
      = ((weightR σ s e g i : ℝ) : EReal) := by
  rw [weight, total_coe, pathA_coe, Ideal.div_coe hS, weightR, EReal.coe_mul]

/-- A `-1` mark is the coercion of the real `-1` mark. -/
private theorem mark_coe (p : Prop) [Decidable p] :
    (if p then (-1 : EReal) else 0) = (((if p then (-1 : ℝ) else 0) : ℝ) : EReal) := by
  split_ifs <;> simp

/-- The scattered targets and the two losses of the coerced tables are the coercions of the real ones:
    coercion commutes with the sums, products, differences and negations they are built from. -/
private theorem startT_coe (hS : totalR σ s e g ≠ 0) (j : Fin 2048) :
    startT σ (fun j => (s j : EReal)) (fun j => (e j : EReal)) (fun r c => (g r c : EReal)) j
      = ((startR σ s e g j : ℝ) : EReal) := by
  simp only [startT, startR, weight_coe σ s e g hS, EReal.coe_add, coe_sum, mark_coe]

private theorem endT_coe (hS : totalR σ s e g ≠ 0) (j : Fin 2048) :
    endT σ (fun j => (s j : EReal)) (fun j => (e j : EReal)) (fun r c => (g r c : EReal)) j
      = ((endR σ s e g j : ℝ) : EReal) := by
  simp only [endT, endR, weight_coe σ s e g hS, EReal.coe_add, coe_sum, mark_coe]

private theorem bigramT_coe (hS : totalR σ s e g ≠ 0) (r c : Fin 2048) :
    bigramT σ (fun j => (s j : EReal)) (fun j => (e j : EReal)) (fun r c => (g r c : EReal)) r c
      = ((bigramR σ s e g r c : ℝ) : EReal) := by
  simp only [bigramT, bigramR, weight_coe σ s e g hS, EReal.coe_add, coe_sum, mark_coe]

private theorem scatterLoss_coe (hS : totalR σ s e g ≠ 0) :
    scatterLoss σ (fun j => (s j : EReal)) (fun j => (e j : EReal)) (fun r c => (g r c : EReal))
        (fun r c => (b r c : EReal))
      = ((scatterR σ s e g b : ℝ) : EReal) := by
  simp only [scatterLoss, scatterR, startT_coe σ s e g hS, endT_coe σ s e g hS, bigramT_coe σ s e g hS,
    EReal.coe_add, EReal.coe_mul, coe_sum]

private theorem closedLoss_coe (hS : totalR σ s e g ≠ 0) :
    closedLoss σ (fun j => (s j : EReal)) (fun j => (e j : EReal)) (fun r c => (g r c : EReal))
        (fun r c => (b r c : EReal))
      = ((closedR σ s e g b : ℝ) : EReal) := by
  rw [closedLoss, total_coe, Ideal.div_coe hS]
  simp only [identityTerm, closedR, pathA_coe, pathB_coe, EReal.coe_add, EReal.coe_sub, EReal.coe_neg,
    EReal.coe_mul, coe_sum]

end RealTables

/-- Real-valued tables and a nonzero total: the closed form is the scattered form. -/
theorem closedLoss_eq_scatterLoss
    (hst : ∀ j, ∃ x : ℝ, st j = (x : EReal)) (hen : ∀ j, ∃ x : ℝ, en j = (x : EReal))
    (hbg : ∀ r c, ∃ x : ℝ, bg r c = (x : EReal)) (hbb : ∀ r c, ∃ x : ℝ, bb r c = (x : EReal))
    (hS : total σ st en bg ≠ 0) :
    closedLoss σ st en bg bb = scatterLoss σ st en bg bb := by
  choose s hs using hst
  choose e he using hen
  choose g hg using hbg
  choose b hb using hbb
  obtain rfl : st = fun j => (s j : EReal) := funext hs
  obtain rfl : en = fun j => (e j : EReal) := funext he
  obtain rfl : bg = fun r c => (g r c : EReal) := funext fun r => funext fun c => hg r c
  obtain rfl : bb = fun r c => (b r c : EReal) := funext fun r => funext fun c => hb r c
  have hS' : totalR σ s e g ≠ 0 := by
    intro h0
    apply hS
    rw [total_coe, h0, EReal.coe_zero]
  rw [closedLoss_coe σ s e g b hS', scatterLoss_coe σ s e g b hS', closedR_eq_scatterR]

end Cert.PathLoss

end
-- ==== Proof.Decode.lean ====
/-
  The path loss of `Spec` read off the five argument arrays: the two 2048 × 2048 tables, the two vectors of length
  2048, and the 8192 × 2048 array of sampled words (32-bit integers).  A sampled word is read as an unsigned number
  and reduced mod 2048; for a word that already is a word index (`InRange`) that changes nothing, and it makes the
  decoded path a total function.
-/
import Idealize.ShloMosaic.Lib.ValueIdx
import proofs.«411131_j14714557956388_2_alg».proof.Proof.Spec

noncomputable section

namespace Cert.PathLoss

open Idealize.ShloMosaic Idealize.ShloMosaic.ValueIdx

/-- The shapes of the argument arrays, spelt out. -/
abbrev STable : Shape := ⟨2, ![2048, 2048]⟩
abbrev SVector : Shape := ⟨1, ![2048]⟩
abbrev SSamples : Shape := ⟨2, ![8192, 2048]⟩

/-- The word at position `t` of sample `i`. -/
def decode (smp : IVec SSamples 32) (i : Fin 8192) (t : Fin 2048) : Fin 2048 :=
  ⟨(smp (ix2 i t)).toNat % 2048, Nat.mod_lt _ (by norm_num)⟩

/-- Every sampled word is a word index. -/
def InRange (smp : IVec SSamples 32) : Prop :=
  ∀ (i : Fin 8192) (t : Fin 2048), (smp (ix2 i t)).toNat < 2048

/-- A vector of length 2048 and a 2048 × 2048 table, by coordinates. -/
def tab1 (x : FVec Ideal SVector .f32) (j : Fin 2048) : EReal := x (ix1 j)
def tab2 (x : FVec Ideal STable .f32) (r c : Fin 2048) : EReal := x (ix2 r c)

/-- Every entry of an array of extended reals is a real. -/
def RealArr {s : Shape} (x : FVec Ideal s .f32) : Prop := ∀ i, ∃ r : ℝ, x i = (r : EReal)

variable (a0 : FVec Ideal STable .f32) (a1 a2 : FVec Ideal SVector .f32) (a3 : FVec Ideal STable .f32)
  (a4 : IVec SSamples 32)

/-- Sample `i`'s ratio, its bias sum, and the normaliser, from the arrays. -/
def ratioOf (i : Fin 8192) : EReal := pathA (decode a4) (tab1 a1) (tab1 a2) (tab2 a0) i
def biasOf (i : Fin 8192) : EReal := pathB (decode a4) (tab2 a3) i
def totalOf : EReal := total (decode a4) (tab1 a1) (tab1 a2) (tab2 a0)

/-- The loss in closed form, and the loss by scattering, from the arrays. -/
def closedOf : EReal := closedLoss (decode a4) (tab1 a1) (tab1 a2) (tab2 a0) (tab2 a3)
def scatterOf : EReal := scatterLoss (decode a4) (tab1 a1) (tab1 a2) (tab2 a0) (tab2 a3)

/-- For real-valued arrays and a nonzero normaliser the two are equal. -/
theorem closedOf_eq_scatterOf (h0 : RealArr a0) (h1 : RealArr a1) (h2 : RealArr a2) (h3 : RealArr a3)
    (hS : totalOf a0 a1 a2 a4 ≠ 0) : closedOf a0 a1 a2 a3 a4 = scatterOf a0 a1 a2 a3 a4 :=
  closedLoss_eq_scatterLoss _ _ _ _ _ (fun j => h1 _) (fun j => h2 _) (fun r c => h0 _) (fun r c => h3 _) hS

end Cert.PathLoss

end
-- ==== Proof.RefRatio.lean ====
/-
  The reference program's first half, read at an index: each sample's ratio (two gathers from the vectors, a
  gather of 2047 table cells, a row sum), the normaliser, and the normalised weights.

  A sampled word that is a word index is not negative, so the wrap-around applied to negative indices returns it
  unchanged; a gather whose start index is in range reads the operand at that index, with no clamping.  With both in
  hand every stage is the path quantity it computes: the three gathers read the start vector at the first word, the
  end vector at the last word and the table at the consecutive pairs; the row sum from zero is the sum over the
  2047 pairs; the sum over all samples is the normaliser; the quotient is the weight.
-/
import proofs.«411131_j14714557956388_2_alg».proof.Proof.Gen.ReferenceIdeal.Read
import proofs.«411131_j14714557956388_2_alg».proof.Proof.Decode
import Idealize.ShloMosaic.Lib.ValueIdxRank1

noncomputable section

namespace Cert.RefValue

open Cert.PathLoss Cert.ReferenceIdeal Cert.ReferenceIdeal.Read Idealize.ShloMosaic Idealize.ShloMosaic.ValueIdx

variable (x0 : (⟨S2048x2048, .f32⟩ : BufTy).Contents (Elt Ideal)) (x1 x2 : (⟨S2048, .f32⟩ : BufTy).Contents (Elt Ideal))
  (x3 : (⟨S2048x2048, .f32⟩ : BufTy).Contents (Elt Ideal)) (x4 : (⟨S8192x2048, .i32⟩ : BufTy).Contents (Elt Ideal))

namespace Ratio

/-! ### Words below 2048 -/

/-- A word below 2048 reads the same signed and unsigned. -/
theorem toInt_small (w : BitVec 32) (hw : w.toNat < 2048) : w.toInt = (w.toNat : Int) := by
  rw [BitVec.toInt_eq_msb_cond, BitVec.msb_eq_false_iff_two_mul_lt.mpr (by omega)]
  simp

/-- A word below 2048 is not negative: the wrap-around of a negative index leaves it alone. -/
theorem norm_word (w : BitVec 32) (hw : w.toNat < 2048) :
    Scalar.select (IntOp.cmpi .slt w 0#32) (IntOp.addi w 2048#32) w = w := by
  have hs : w.slt 0#32 = false := by
    have h0 : (0#32 : BitVec 32).toInt = 0 := by decide
    rw [BitVec.slt, toInt_small w hw, h0]
    exact decide_eq_false (by omega)
  have hc : IntOp.cmpi .slt w 0#32 = 0#1 := by
    show BitVec.ofBool (w.slt 0#32) = 0#1
    rw [hs]; rfl
  rw [hc, select_zero]

/-! ### A gather with its start indices in range -/

variable {α : Type}

/-- The gather of a vector at a column of start indices, read at row `i`: with the start index in range it is the vector's
    entry at that index. -/
theorem gather1_apply (x : S2048.Idx → α) (idx : IVec S8192x1 32) (i : Fin 8192)
    (hlt : (idx (ix2 i (0 : Fin 1))).toNat < 2048) :
    Host.gather gather_S2048_S8192x1_S8192_n_0_n_n_0_1_1 x idx (ix1 i)
      = x (ix1 ⟨(idx (ix2 i (0 : Fin 1))).toNat, hlt⟩) := by
  unfold Host.gather
  congr 1
  funext a
  obtain rfl : a = 0 := Subsingleton.elim _ _
  refine Fin.ext ?_
  show gather_S2048_S8192x1_S8192_n_0_n_n_0_1_1.start (ix1 i) idx 0
      + gather_S2048_S8192x1_S8192_n_0_n_n_0_1_1.batchCoord (ix1 i) 0
      + gather_S2048_S8192x1_S8192_n_0_n_n_0_1_1.offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S2048_S8192x1_S8192_n_0_n_n_0_1_1.startIndexMap from List.mem_singleton.mpr rfl)]
  have hsi : gather_S2048_S8192x1_S8192_n_0_n_n_0_1_1.siIdx (ix1 i)
      ⟨List.idxOf (0 : Fin 1) gather_S2048_S8192x1_S8192_n_0_n_n_0_1_1.startIndexMap,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  show min (idx (ix2 i (0 : Fin 1))).toInt.toNat (2048 - 1) = (idx (ix2 i (0 : Fin 1))).toNat
  rw [toInt_small _ hlt, Int.toNat_natCast]
  omega

/-- The gather of a table at an array of index pairs, read at `(i, k)`: with both start indices in range it is the table's
    entry at that pair. -/
theorem gather2_apply (x : S2048x2048.Idx → α) (idx : IVec S8192x2047x2 32) (i : Fin 8192) (k : Fin 2047)
    (h0 : (idx (ix3 i k (0 : Fin 2))).toNat < 2048) (h1 : (idx (ix3 i k (1 : Fin 2))).toNat < 2048) :
    Host.gather gather_S2048x2048_S8192x2047x2_S8192x2047_n_01_n_n_01_2_11 x idx (ix2 i k)
      = x (ix2 ⟨(idx (ix3 i k (0 : Fin 2))).toNat, h0⟩ ⟨(idx (ix3 i k (1 : Fin 2))).toNat, h1⟩) := by
  unfold Host.gather
  congr 1
  funext a
  refine Fin.ext ?_
  match a with
  | ⟨0, _⟩ =>
    show gather_S2048x2048_S8192x2047x2_S8192x2047_n_01_n_n_01_2_11.start (ix2 i k) idx 0
        + gather_S2048x2048_S8192x2047x2_S8192x2047_n_01_n_n_01_2_11.batchCoord (ix2 i k) 0
        + gather_S2048x2048_S8192x2047x2_S8192x2047_n_01_n_n_01_2_11.offCoord (ix2 i k) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S2048x2048_S8192x2047x2_S8192x2047_n_01_n_n_01_2_11.startIndexMap
      from List.mem_cons_self ..)]
    have hsi : gather_S2048x2048_S8192x2047x2_S8192x2047_n_01_n_n_01_2_11.siIdx (ix2 i k)
        ⟨List.idxOf (0 : Fin 2) gather_S2048x2048_S8192x2047x2_S8192x2047_n_01_n_n_01_2_11.startIndexMap,
          List.idxOf_lt_length_iff.2 (List.mem_cons_self ..)⟩ = ix3 i k (0 : Fin 2) := by
      funext b; refine Fin.ext ?_
      match b with
      | ⟨0, _⟩ => rfl
      | ⟨1, _⟩ => rfl
      | ⟨2, _⟩ => rfl
    rw [hsi]
    show min (idx (ix3 i k (0 : Fin 2))).toInt.toNat (2048 - 1) = (idx (ix3 i k (0 : Fin 2))).toNat
    rw [toInt_small _ h0, Int.toNat_natCast]
    omega
  | ⟨1, _⟩ =>
    show gather_S2048x2048_S8192x2047x2_S8192x2047_n_01_n_n_01_2_11.start (ix2 i k) idx 1
        + gather_S2048x2048_S8192x2047x2_S8192x2047_n_01_n_n_01_2_11.batchCoord (ix2 i k) 1
        + gather_S2048x2048_S8192x2047x2_S8192x2047_n_01_n_n_01_2_11.offCoord (ix2 i k) 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    simp only [Nat.add_zero]
    unfold GatherDims.start
    rw [dif_pos (show (1 : Fin 2) ∈ gather_S2048x2048_S8192x2047x2_S8192x2047_n_01_n_n_01_2_11.startIndexMap
      from List.mem_cons_of_mem _ (List.mem_singleton.mpr rfl))]
    have hsi : gather_S2048x2048_S8192x2047x2_S8192x2047_n_01_n_n_01_2_11.siIdx (ix2 i k)
        ⟨List.idxOf (1 : Fin 2) gather_S2048x2048_S8192x2047x2_S8192x2047_n_01_n_n_01_2_11.startIndexMap,
          List.idxOf_lt_length_iff.2 (List.mem_cons_of_mem _ (List.mem_singleton.mpr rfl))⟩ = ix3 i k (1 : Fin 2) := by
      funext b; refine Fin.ext ?_
      match b with
      | ⟨0, _⟩ => rfl
      | ⟨1, _⟩ => rfl
      | ⟨2, _⟩ => rfl
    rw [hsi]
    show min (idx (ix3 i k (1 : Fin 2))).toInt.toNat (2048 - 1) = (idx (ix3 i k (1 : Fin 2))).toNat
    rw [toInt_small _ h1, Int.toNat_natCast]
    omega

/-! ### The index arrays, word by word -/

/-- The joined index array's first component is the row-word array … -/
theorem pair_left (i : Fin 8192) (k : Fin 2047) :
    val_main_v58 (F := Ideal) x4 (ix3 i k (0 : Fin 2)) = val_main_v56 (F := Ideal) x4 (ix3 i k (0 : Fin 1)) := by
  unfold val_main_v58
  exact concatenate_pair_apply_left (t := S8192x2047x2) (s₁ := S8192x2047x1) (s₂ := S8192x2047x1) _ _ _ _
    (ix3 i k (0 : Fin 2)) rfl (ix3 i k (0 : Fin 1))
    (fun b => by match b with | ⟨0, _⟩ => rfl | ⟨1, _⟩ => rfl | ⟨2, _⟩ => rfl)

/-- … and its second component the column-word array. -/
theorem pair_right (i : Fin 8192) (k : Fin 2047) :
    val_main_v58 (F := Ideal) x4 (ix3 i k (1 : Fin 2)) = val_main_v57 (F := Ideal) x4 (ix3 i k (0 : Fin 1)) := by
  unfold val_main_v58
  exact concatenate_pair_apply_right (t := S8192x2047x2) (s₁ := S8192x2047x1) (s₂ := S8192x2047x1) _ _ _ _
    (ix3 i k (1 : Fin 2)) rfl rfl (ix3 i k (0 : Fin 1))
    (fun b hb => by
      match b, hb with
      | ⟨0, _⟩, _ => rfl
      | ⟨1, _⟩, _ => rfl
      | ⟨2, _⟩, hb => exact absurd rfl hb)
    rfl

/-- The first-word column, after the wrap-around of negative indices, is the sample's word at position 0 … -/
theorem first_word (h : InRange x4) (i : Fin 8192) :
    val_main_v36 (F := Ideal) x4 (ix2 i (0 : Fin 1)) = x4 (ix2 i (0 : Fin 2048)) := by
  have e : val_main_v26 (F := Ideal) x4 (ix1 i) = x4 (ix2 i (0 : Fin 2048)) := by
    rw [val_main_v26_apply, val_main_v25_apply]
    congr 1
    funext a
    match a with
    | ⟨0, _⟩ => exact Fin.ext (Nat.div_one _)
    | ⟨1, _⟩ => rfl
  have e36 : idx_main_v36 (ix2 i (0 : Fin 1)) = ix1 i := by
    funext a; match a with | ⟨0, _⟩ => rfl
  rw [val_main_v36_apply, e36, val_main_v35_apply, val_main_v32_apply, val_main_v34_apply, val_main_v31_apply,
    val_main_v33_apply, val_main_c_10_apply, val_main_c_11_apply, e]
  exact norm_word _ (h i 0)

/-- … the last-word column its word at position 2047 … -/
theorem last_word (h : InRange x4) (i : Fin 8192) :
    val_main_v43 (F := Ideal) x4 (ix2 i (0 : Fin 1)) = x4 (ix2 i (2047 : Fin 2048)) := by
  have e : val_main_v28 (F := Ideal) x4 (ix1 i) = x4 (ix2 i (2047 : Fin 2048)) := by
    rw [val_main_v28_apply, val_main_v27_apply]
    congr 1
    funext a
    match a with
    | ⟨0, _⟩ => exact Fin.ext (Nat.div_one _)
    | ⟨1, _⟩ => rfl
  have e43 : idx_main_v43 (ix2 i (0 : Fin 1)) = ix1 i := by
    funext a; match a with | ⟨0, _⟩ => rfl
  rw [val_main_v43_apply, e43, val_main_v42_apply, val_main_v39_apply, val_main_v41_apply, val_main_v38_apply,
    val_main_v40_apply, val_main_c_12_apply, val_main_c_13_apply, e]
  exact norm_word _ (h i 2047)

/-- … the row-word array at `(i, k)` the word at position `k` … -/
theorem row_word (h : InRange x4) (i : Fin 8192) (k : Fin 2047) :
    val_main_v56 (F := Ideal) x4 (ix3 i k (0 : Fin 1)) = x4 (ix2 i k.castSucc) := by
  have e : val_main_v29 (F := Ideal) x4 (ix2 i k) = x4 (ix2 i k.castSucc) := by
    rw [val_main_v29_apply]
    congr 1
    funext a
    match a with
    | ⟨0, _⟩ => rfl
    | ⟨1, _⟩ => rfl
  have e56 : idx_main_v56 (ix3 i k (0 : Fin 1)) = ix2 i k := by
    funext a; match a with | ⟨0, _⟩ => rfl | ⟨1, _⟩ => rfl
  rw [val_main_v56_apply, e56, val_main_v50_apply, val_main_v47_apply, val_main_v49_apply, val_main_v46_apply,
    val_main_v48_apply, val_main_c_14_apply, val_main_c_15_apply, e]
  exact norm_word _ (h i k.castSucc)

/-- … and the column-word array at `(i, k)` the word at position `k + 1`. -/
theorem col_word (h : InRange x4) (i : Fin 8192) (k : Fin 2047) :
    val_main_v57 (F := Ideal) x4 (ix3 i k (0 : Fin 1)) = x4 (ix2 i k.succ) := by
  have e : val_main_v30 (F := Ideal) x4 (ix2 i k) = x4 (ix2 i k.succ) := by
    rw [val_main_v30_apply]
    congr 1
    funext a
    match a with
    | ⟨0, _⟩ => rfl
    | ⟨1, _⟩ => exact Fin.ext (Nat.add_comm 1 k.val)
  have e57 : idx_main_v57 (ix3 i k (0 : Fin 1)) = ix2 i k := by
    funext a; match a with | ⟨0, _⟩ => rfl | ⟨1, _⟩ => rfl
  rw [val_main_v57_apply, e57, val_main_v55_apply, val_main_v52_apply, val_main_v54_apply, val_main_v51_apply,
    val_main_v53_apply, val_main_c_16_apply, val_main_c_17_apply, e]
  exact norm_word _ (h i k.succ)

/-! ### The three gathers as table reads along the path -/

/-- The start-weight gather at sample `i`: the start vector at the sample's first word. -/
theorem start_apply (h : InRange x4) (i : Fin 8192) :
    val_main_v37 (F := Ideal) x1 x4 (ix1 i) = tab1 x1 (decode x4 i 0) := by
  have hw := first_word x4 h i
  have hlt : (val_main_v36 (F := Ideal) x4 (ix2 i (0 : Fin 1))).toNat < 2048 := by rw [hw]; exact h i 0
  unfold val_main_v37
  rw [gather1_apply x1 _ i hlt]
  show x1 (ix1 _) = x1 (ix1 (decode x4 i 0))
  congr 2
  apply Fin.ext
  show (val_main_v36 (F := Ideal) x4 (ix2 i (0 : Fin 1))).toNat = (x4 (ix2 i (0 : Fin 2048))).toNat % 2048
  rw [hw, Nat.mod_eq_of_lt (h i 0)]

/-- The end-weight gather at sample `i`: the end vector at the sample's last word. -/
theorem end_apply (h : InRange x4) (i : Fin 8192) :
    val_main_v44 (F := Ideal) x2 x4 (ix1 i) = tab1 x2 (decode x4 i 2047) := by
  have hw := last_word x4 h i
  have hlt : (val_main_v43 (F := Ideal) x4 (ix2 i (0 : Fin 1))).toNat < 2048 := by rw [hw]; exact h i 2047
  unfold val_main_v44
  rw [gather1_apply x2 _ i hlt]
  show x2 (ix1 _) = x2 (ix1 (decode x4 i 2047))
  congr 2
  apply Fin.ext
  show (val_main_v43 (F := Ideal) x4 (ix2 i (0 : Fin 1))).toNat = (x4 (ix2 i (2047 : Fin 2048))).toNat % 2048
  rw [hw, Nat.mod_eq_of_lt (h i 2047)]

/-- The bigram gather at `(i, k)`: the table at the sample's `k`-th consecutive pair of words. -/
theorem bigram_apply (h : InRange x4) (i : Fin 8192) (k : Fin 2047) :
    val_main_v59 (F := Ideal) x0 x4 (ix2 i k) = tab2 x0 (decode x4 i k.castSucc) (decode x4 i k.succ) := by
  have hr : val_main_v58 (F := Ideal) x4 (ix3 i k (0 : Fin 2)) = x4 (ix2 i k.castSucc) := by
    rw [pair_left, row_word x4 h]
  have hc : val_main_v58 (F := Ideal) x4 (ix3 i k (1 : Fin 2)) = x4 (ix2 i k.succ) := by
    rw [pair_right, col_word x4 h]
  have h0 : (val_main_v58 (F := Ideal) x4 (ix3 i k (0 : Fin 2))).toNat < 2048 := by rw [hr]; exact h i k.castSucc
  have h1 : (val_main_v58 (F := Ideal) x4 (ix3 i k (1 : Fin 2))).toNat < 2048 := by rw [hc]; exact h i k.succ
  unfold val_main_v59
  rw [gather2_apply x0 _ i k h0 h1]
  show x0 (ix2 _ _) = x0 (ix2 (decode x4 i k.castSucc) (decode x4 i k.succ))
  congr 2
  · apply Fin.ext
    show (val_main_v58 (F := Ideal) x4 (ix3 i k (0 : Fin 2))).toNat = (x4 (ix2 i k.castSucc)).toNat % 2048
    rw [hr, Nat.mod_eq_of_lt (h i k.castSucc)]
  · apply Fin.ext
    show (val_main_v58 (F := Ideal) x4 (ix3 i k (1 : Fin 2))).toNat = (x4 (ix2 i k.succ)).toNat % 2048
    rw [hc, Nat.mod_eq_of_lt (h i k.succ)]

end Ratio

open Ratio

/-- The ratio stage at sample `i`. -/
theorem ratio_apply (h : InRange x4) (i : Fin 8192) :
    val_main_v61 (F := Ideal) x0 x1 x2 x4 (ix1 i) = ratioOf x0 x1 x2 x4 i := by
  have e60 : ∀ k : Fin 2047, idx_main_v60 (ix1 i) k = ix2 i k := by
    intro k; funext a; match a with | ⟨0, _⟩ => rfl | ⟨1, _⟩ => rfl
  rw [val_main_v61_apply, val_main_v45_apply, val_main_v60_apply, val_main_cst_18_apply, start_apply x1 x4 h,
    end_apply x2 x4 h]
  simp only [e60, bigram_apply x0 x4 h, Ideal.addf_def, Ideal.ofBits_def, Ideal.ofBits_zero_f32, zero_add]
  rfl

/-- The normaliser stage. -/
theorem total_apply (h : InRange x4) (i : S_.Idx) :
    val_main_v62 (F := Ideal) x0 x1 x2 x4 i = totalOf x0 x1 x2 x4 := by
  rw [val_main_v62_apply, val_main_cst_19_apply, Ideal.ofBits_def, Ideal.ofBits_zero_f32, zero_add]
  unfold totalOf total
  rw [← Equiv.sum_comp (idxEquiv1 (n := 8192)).symm]
  refine Finset.sum_congr rfl (fun j _ => ?_)
  exact ratio_apply x0 x1 x2 x4 h j

/-- The weight stage at sample `i`. -/
theorem weight_apply (h : InRange x4) (i : Fin 8192) :
    val_main_v64 (F := Ideal) x0 x1 x2 x4 (ix1 i) = weight (decode x4) (tab1 x1) (tab1 x2) (tab2 x0) i := by
  rw [val_main_v64_apply, val_main_v63_apply, ratio_apply x0 x1 x2 x4 h, total_apply x0 x1 x2 x4 h,
    Ideal.hostDivf_def]
  rfl

end Cert.RefValue

end
-- ==== Proof.PreFacts.lean ====
/-
  What the precondition says, decoded: the four float arrays are real-valued, every sampled word is a word index,
  and the normaliser the reference divides by is not zero.

  The predicate is a conjunction of six one-bit words.  Four of them say, one per float array, that every |x| is
  below +∞; in the extended reals that excludes exactly the two infinities, so x is a real.  One says that every
  sampled word w has 0 ≤ w and w < 2048, both compared signed; a word that is signed-nonnegative reads the same
  unsigned, so its unsigned value is below 2048.  The last compares with zero the sum, over the samples, of the
  start weight of the first word plus the end weight of the last word plus the row sum of the 2047 gathered
  bigram cells: operation for operation the composition whose value at the one index is the normaliser.
-/
import proofs.«411131_j14714557956388_2_alg».proof.Proof.Gen.Pre_finite_inputs
import proofs.«411131_j14714557956388_2_alg».proof.Proof.Decode
import proofs.«411131_j14714557956388_2_alg».proof.Proof.RefRatio
import Idealize.ShloMosaic.Lib.ReduceAll
import Idealize.ShloMosaic.Lib.StableHlo.Predicate

noncomputable section

namespace Cert.PreFacts

open Cert.PathLoss Idealize.ShloMosaic Idealize.ShloMosaic.ValueIdx

/-- The rank-0 shape has one index. -/
private instance : Subsingleton Cert.Pre_finite_inputs.S_.Idx := ⟨fun a b => funext fun d => d.elim0⟩

/-- The pattern with all exponent bits set and no fraction bit is +∞. -/
private theorem top_bits : Ideal.ofBits .f32 0x7F800000#32 = (⊤ : EReal) := by
  simp [Ideal.ofBits, Ideal.ieee]

/-- The all-zero pattern is 0. -/
private theorem zero_bits : Ideal.ofBits .f32 0x00000000#32 = (0 : EReal) := by
  simp [Ideal.ofBits, Ideal.ieee]

/-- |x| < +∞ leaves only the reals: at +∞ and at -∞ the larger of x and -x is +∞. -/
private theorem real_of_abs_lt_top (x : EReal)
    (h : Ideal.cmp .olt (max x (-x)) (Ideal.ofBits .f32 0x7F800000#32) = 1#1) : ∃ r : ℝ, x = (r : EReal) := by
  rw [top_bits] at h
  induction x using EReal.rec with
  | bot => simp [Ideal.cmp] at h
  | top => simp [Ideal.cmp] at h
  | coe r => exact ⟨r, rfl⟩

/-- A 32-bit word with 0 ≤ w < 2048 read signed is below 2048 read unsigned: a nonnegative signed reading is
    the unsigned one. -/
private theorem toNat_lt_of_signed (w : BitVec 32) (h0 : (0#32 : BitVec 32).toInt ≤ w.toInt)
    (h1 : w.toInt < (2048#32 : BitVec 32).toInt) : w.toNat < 2048 := by
  have e0 : (0#32 : BitVec 32).toInt = 0 := by decide
  have e1 : (2048#32 : BitVec 32).toInt = 2048 := by decide
  rw [e0] at h0
  rw [e1] at h1
  have hc := BitVec.toInt_eq_toNat_cond w
  have hlt := w.isLt
  split_ifs at hc <;> omega

/-- The printed precondition, all ones at the ideal instance, gives the decoded facts. -/
theorem of_pre [Cert.Pre_finite_inputs.Facts]
    (a0 : FVec Ideal Cert.Pre_finite_inputs.S2048x2048 .f32) (a1 a2 : FVec Ideal Cert.Pre_finite_inputs.S2048 .f32)
    (a3 : FVec Ideal Cert.Pre_finite_inputs.S2048x2048 .f32) (a4 : IVec Cert.Pre_finite_inputs.S8192x2048 32)
    (h : Cert.Pre_finite_inputs.fn (F := Ideal) a0 a1 a2 a3 a4 = (fun _ => 1#1)) :
    InRange a4 ∧ RealArr a0 ∧ RealArr a1 ∧ RealArr a2 ∧ RealArr a3 ∧ totalOf a0 a1 a2 a4 ≠ 0 := by
  -- the one-bit result at its one index, and its six conjuncts
  have h0 : Cert.Pre_finite_inputs.fn (F := Ideal) a0 a1 a2 a3 a4 ix0 = 1#1 := congrFun h ix0
  obtain ⟨h25, hT⟩ := IntOp.andi_eq_one.1 h0
  obtain ⟨h18, hS⟩ := IntOp.andi_eq_one.1 h25
  obtain ⟨h13, hB⟩ := IntOp.andi_eq_one.1 h18
  obtain ⟨h8, hE⟩ := IntOp.andi_eq_one.1 h13
  obtain ⟨hG, hA⟩ := IntOp.andi_eq_one.1 h8
  -- every sampled word is a word index
  have hR : InRange a4 := by
    intro i t
    have e := Host.reduce_andi_all _ _ _ _ _ hS (ix2 i t)
    obtain ⟨e0, e1⟩ := IntOp.andi_eq_one.1 e
    exact toNat_lt_of_signed _ (IntOp.cmpi_sge.1 e0) (IntOp.cmpi_slt.1 e1)
  refine ⟨hR, ?_, ?_, ?_, ?_, ?_⟩
  -- the four float arrays: an "all" that is 1 is 1 at every entry, and there |x| < +∞
  · intro i
    exact real_of_abs_lt_top _ (Host.reduce_andi_all _ _ _ _ _ hG i)
  · intro i
    exact real_of_abs_lt_top _ (Host.reduce_andi_all _ _ _ _ _ hA i)
  · intro i
    exact real_of_abs_lt_top _ (Host.reduce_andi_all _ _ _ _ _ hE i)
  · intro i
    exact real_of_abs_lt_top _ (Host.reduce_andi_all _ _ _ _ _ hB i)
  -- the normaliser: the compared sum is the reference's own, whose value is `totalOf` for in-range samples
  · have hN : Ideal.cmp .une (Cert.ReferenceIdeal.Read.val_main_v62 (F := Ideal) a0 a1 a2 a4 ix0)
        (Ideal.ofBits .f32 0x00000000#32) = 1#1 := hT
    rw [Cert.RefValue.total_apply a0 a1 a2 a4 hR ix0, zero_bits] at hN
    exact of_decide_eq_true ((StableHlo.Predicate.ofBool_eq_one_iff _).1 hN)

end Cert.PreFacts

end
-- ==== Proof.RefTargets1.lean ====
/-
  The reference's scattered targets for the two vectors, read at a word: a `-1` written at one fixed word, then every
  sample's weight added at the sample's first (respectively last) word.
-/
import proofs.«411131_j14714557956388_2_alg».proof.Proof.RefRatio
import Idealize.ShloMosaic.Lib.ValueIdxRank1

noncomputable section

namespace Cert.RefValue

open Cert.PathLoss Cert.ReferenceIdeal Cert.ReferenceIdeal.Read Idealize.ShloMosaic Idealize.ShloMosaic.ValueIdx

variable (x0 : (⟨S2048x2048, .f32⟩ : BufTy).Contents (Elt Ideal)) (x1 x2 : (⟨S2048, .f32⟩ : BufTy).Contents (Elt Ideal))
  (x3 : (⟨S2048x2048, .f32⟩ : BufTy).Contents (Elt Ideal)) (x4 : (⟨S8192x2048, .i32⟩ : BufTy).Contents (Elt Ideal))

namespace Vec

/-! ### The one-update scatter: a mark at one fixed word -/

/-- The start of the one update's window is the one index word, read signed. -/
private theorem start_one (j : S_.Idx) (idx : IVec S1 32) (a : Fin 1) :
    scatter_S2048_S1_S__n_0_0_0.start j idx a = (idx (ix1 0)).toInt := by
  have ha0 : a = 0 := Subsingleton.elim _ _
  subst ha0
  unfold ScatterDims.start
  split
  · rename_i ha
    congr 1
    congr 1
    funext b
    match b with
    | ⟨0, _⟩ => rfl
  · rename_i ha
    exact absurd (by show (0 : Fin 1) ∈ [0]; simp) ha

/-- The one axis is inserted: the window coordinate on it is zero. -/
private theorem window_one (j : S_.Idx) (a : Fin 1) :
    scatter_S2048_S1_S__n_0_0_0.window j a = 0 := by
  have ha0 : a = 0 := Subsingleton.elim _ _
  subst ha0
  unfold ScatterDims.window
  split
  · rename_i ha
    exact absurd ha (by show (0 : Fin 1) ∉ []; simp)
  · rfl

/-- An index word that is a word index `t` sends the update to word `t`. -/
private theorem resultIdx_one (j : S_.Idx) (idx : IVec S1 32) (t : Nat) (ht : t < 2048) (h : (idx (ix1 0)).toInt = (t : Int)) :
    scatter_S2048_S1_S__n_0_0_0.resultIdx? j idx = some (ix1 ⟨t, ht⟩) := by
  unfold ScatterDims.resultIdx?
  have hs : ∀ a, scatter_S2048_S1_S__n_0_0_0.start j idx a + scatter_S2048_S1_S__n_0_0_0.window j a = (t : Int) := by
    intro a; rw [start_one, window_one, h]; simp
  rw [dif_pos]
  · congr 1
    funext a
    match a with
    | ⟨0, _⟩ =>
      apply Fin.ext
      show (scatter_S2048_S1_S__n_0_0_0.start j idx _ + scatter_S2048_S1_S__n_0_0_0.window j _).toNat = t
      rw [hs]; simp
  · intro a
    rw [hs]
    have : S2048.size a = 2048 := by
      match a with
      | ⟨0, _⟩ => rfl
    rw [this]
    omega

/-- The bit pattern of `-1`. -/
private theorem negOne_f32 : Ideal.ofBits .f32 0xBF800000#32 = (-1 : EReal) := by
  simp [Ideal.ofBits, Ideal.ieee, -EReal.coe_mul]; norm_num

/-- Two rank-one indices are equal exactly when their coordinates are. -/
private theorem ix1_inj {n : Nat} (a b : Fin n) : (ix1 a = ix1 b) ↔ a = b :=
  ⟨fun h => congrFun h 0, fun h => h ▸ rfl⟩

/-- A scalar has one element. -/
private theorem finRange_numel0 : List.finRange S_.numel = [⟨0, by decide⟩] := by decide

/-- Zeros with one `-1` written at word `t`, when the index word is `t`. -/
private theorem mark_apply (z : (⟨S2048, .f32⟩ : BufTy).Contents (Elt Ideal)) (idx : IVec S1 32)
    (u : (⟨S_, .f32⟩ : BufTy).Contents (Elt Ideal)) (t : Nat) (ht : t < 2048)
    (hz : ∀ i, z i = 0) (hu : ∀ i, u i = (-1 : EReal)) (h : (idx (ix1 0)).toInt = (t : Int)) (j : Fin 2048) :
    Host.scatter scatter_S2048_S1_S__n_0_0_0 (fun _ b => b) z idx u (ix1 j) = if j = ⟨t, ht⟩ then (-1 : EReal) else 0 := by
  unfold Host.scatter
  rw [finRange_numel0, List.foldl_cons, List.foldl_nil, resultIdx_one _ _ t ht h]
  simp only [ix1_inj, hz, hu]

/-- The start vector's marks: `-1` at word 0 over zeros; the end vector's: `-1` at word 2047. -/
private theorem startMark_apply (j : Fin 2048) :
    val_main_v3 (F := Ideal) (ix1 j) = if j = 0 then (-1 : EReal) else 0 := by
  unfold val_main_v3
  refine (mark_apply _ _ _ 0 (by decide) ?_ ?_ ?_ j).trans ?_
  · intro i; rw [val_main_v1_apply, val_main_cst_apply]; exact Ideal.ofBits_zero_f32
  · intro i; rw [val_main_cst_0_apply]; exact negOne_f32
  · rw [val_main_v2_apply, val_main_c_apply]; rfl
  · rfl

private theorem endMark_apply (j : Fin 2048) :
    val_main_v6 (F := Ideal) (ix1 j) = if j = 2047 then (-1 : EReal) else 0 := by
  unfold val_main_v6
  refine (mark_apply _ _ _ 2047 (by decide) ?_ ?_ ?_ j).trans ?_
  · intro i; rw [val_main_v4_apply, val_main_cst_1_apply]; exact Ideal.ofBits_zero_f32
  · intro i; rw [val_main_cst_3_apply]; exact negOne_f32
  · rw [val_main_v5_apply, val_main_c_2_apply]; rfl
  · rfl

/-! ### The many-update scatter: every sample's weight added at one of its words -/

/-- A word index reads the same signed and unsigned. -/
private theorem toInt_word (w : BitVec 32) (h : w.toNat < 2048) : w.toInt = (w.toNat : Int) :=
  BitVec.toInt_eq_toNat_of_lt (by omega)

/-- The wrap of negative indices leaves a word index alone. -/
private theorem wrap_word (w : BitVec 32) (h : w.toNat < 2048) :
    Scalar.select (IntOp.cmpi .slt w 0#32) (IntOp.addi w 2048#32) w = w := by
  have hlt : ¬ (w.slt 0#32 = true) := by
    rw [BitVec.slt_iff_toInt_lt, toInt_word w h, show (0#32 : BitVec 32).toInt = 0 from by decide]; omega
  show (if IntOp.cmpi .slt w 0#32 = 1 then _ else _) = _
  rw [if_neg]
  intro hc
  have hc' : BitVec.ofBool (w.slt 0#32) = 1#1 := hc
  cases hb : w.slt 0#32
  · rw [hb] at hc'; exact absurd hc' (by decide)
  · exact hlt hb

/-- The first and the last word of sample `n`. -/
private theorem first_word (n : Fin 8192) : val_main_v26 (F := Ideal) x4 (ix1 n) = x4 (ix2 n 0) := by
  rw [val_main_v26_apply, val_main_v25_apply]
  congr 1
  funext a
  match a with
  | ⟨0, _⟩ => exact Fin.ext (Nat.div_one _)
  | ⟨1, _⟩ => rfl

private theorem last_word (n : Fin 8192) : val_main_v28 (F := Ideal) x4 (ix1 n) = x4 (ix2 n 2047) := by
  rw [val_main_v28_apply, val_main_v27_apply]
  congr 1
  funext a
  match a with
  | ⟨0, _⟩ => exact Fin.ext (Nat.div_one _)
  | ⟨1, _⟩ => rfl

/-- The index words handed to the two scatters: sample `n`'s first, respectively last, word. -/
private theorem firstIdx_apply (h : InRange x4) (n : Fin 8192) (c : Fin 1) :
    val_main_v70 (F := Ideal) x4 (ix2 n c) = x4 (ix2 n 0) := by
  rw [val_main_v70_apply]
  have e : idx_main_v70 (ix2 n c) = ix1 n := by
    funext a
    match a with
    | ⟨0, _⟩ => rfl
  rw [e, val_main_v69_apply, val_main_v66_apply, val_main_v68_apply, val_main_v65_apply, val_main_v67_apply,
    val_main_c_20_apply, val_main_c_21_apply, first_word]
  exact wrap_word _ (h n 0)

private theorem lastIdx_apply (h : InRange x4) (n : Fin 8192) (c : Fin 1) :
    val_main_v77 (F := Ideal) x4 (ix2 n c) = x4 (ix2 n 2047) := by
  rw [val_main_v77_apply]
  have e : idx_main_v77 (ix2 n c) = ix1 n := by
    funext a
    match a with
    | ⟨0, _⟩ => rfl
  rw [e, val_main_v76_apply, val_main_v73_apply, val_main_v75_apply, val_main_v72_apply, val_main_v74_apply,
    val_main_c_22_apply, val_main_c_23_apply, last_word]
  exact wrap_word _ (h n 2047)

/-- The start of update `n`'s window is index word `n`, read signed. -/
private theorem start_many (n : S8192.Idx) (idx : IVec S8192x1 32) (a : Fin 1) :
    scatter_S2048_S8192x1_S8192_n_0_0_1.start n idx a = (idx (ix2 (n 0) 0)).toInt := by
  have ha0 : a = 0 := Subsingleton.elim _ _
  subst ha0
  unfold ScatterDims.start
  split
  · rename_i ha
    congr 1
    congr 1
    funext b
    match b with
    | ⟨0, _⟩ => rfl
    | ⟨1, _⟩ => rfl
  · rename_i ha
    exact absurd (by show (0 : Fin 1) ∈ [0]; simp) ha

/-- The one axis is inserted: the window coordinate on it is zero. -/
private theorem window_many (n : S8192.Idx) (a : Fin 1) :
    scatter_S2048_S8192x1_S8192_n_0_0_1.window n a = 0 := by
  have ha0 : a = 0 := Subsingleton.elim _ _
  subst ha0
  unfold ScatterDims.window
  split
  · rename_i ha
    exact absurd ha (by show (0 : Fin 1) ∉ []; simp)
  · rfl

/-- An index word that is a word index `t` sends update `n` to word `t`. -/
private theorem resultIdx_many (n : S8192.Idx) (idx : IVec S8192x1 32) (t : Nat) (ht : t < 2048)
    (h : (idx (ix2 (n 0) 0)).toInt = (t : Int)) :
    scatter_S2048_S8192x1_S8192_n_0_0_1.resultIdx? n idx = some (ix1 ⟨t, ht⟩) := by
  unfold ScatterDims.resultIdx?
  have hs : ∀ a, scatter_S2048_S8192x1_S8192_n_0_0_1.start n idx a
      + scatter_S2048_S8192x1_S8192_n_0_0_1.window n a = (t : Int) := by
    intro a; rw [start_many, window_many, h]; simp
  rw [dif_pos]
  · congr 1
    funext a
    match a with
    | ⟨0, _⟩ =>
      apply Fin.ext
      show (scatter_S2048_S8192x1_S8192_n_0_0_1.start n idx _
        + scatter_S2048_S8192x1_S8192_n_0_0_1.window n _).toNat = t
      rw [hs]; simp
  · intro a
    rw [hs]
    have : S2048.size a = 2048 := by
      match a with
      | ⟨0, _⟩ => rfl
    rw [this]
    omega

/-- Word `j` of the scattered sum: the operand's word plus the updates of the samples whose index word is `j`. -/
private theorem addAt_apply (base : FVec Ideal S2048 .f32) (idx : IVec S8192x1 32)
    (upd : FVec Ideal S8192 .f32) (σ : Fin 8192 → Fin 2048)
    (hidx : ∀ n : Fin 8192, (idx (ix2 n 0)).toInt = (((σ n).val : Nat) : Int)) (j : Fin 2048) :
    Host.scatterAdd (F := Ideal) scatter_S2048_S8192x1_S8192_n_0_0_1 base idx upd (ix1 j)
      = base (ix1 j) + ∑ i ∈ Finset.univ.filter (fun i : Fin 8192 => σ i = j), upd (ix1 i) := by
  show Ideal.hostScatterAdd scatter_S2048_S8192x1_S8192_n_0_0_1 base idx upd (ix1 j) = _
  unfold Ideal.hostScatterAdd
  refine congrArg (base (ix1 j) + ·) ?_
  have hf : ∀ n : S8192.Idx,
      (scatter_S2048_S8192x1_S8192_n_0_0_1.resultIdx? n idx = some (ix1 j)) ↔ σ (n 0) = j := by
    intro n
    rw [resultIdx_many n idx (σ (n 0)).val (σ (n 0)).isLt (hidx (n 0)), Option.some_inj, ix1_inj]
  rw [Finset.filter_congr (fun n _ => hf n)]
  refine Finset.sum_equiv idxEquiv1 (fun n => ?_) (fun n _ => congrArg upd (eq_ix1 n))
  simp only [Finset.mem_filter, Finset.mem_univ, true_and]
  rfl

/-- In range, a decoded word is the word itself. -/
private theorem decode_val (h : InRange x4) (n : Fin 8192) (t : Fin 2048) :
    (x4 (ix2 n t)).toInt = (((decode x4 n t).val : Nat) : Int) := by
  rw [toInt_word _ (h n t)]
  show _ = (((x4 (ix2 n t)).toNat % 2048 : Nat) : Int)
  rw [Nat.mod_eq_of_lt (h n t)]

end Vec

/-! ### The two targets -/

/-- The start vector's target at word `j`: the mark at word 0 plus the weights of the samples whose first word is `j`. -/
theorem startT_apply (h : InRange x4) (j : Fin 2048) :
    val_main_v71 (F := Ideal) x0 x1 x2 x4 (ix1 j) = startT (decode x4) (tab1 x1) (tab1 x2) (tab2 x0) j := by
  unfold val_main_v71
  refine (Vec.addAt_apply _ _ _ (fun n => decode x4 n 0) (fun n => ?_) j).trans ?_
  · rw [Vec.firstIdx_apply x4 h n 0]; exact Vec.decode_val x4 h n 0
  · rw [Vec.startMark_apply]
    unfold startT
    exact congrArg _ (Finset.sum_congr rfl fun i _ => weight_apply x0 x1 x2 x4 h i)

/-- The end vector's target at word `j`: the mark at word 2047 plus the weights of the samples whose last word is `j`. -/
theorem endT_apply (h : InRange x4) (j : Fin 2048) :
    val_main_v78 (F := Ideal) x0 x1 x2 x4 (ix1 j) = endT (decode x4) (tab1 x1) (tab1 x2) (tab2 x0) j := by
  unfold val_main_v78
  refine (Vec.addAt_apply _ _ _ (fun n => decode x4 n 2047) (fun n => ?_) j).trans ?_
  · rw [Vec.lastIdx_apply x4 h n 0]; exact Vec.decode_val x4 h n 2047
  · rw [Vec.endMark_apply]
    unfold endT
    exact congrArg _ (Finset.sum_congr rfl fun i _ => weight_apply x0 x1 x2 x4 h i)

end Cert.RefValue

end
-- ==== Proof.RefTargets2.lean ====
/-
  The reference's scattered target for the 2048 × 2048 table, read at a cell: a `-1` written on the 2047 cells
  `(k, k+1)`, then every sample's weight added at each of its 2047 consecutive pairs.

  A scatter whose body keeps the update is a left fold over the updates: a cell holds the last update that lands
  on it, or the operand where none does; when all updates are one value, only "does some update land here" matters.
  An update lands on a cell when its start, read signed off the index array, is the cell on every axis.  The marks'
  index array has rows `(k, k + 1)`, so a cell `(r, c)` is marked exactly when `r + 1 = c`.  The accumulating
  scatter adds, at a cell, the updates that land on it: the rows of its index array are the samples' consecutive
  pairs, its updates the samples' weights, and re-indexing the updates by (sample, position) gives the target's sum.
-/
import proofs.«411131_j14714557956388_2_alg».proof.Proof.RefRatio
import Idealize.ShloMosaic.Lib.DynamicIndex

noncomputable section

namespace Cert.RefValue.BigramTarget

open Cert.PathLoss Cert.ReferenceIdeal Cert.ReferenceIdeal.Gen Cert.ReferenceIdeal.Read Idealize.ShloMosaic
  Idealize.ShloMosaic.ValueIdx

/-! ### A scatter that keeps the update, all updates one value -/

section ScatterSet

variable {α : Type} {s si u : Shape} {w : Nat}

/-- The fold over a list of update positions, every update the one value `c`: a cell some listed update lands on
    holds `c`, every other cell what it held before. -/
theorem scatter_fold_const (d : ScatterDims s si u) (idx : IVec si w) (upd : u.Idx → α) (c : α)
    (hc : ∀ j, upd j = c) (i : s.Idx) (l : List (Fin u.numel)) (r0 : s.Idx → α) :
    (l.foldl (fun r n =>
        match d.resultIdx? (u.rowMajor.symm n) idx with
        | some i0 => fun i' => if i' = i0 then (fun _ b => b) (r i0) (upd (u.rowMajor.symm n)) else r i'
        | none => r) r0) i
      = (open Classical in if ∃ n ∈ l, d.resultIdx? (u.rowMajor.symm n) idx = some i then c else r0 i) := by
  classical
  induction l generalizing r0 with
  | nil => simp
  | cons n l ih =>
    rw [List.foldl_cons, ih]
    by_cases hl : ∃ m ∈ l, d.resultIdx? (u.rowMajor.symm m) idx = some i
    · obtain ⟨m, hm, e⟩ := hl
      rw [if_pos ⟨m, hm, e⟩, if_pos ⟨m, List.mem_cons_of_mem _ hm, e⟩]
    · rw [if_neg hl]
      cases hn : d.resultIdx? (u.rowMajor.symm n) idx with
      | none =>
        have hno : ¬ ∃ m ∈ n :: l, d.resultIdx? (u.rowMajor.symm m) idx = some i := by
          rintro ⟨m, hm, e⟩
          rcases List.mem_cons.1 hm with rfl | hm'
          · rw [hn] at e; cases e
          · exact hl ⟨m, hm', e⟩
        rw [if_neg hno]
      | some i0 =>
        by_cases hi : i = i0
        · subst hi
          rw [if_pos ⟨n, List.mem_cons_self, hn⟩]
          simp only [hc, ↓reduceIte]
        · have hno : ¬ ∃ m ∈ n :: l, d.resultIdx? (u.rowMajor.symm m) idx = some i := by
            rintro ⟨m, hm, e⟩
            rcases List.mem_cons.1 hm with rfl | hm'
            · rw [hn] at e; exact hi (Option.some.inj e).symm
            · exact hl ⟨m, hm', e⟩
          rw [if_neg hno]
          simp only [hi, ↓reduceIte]

/-- A cell some update lands on holds the updates' one value. -/
theorem scatter_set_const_hit (d : ScatterDims s si u) (x : s.Idx → α) (idx : IVec si w) (upd : u.Idx → α) (c : α)
    (hc : ∀ j, upd j = c) (i : s.Idx) (j : u.Idx) (hj : d.resultIdx? j idx = some i) :
    Host.scatter d (fun _ b => b) x idx upd i = c := by
  classical
  unfold Host.scatter
  refine (scatter_fold_const d idx upd c hc i _ x).trans (if_pos ⟨u.rowMajor j, List.mem_finRange _, ?_⟩)
  rw [Equiv.symm_apply_apply]; exact hj

/-- A cell no update lands on keeps the operand's value. -/
theorem scatter_set_const_miss (d : ScatterDims s si u) (x : s.Idx → α) (idx : IVec si w) (upd : u.Idx → α) (c : α)
    (hc : ∀ j, upd j = c) (i : s.Idx) (hj : ∀ j, d.resultIdx? j idx ≠ some i) :
    Host.scatter d (fun _ b => b) x idx upd i = x i := by
  classical
  unfold Host.scatter
  refine (scatter_fold_const d idx upd c hc i _ x).trans (if_neg ?_)
  rintro ⟨n, _, e⟩
  exact hj _ e

end ScatterSet

/-! ### Where an update lands -/

section ResultIdx

variable {s si u : Shape} {w : Nat}

/-- An update lands on cell `i` exactly when, on every axis, its start plus its window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := Option.some.inj e
      rw [← e']
      show _ = ((Int.toNat _ : Nat) : Int)
      rw [Int.toNat_of_nonneg (h a).1]
    · intro e
      congr 1
      funext a
      refine Fin.ext ?_
      show (d.start j idx a + (d.window j a : Int)).toNat = (i a).val
      rw [e a, Int.toNat_natCast]
  · next h =>
    constructor
    · intro e; cases e
    · intro e
      exfalso
      apply h
      intro a
      rw [e a]
      exact ⟨Int.natCast_nonneg _, by exact_mod_cast (i a).isLt⟩

end ResultIdx

/-! ### Words -/

/-- The word `0xBF800000` is minus one. -/
theorem ofBits_neg_one_f32 : Ideal.ofBits .f32 0xBF800000#32 = (-1 : EReal) := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- An index that is not negative, read signed, is left alone by "add the extent where negative". -/
theorem select_slt_zero (x y : BitVec 32) (h : 0 ≤ x.toInt) :
    Scalar.select (IntOp.cmpi .slt x 0#32) y x = x := by
  have hlt : x.slt 0#32 = false := by
    simp only [BitVec.slt, BitVec.toInt_zero, decide_eq_false_iff_not, Int.not_lt]
    exact h
  show (if BitVec.ofBool (x.slt 0#32) = 1 then y else x) = x
  rw [hlt]
  rfl

/-- A word index, read signed, is the number it is read as unsigned. -/
theorem toInt_eq_toNat_of_lt (x : BitVec 32) (hx : x.toNat < 2048) : x.toInt = (x.toNat : ℤ) := by
  rw [BitVec.toInt_eq_toNat_cond]
  split <;> omega

/-! ### The marks: `-1` on the cells `(k, k + 1)` -/

section Marks

/-- The dimension numbers of the scatter that writes the 2047 marks: one scalar update per row of the index
    array, the row a (row, column) pair. -/
abbrev dMark : ScatterDims S2048x2048 S2047x2 S2047 := scatter_S2048x2048_S2047x2_S2047_n_01_01_1

/-- Every axis of the table is an index axis: the window has no extent. -/
theorem dMark_window (j : S2047.Idx) (a : Fin 2) : dMark.window j a = 0 := by
  unfold ScatterDims.window
  rw [dif_neg]
  intro h
  have : dMark.sKept = [] := by decide
  rw [this] at h
  cases h

/-- Update `k` starts, on the row axis, at the first entry of row `k` of the index array. -/
theorem dMark_start0 (idx : IVec S2047x2 32) (k : Fin 2047) :
    dMark.start (ix1 k) idx (0 : Fin 2) = (idx (ix2 k (0 : Fin 2))).toInt := by
  unfold ScatterDims.start
  rw [dif_pos (show (0 : Fin 2) ∈ dMark.scatterDimsToOperandDims from by decide)]
  have hsi : dMark.siIdx (ix1 k) ⟨List.idxOf (0 : Fin 2) dMark.scatterDimsToOperandDims,
      List.idxOf_lt_length_iff.2 (by decide)⟩ = ix2 k (0 : Fin 2) := by
    funext b; refine Fin.ext ?_
    match b with
    | ⟨0, _⟩ => rfl
    | ⟨1, _⟩ => rfl
  rw [hsi]

/-- … and, on the column axis, at the second entry. -/
theorem dMark_start1 (idx : IVec S2047x2 32) (k : Fin 2047) :
    dMark.start (ix1 k) idx (1 : Fin 2) = (idx (ix2 k (1 : Fin 2))).toInt := by
  unfold ScatterDims.start
  rw [dif_pos (show (1 : Fin 2) ∈ dMark.scatterDimsToOperandDims from by decide)]
  have hsi : dMark.siIdx (ix1 k) ⟨List.idxOf (1 : Fin 2) dMark.scatterDimsToOperandDims,
      List.idxOf_lt_length_iff.2 (by decide)⟩ = ix2 k (1 : Fin 2) := by
    funext b; refine Fin.ext ?_
    match b with
    | ⟨0, _⟩ => rfl
    | ⟨1, _⟩ => rfl
  rw [hsi]

/-- Row `k` of the marks' index array is the pair `(k, k + 1)`: its first entry … -/
theorem marks_idx0 (k : Fin 2047) : val_main_v22 (F := Ideal) (ix2 k (0 : Fin 2)) = BitVec.ofNat 32 k.val := by
  unfold val_main_v22
  rw [concatenate_pair_apply_left (t := S2047x2) (s₁ := S2047x1) (s₂ := S2047x1) (1 : Fin 2) _ _
    concatenates_S2047x1_S2047x1_S2047x2_d1 (ix2 k (0 : Fin 2)) rfl
    (ix2 k (0 : Fin 1)) (fun b => match b with | ⟨0, _⟩ => rfl | ⟨1, _⟩ => rfl)]
  rw [val_main_v20_apply, val_main_v14_apply, val_main_v11_apply, val_main_v8_apply, val_main_v10_apply,
    val_main_c_5_apply, val_main_v0_apply]
  show Scalar.select (IntOp.cmpi .slt (BitVec.ofNat 32 k.val) 0#32) _ (BitVec.ofNat 32 k.val) = _
  exact select_slt_zero _ _ (by rw [toInt_ofNat_of_lt (by omega)]; omega)

/-- … and its second. -/
theorem marks_idx1 (k : Fin 2047) : val_main_v22 (F := Ideal) (ix2 k (1 : Fin 2)) = BitVec.ofNat 32 (1 + k.val) := by
  unfold val_main_v22
  rw [concatenate_pair_apply_right (t := S2047x2) (s₁ := S2047x1) (s₂ := S2047x1) (1 : Fin 2) _ _
    concatenates_S2047x1_S2047x1_S2047x2_d1 (ix2 k (1 : Fin 2)) rfl rfl
    (ix2 k (0 : Fin 1)) (fun b hb => match b with | ⟨0, _⟩ => rfl | ⟨1, _⟩ => absurd rfl hb) rfl]
  rw [val_main_v21_apply, val_main_v19_apply, val_main_v16_apply, val_main_v9_apply, val_main_v15_apply,
    val_main_c_7_apply, val_main_v0_apply]
  show Scalar.select (IntOp.cmpi .slt (BitVec.ofNat 32 (1 + k.val)) 0#32) _ (BitVec.ofNat 32 (1 + k.val)) = _
  exact select_slt_zero _ _ (by rw [toInt_ofNat_of_lt (by omega)]; omega)

/-- Update `k` lands on cell `(r, c)` exactly when `k = r` and `k + 1 = c`. -/
theorem marks_land (k : Fin 2047) (r c : Fin 2048) :
    dMark.resultIdx? (ix1 k) (val_main_v22 (F := Ideal)) = some (ix2 r c) ↔ k.val = r.val ∧ 1 + k.val = c.val := by
  have hk : k.val < 2047 := k.isLt
  rw [resultIdx?_eq_some_iff]
  show (∀ a : Fin 2, _) ↔ _
  rw [Fin.forall_fin_two, dMark_window, dMark_window, dMark_start0, dMark_start1, marks_idx0, marks_idx1,
    toInt_ofNat_of_lt (by omega), toInt_ofNat_of_lt (by omega)]
  show (k.val : ℤ) + ((0 : ℕ) : ℤ) = (r.val : ℤ) ∧ ((1 + k.val : ℕ) : ℤ) + ((0 : ℕ) : ℤ) = (c.val : ℤ) ↔ _
  omega

/-- The marks' table at a cell: `-1` on the cells `(k, k + 1)`, zero elsewhere. -/
theorem marks_apply (r c : Fin 2048) :
    val_main_v24 (F := Ideal) (ix2 r c) = if r.val + 1 = c.val then (-1 : EReal) else 0 := by
  unfold val_main_v24
  have hupd : ∀ j, val_main_v23 (F := Ideal) j = (-1 : EReal) := fun j => by
    rw [val_main_v23_apply, val_main_cst_9_apply, Ideal.ofBits_def, ofBits_neg_one_f32]
  by_cases hrc : r.val + 1 = c.val
  · rw [if_pos hrc]
    have hr : r.val < 2047 := by have := c.isLt; omega
    exact scatter_set_const_hit dMark _ _ _ _ hupd _ (ix1 (⟨r.val, hr⟩ : Fin 2047))
      ((marks_land ⟨r.val, hr⟩ r c).2 ⟨rfl, by show 1 + r.val = c.val; omega⟩)
  · rw [if_neg hrc, scatter_set_const_miss dMark _ _ _ _ hupd _
        (fun j e => hrc (by rw [eq_ix1 j] at e; have := (marks_land (j 0) r c).1 e; omega)),
      val_main_v7_apply, val_main_cst_4_apply, Ideal.ofBits_def, Ideal.ofBits_zero_f32]

end Marks

/-! ### The weights: every sample's weight at each of its consecutive pairs -/

section Pairs

variable (x4 : (⟨S8192x2048, .i32⟩ : BufTy).Contents (Elt Ideal))

/-- The dimension numbers of the scatter that adds the weights: one scalar update per (sample, position), the
    index array's row there a (row, column) pair. -/
abbrev dAdd : ScatterDims S2048x2048 S8192x2047x2 S8192x2047 := scatter_S2048x2048_S8192x2047x2_S8192x2047_n_01_01_2

/-- Every axis of the table is an index axis: the window has no extent. -/
theorem dAdd_window (p : S8192x2047.Idx) (a : Fin 2) : dAdd.window p a = 0 := by
  unfold ScatterDims.window
  rw [dif_neg]
  intro h
  have : dAdd.sKept = [] := by decide
  rw [this] at h
  cases h

/-- Update `(i, t)` starts, on the row axis, at the first entry of row `(i, t)` of the index array. -/
theorem dAdd_start0 (idx : IVec S8192x2047x2 32) (i : Fin 8192) (t : Fin 2047) :
    dAdd.start (ix2 i t) idx (0 : Fin 2) = (idx (ix3 i t (0 : Fin 2))).toInt := by
  unfold ScatterDims.start
  rw [dif_pos (show (0 : Fin 2) ∈ dAdd.scatterDimsToOperandDims from by decide)]
  have hsi : dAdd.siIdx (ix2 i t) ⟨List.idxOf (0 : Fin 2) dAdd.scatterDimsToOperandDims,
      List.idxOf_lt_length_iff.2 (by decide)⟩ = ix3 i t (0 : Fin 2) := by
    funext b; refine Fin.ext ?_
    match b with
    | ⟨0, _⟩ => rfl
    | ⟨1, _⟩ => rfl
    | ⟨2, _⟩ => rfl
  rw [hsi]

/-- … and, on the column axis, at the second entry. -/
theorem dAdd_start1 (idx : IVec S8192x2047x2 32) (i : Fin 8192) (t : Fin 2047) :
    dAdd.start (ix2 i t) idx (1 : Fin 2) = (idx (ix3 i t (1 : Fin 2))).toInt := by
  unfold ScatterDims.start
  rw [dif_pos (show (1 : Fin 2) ∈ dAdd.scatterDimsToOperandDims from by decide)]
  have hsi : dAdd.siIdx (ix2 i t) ⟨List.idxOf (1 : Fin 2) dAdd.scatterDimsToOperandDims,
      List.idxOf_lt_length_iff.2 (by decide)⟩ = ix3 i t (1 : Fin 2) := by
    funext b; refine Fin.ext ?_
    match b with
    | ⟨0, _⟩ => rfl
    | ⟨1, _⟩ => rfl
    | ⟨2, _⟩ => rfl
  rw [hsi]

/-- Row `(i, t)` of the pairs' index array is sample `i`'s words at positions `t` and `t + 1`: its first
    entry … -/
theorem pairs_idx0 (h : InRange x4) (i : Fin 8192) (t : Fin 2047) :
    val_main_v93 (F := Ideal) x4 (ix3 i t (0 : Fin 2)) = x4 (ix2 i t.castSucc) := by
  unfold val_main_v93
  rw [concatenate_pair_apply_left (t := S8192x2047x2) (s₁ := S8192x2047x1) (s₂ := S8192x2047x1) (2 : Fin 3) _ _
    concatenates_S8192x2047x1_S8192x2047x1_S8192x2047x2_d2 (ix3 i t (0 : Fin 2)) rfl
    (ix3 i t (0 : Fin 1)) (fun b => match b with | ⟨0, _⟩ => rfl | ⟨1, _⟩ => rfl | ⟨2, _⟩ => rfl)]
  rw [val_main_v91_apply, val_main_v85_apply, val_main_v82_apply, val_main_v29_apply, val_main_v81_apply,
    val_main_c_24_apply]
  have hx : idx_main_v29 (idx_main_v91 (ix3 i t (0 : Fin 1))) = ix2 i t.castSucc := by
    funext a; refine Fin.ext ?_
    match a with
    | ⟨0, _⟩ => rfl
    | ⟨1, _⟩ => rfl
  rw [hx]
  exact select_slt_zero _ _ (by rw [toInt_eq_toNat_of_lt _ (h i t.castSucc)]; omega)

/-- … and its second. -/
theorem pairs_idx1 (h : InRange x4) (i : Fin 8192) (t : Fin 2047) :
    val_main_v93 (F := Ideal) x4 (ix3 i t (1 : Fin 2)) = x4 (ix2 i t.succ) := by
  unfold val_main_v93
  rw [concatenate_pair_apply_right (t := S8192x2047x2) (s₁ := S8192x2047x1) (s₂ := S8192x2047x1) (2 : Fin 3) _ _
    concatenates_S8192x2047x1_S8192x2047x1_S8192x2047x2_d2 (ix3 i t (1 : Fin 2)) rfl rfl
    (ix3 i t (0 : Fin 1))
    (fun b hb => match b with | ⟨0, _⟩ => rfl | ⟨1, _⟩ => rfl | ⟨2, _⟩ => absurd rfl hb) rfl]
  rw [val_main_v92_apply, val_main_v90_apply, val_main_v87_apply, val_main_v30_apply, val_main_v86_apply,
    val_main_c_26_apply]
  have hx : idx_main_v30 (idx_main_v92 (ix3 i t (0 : Fin 1))) = ix2 i t.succ := by
    funext a; refine Fin.ext ?_
    match a with
    | ⟨0, _⟩ => rfl
    | ⟨1, _⟩ =>
      show 1 + t.val = t.val + 1
      omega
  rw [hx]
  exact select_slt_zero _ _ (by rw [toInt_eq_toNat_of_lt _ (h i t.succ)]; omega)

/-- The update of sample `i`'s pair at position `t` lands on cell `(r, c)` exactly when that pair is `(r, c)`. -/
theorem pairs_land (h : InRange x4) (i : Fin 8192) (t : Fin 2047) (r c : Fin 2048) :
    dAdd.resultIdx? (ix2 i t) (val_main_v93 (F := Ideal) x4) = some (ix2 r c)
      ↔ decode x4 i t.castSucc = r ∧ decode x4 i t.succ = c := by
  have h0 := h i t.castSucc
  have h1 := h i t.succ
  rw [resultIdx?_eq_some_iff]
  show (∀ a : Fin 2, _) ↔ _
  rw [Fin.forall_fin_two, dAdd_window, dAdd_window, dAdd_start0, dAdd_start1, pairs_idx0 x4 h, pairs_idx1 x4 h,
    toInt_eq_toNat_of_lt _ h0, toInt_eq_toNat_of_lt _ h1, Fin.ext_iff, Fin.ext_iff]
  show ((x4 (ix2 i t.castSucc)).toNat : ℤ) + ((0 : ℕ) : ℤ) = (r.val : ℤ)
      ∧ ((x4 (ix2 i t.succ)).toNat : ℤ) + ((0 : ℕ) : ℤ) = (c.val : ℤ)
    ↔ (x4 (ix2 i t.castSucc)).toNat % 2048 = r.val ∧ (x4 (ix2 i t.succ)).toNat % 2048 = c.val
  rw [Nat.mod_eq_of_lt h0, Nat.mod_eq_of_lt h1]
  omega

end Pairs

end Cert.RefValue.BigramTarget

namespace Cert.RefValue

open Cert.PathLoss Cert.ReferenceIdeal Cert.ReferenceIdeal.Read Idealize.ShloMosaic Idealize.ShloMosaic.ValueIdx
open Cert.RefValue.BigramTarget

variable (x0 : (⟨S2048x2048, .f32⟩ : BufTy).Contents (Elt Ideal)) (x1 x2 : (⟨S2048, .f32⟩ : BufTy).Contents (Elt Ideal))
  (x3 : (⟨S2048x2048, .f32⟩ : BufTy).Contents (Elt Ideal)) (x4 : (⟨S8192x2048, .i32⟩ : BufTy).Contents (Elt Ideal))

/-- The scattered table at cell `(r, c)`: the mark there plus the weights of the (sample, position) pairs that
    are `(r, c)`; the updates, indexed by (sample, position), are the pairs of the target's sum, each the weight
    of its sample. -/
theorem bigramT_apply (h : InRange x4) (r c : Fin 2048) :
    val_main_v94 (F := Ideal) x0 x1 x2 x4 (ix2 r c) = bigramT (decode x4) (tab1 x1) (tab1 x2) (tab2 x0) r c := by
  unfold val_main_v94 Host.scatterAdd
  rw [Ideal.hostScatterAdd_def]
  unfold Ideal.hostScatterAdd bigramT
  rw [marks_apply]
  refine congrArg (fun z => (if r.val + 1 = c.val then (-1 : EReal) else 0) + z) ?_
  refine Finset.sum_equiv idxEquiv2 (fun p => ?_) (fun p _ => ?_)
  · rw [Finset.mem_filter, Finset.mem_filter]
    simp only [Finset.mem_univ, true_and]
    conv_lhs => rw [eq_ix2 p]
    exact pairs_land x4 h (p 0) (p 1) r c
  · rw [val_main_v80_apply, val_main_v79_apply]
    have hi : idx_main_v79 (idx_main_v80 p) = ix1 (p 0) := by
      funext a; refine Fin.ext ?_
      match a with
      | ⟨0, _⟩ => rfl
    rw [hi]
    exact weight_apply x0 x1 x2 x4 h (p 0)

end Cert.RefValue

end
-- ==== Proof.RefLoss.lean ====
/-
  The reference's result: the four dot products of the tables with their scattered targets, summed.
-/
import proofs.«411131_j14714557956388_2_alg».proof.Proof.RefTargets1
import proofs.«411131_j14714557956388_2_alg».proof.Proof.RefTargets2

noncomputable section

namespace Cert.RefValue

open Cert.PathLoss Cert.ReferenceIdeal Cert.ReferenceIdeal.Read Idealize.ShloMosaic Idealize.ShloMosaic.ValueIdx

/-- A rank-1 index set is its one coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0
      invFun := fun a => ix1 a
      left_inv := fun i => (eq_ix1 i).symm
      right_inv := fun _ => rfl }
  rw [← Equiv.sum_comp e.symm f]
  rfl

variable (x0 : (⟨S2048x2048, .f32⟩ : BufTy).Contents (Elt Ideal)) (x1 x2 : (⟨S2048, .f32⟩ : BufTy).Contents (Elt Ideal))
  (x3 : (⟨S2048x2048, .f32⟩ : BufTy).Contents (Elt Ideal)) (x4 : (⟨S8192x2048, .i32⟩ : BufTy).Contents (Elt Ideal))

/-- The reference's result stage is the loss by scattering. -/
theorem loss_apply (h : InRange x4) (i : S_.Idx) :
    val_main_v105 (F := Ideal) x0 x1 x2 x3 x4 i = scatterOf x0 x1 x2 x3 x4 := by
  -- the result is ((start·startT + end·endT) + bigram·bigramT) + bias·bigramT, each dot product a sum from zero
  rw [val_main_v105_apply, val_main_v102_apply, val_main_v99_apply, val_main_v96_apply, val_main_v98_apply,
    val_main_v101_apply, val_main_v104_apply]
  simp only [val_main_cst_28_apply, val_main_cst_29_apply, val_main_cst_30_apply, val_main_cst_31_apply,
    val_main_v95_apply, val_main_v97_apply, val_main_v100_apply, val_main_v103_apply,
    Ideal.ofBits_def, Ideal.ofBits_zero_f32, zero_add, Ideal.addf_def, Ideal.mulf_def]
  -- sums over index sets are sums over coordinates
  rw [sum_idx1, sum_idx1, sum_idx2, sum_idx2]
  -- the scattered stages at a coordinate are the targets
  simp only [startT_apply x0 x1 x2 x4 h, endT_apply x0 x1 x2 x4 h, bigramT_apply x0 x1 x2 x4 h]
  rfl

end Cert.RefValue

end
-- ==== Proof.EntryIdeal.lean ====
/-
  The one pallas_call of the program, as the pipeline sees it: what its arrays hold when the region is entered, which
  block of them each grid point reads, and what the body leaves in the output window's block.

  The grid has two points.  Point `t` reads rows `32 t … 32 t + 31` of two 64 × 128 arrays (the per-sample ratios and the
  per-sample bias sums, laid out 128 to a row) and writes rows `8 t … 8 t + 7` of a 16 × 3 array: in the first of its
  eight rows the block's three sums (of `a`, of `a²`, of `a·b`), zeros below.  Stated for any float instance.
-/
import proofs.«411131_j14714557956388_2_alg».proof.Proof.Gen.KernelIdeal.Launch
import proofs.«411131_j14714557956388_2_alg».proof.Proof.Gen.KernelIdeal.Skeleton
import proofs.«411131_j14714557956388_2_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]
variable (m : (ℓ : Loc nD τ sig) → Buf (Elt F) ℓ)

/-- The host lines after the region, stretch by stretch: the three sums picked out of the 16 × 3 array, the two
    superdiagonal sums (each a call of the diagonal function), and the closing arithmetic. -/
abbrev tailOps : List (List (HloOp τ sig (Elt F))) := [hostOps1, hostOps1_1, hostOps1_2, hostOps1_3, hostOps1_4]

/-- Core `c`'s buffer contents when the region is entered: the launch contents after the host lines before it. -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole 32 × 128 input block, and the whole 8 × 3 output block, as rectangles. -/
abbrev rIn : Rect S32x128 := Rect.unit (s := S32x128) ![0, 0] S32x128.size inb_S32x128_S32x128_0_0
abbrev rOut : Rect S8x3 := Rect.unit (s := S8x3) ![0, 0] S8x3.size inb_S8x3_S8x3_0_0

/-- What the body leaves in the output window's 8 × 3 block, from the two input blocks: its one whole-block store. -/
def outBlk (x0 x1 : Vec F S32x128 .f32) : Vec F S8x3 .f32 :=
  View.canon [⟨rOut, k0_pay1 (View.ld x0 rIn) (View.ld x1 rIn)⟩]

/-- The pipeline's proof data on core `c`: the arrays as the region finds them; after the body at point `t` each input's
    buffer still at its block and the output's at `outBlk` of the two; nothing of the body's own is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = outBlk (iblk m c 0 t) (iblk m c 1 t) := by dsimp only [dats]

end Cert.KernelIdeal.Hand

end
-- ==== Proof.KPrefix.lean ====
/-
  The host lines before the region, read at an index: the two 64 × 128 arrays the region is entered with hold, 128 to a
  row, each sample's ratio and each sample's bias sum.

  The lines, block by block.  The sampled words are cut into the first column, the last column, and the two 2047-column
  rectangles of left and right words of consecutive pairs; a negative word would count from the end (`w + 2048`), which
  an in-range word never is.  The two tables are stacked along a new last axis and looked up ONCE at every pair — the
  index vector at `(i, t)` is (left word, right word), so element `(i, t, s)` is table `s` at that pair — and the
  lookups are summed along each sample's pairs: layer `0` of the row sums is the bigram sum, layer `1` the bias sum.
  The two vectors are looked up at the first and the last word.  The ratio is start + end + bigram sum.  Both results
  are laid out 128 to a row: entry `(r, l)` is element `128 r + l`.

  Each block is a definition, read at an index by one lemma; a lookup's start index is read signed and clamped into
  `[0, 2047]`, and for a word below 2048 both leave the word, which is then its own residue mod 2048 — the decoded word
  of the path loss.
-/
import proofs.«411131_j14714557956388_2_alg».proof.Proof.EntryIdeal
import proofs.«411131_j14714557956388_2_alg».proof.Proof.Decode
import Idealize.ShloMosaic.Lib.Pipeline.Value
import Idealize.ShloMosaic.Lib.StableHlo.Predicate
import Idealize.ShloMosaic.PureOps.Ideal.Laws

noncomputable section

namespace Cert.KernelIdeal.Hand

open Cert.PathLoss Cert.KernelIdeal Cert.KernelIdeal.Gen
open Idealize.ShloMosaic Idealize.ShloMosaic.TcCoe Idealize.ShloMosaic.ValueIdx
open Idealize.SL Idealize.SL.Sem

namespace Prefix

/-! ## The host lines before the region, block by block -/

section Stages

/-- Column `0` of the sampled words, as a vector: each sample's first word. -/
def firstWord (x4 : IVec S8192x2048 32) : IVec S8192 32 :=
  shapeCast _ (extractStridedSlice S8192x1 ![0, 0] x4 slices_S8192x2048_S8192x1_0_0) shapeCasts_S8192x1_S8192

/-- Column `2047`: each sample's last word. -/
def lastWord (x4 : IVec S8192x2048 32) : IVec S8192 32 :=
  shapeCast _ (extractStridedSlice S8192x1 ![0, 2047] x4 slices_S8192x2048_S8192x1_0_2047) shapeCasts_S8192x1_S8192

/-- Columns `0 … 2046`: the left word of each consecutive pair. -/
def leftWords (x4 : IVec S8192x2048 32) : IVec S8192x2047 32 :=
  extractStridedSlice S8192x2047 ![0, 0] x4 slices_S8192x2048_S8192x2047_0_0

/-- Columns `1 … 2047`: the right word of each consecutive pair. -/
def rightWords (x4 : IVec S8192x2048 32) : IVec S8192x2047 32 :=
  extractStridedSlice S8192x2047 ![0, 1] x4 slices_S8192x2048_S8192x2047_0_1

/-- A negative word counts from the end: `w + 2048` where `w < 0`, else `w` (on the pairs' rectangle). -/
def wrapPairs (w : IVec S8192x2047 32) : IVec S8192x2047 32 :=
  select (cmpi .slt w (broadcastInDim S8192x2047 ![] bcast_S_S8192x2047 (constantI S_ 32 0#32)))
    (addi w (broadcastInDim S8192x2047 ![] bcast_S_S8192x2047 (constantI S_ 32 2048#32))) w

/-- The same on a vector of words. -/
def wrapVec (w : IVec S8192 32) : IVec S8192 32 :=
  select (cmpi .slt w (broadcastInDim S8192 ![] bcast_S_S8192 (constantI S_ 32 0#32)))
    (addi w (broadcastInDim S8192 ![] bcast_S_S8192 (constantI S_ 32 2048#32))) w

/-- The pairs' index vectors: at `(i, t)` the pair (left word, right word). -/
def pairIdx (x4 : IVec S8192x2048 32) : IVec S8192x2047x2 32 :=
  concatenate S8192x2047x2 2
    [⟨S8192x2047x1, broadcastInDim S8192x2047x1 ![0, 1] bcast_S8192x2047_S8192x2047x1_0_1 (wrapPairs (leftWords x4))⟩,
     ⟨S8192x2047x1, broadcastInDim S8192x2047x1 ![0, 1] bcast_S8192x2047_S8192x2047x1_0_1 (wrapPairs (rightWords x4))⟩]
    concatenates_S8192x2047x1_S8192x2047x1_S8192x2047x2_d2

variable {F : FTy → Type} [FloatOps F]

/-- The two tables stacked along a new last axis: layer `0` the first, layer `1` the second. -/
def stacked (x0 x3 : FVec F S2048x2048 .f32) : FVec F S2048x2048x2 .f32 :=
  concatenate S2048x2048x2 2 [⟨S2048x2048x1, broadcastInDim S2048x2048x1 ![0, 1] bcast_S2048x2048_S2048x2048x1_0_1 x0⟩,
    ⟨S2048x2048x1, broadcastInDim S2048x2048x1 ![0, 1] bcast_S2048x2048_S2048x2048x1_0_1 x3⟩]
    concatenates_S2048x2048x1_S2048x2048x1_S2048x2048x2_d2

/-- Both tables looked up at every pair: at `(i, t, s)` table `s` at pair `t` of sample `i`. -/
def gathered (x0 x3 : FVec F S2048x2048 .f32) (x4 : IVec S8192x2048 32) : FVec F S8192x2047x2 .f32 :=
  Host.gather gather_S2048x2048x2_S8192x2047x2_S8192x2047x2_2_01_n_n_01_2_112 (stacked x0 x3) (pairIdx x4)

/-- The lookups summed along each sample's pairs. -/
def rowSums (x0 x3 : FVec F S2048x2048 .f32) (x4 : IVec S8192x2048 32) : FVec F S8192x2 .f32 :=
  Host.reduceAdd (gathered x0 x3 x4) (constant S_ .f32 0x00000000#32) reducesTo_S8192x2047x2_S8192x2_d1 h_S_

/-- Layer `0` of the row sums, as a vector. -/
def sumLayer0 (x0 x3 : FVec F S2048x2048 .f32) (x4 : IVec S8192x2048 32) : FVec F S8192 .f32 :=
  shapeCast _ (extractStridedSlice S8192x1 ![0, 0] (rowSums x0 x3 x4) slices_S8192x2_S8192x1_0_0) shapeCasts_S8192x1_S8192

/-- Layer `1` of the row sums, as a vector. -/
def sumLayer1 (x0 x3 : FVec F S2048x2048 .f32) (x4 : IVec S8192x2048 32) : FVec F S8192 .f32 :=
  shapeCast _ (extractStridedSlice S8192x1 ![0, 1] (rowSums x0 x3 x4) slices_S8192x2_S8192x1_0_1) shapeCasts_S8192x1_S8192

/-- A vector of length 2048 looked up at a vector of words. -/
def lookup (x : FVec F S2048 .f32) (w : IVec S8192 32) : FVec F S8192 .f32 :=
  Host.gather gather_S2048_S8192x1_S8192_n_0_n_n_0_1_1 x (broadcastInDim S8192x1 ![0] bcast_S8192_S8192x1_0 (wrapVec w))

/-- The vector of ratios: start weight of the first word, end weight of the last, and the first table's row sum. -/
def ratioVec (x0 : FVec F S2048x2048 .f32) (x1 x2 : FVec F S2048 .f32) (x3 : FVec F S2048x2048 .f32)
    (x4 : IVec S8192x2048 32) : FVec F S8192 .f32 :=
  addf (addf (lookup x1 (firstWord x4)) (lookup x2 (lastWord x4))) (sumLayer0 x0 x3 x4)

end Stages

/-! ## Each block read at an index -/

section Reads

/-- Entry `i` of the first-word vector is the word at `(i, 0)`. -/
theorem firstWord_apply (x4 : IVec S8192x2048 32) (i : Fin 8192) : firstWord x4 (ix1 i) = x4 (ix2 i 0) := by
  unfold firstWord
  refine (shapeCast_apply _ shapeCasts_S8192x1_S8192 (ix1 i) (ix2 i (0 : Fin 1))
    (by rw [Shape.rowMajor_val_two, Shape.rowMajor_val_one]; show i.val * 1 + 0 = i.val; omega)).trans ?_
  exact extractStridedSlice_apply ![0, 0] x4 slices_S8192x2048_S8192x1_0_0 (ix2 i (0 : Fin 1)) (ix2 i (0 : Fin 2048))
    (fun a => match a with
      | ⟨0, _⟩ => by show i.val = 0 + i.val; omega
      | ⟨1, _⟩ => by show (0 : ℕ) = 0 + 0; rfl)

/-- Entry `i` of the last-word vector is the word at `(i, 2047)`. -/
theorem lastWord_apply (x4 : IVec S8192x2048 32) (i : Fin 8192) : lastWord x4 (ix1 i) = x4 (ix2 i 2047) := by
  unfold lastWord
  refine (shapeCast_apply _ shapeCasts_S8192x1_S8192 (ix1 i) (ix2 i (0 : Fin 1))
    (by rw [Shape.rowMajor_val_two, Shape.rowMajor_val_one]; show i.val * 1 + 0 = i.val; omega)).trans ?_
  exact extractStridedSlice_apply ![0, 2047] x4 slices_S8192x2048_S8192x1_0_2047 (ix2 i (0 : Fin 1)) (ix2 i (2047 : Fin 2048))
    (fun a => match a with
      | ⟨0, _⟩ => by show i.val = 0 + i.val; omega
      | ⟨1, _⟩ => by show (2047 : ℕ) = 2047 + 0; rfl)

/-- Pair `t` of sample `i` has its left word at position `t` … -/
theorem leftWords_apply (x4 : IVec S8192x2048 32) (i : Fin 8192) (t : Fin 2047) :
    leftWords x4 (ix2 i t) = x4 (ix2 i t.castSucc) := by
  unfold leftWords
  exact extractStridedSlice_apply ![0, 0] x4 slices_S8192x2048_S8192x2047_0_0 (ix2 i t) (ix2 i t.castSucc)
    (fun a => match a with
      | ⟨0, _⟩ => by show i.val = 0 + i.val; omega
      | ⟨1, _⟩ => by show t.castSucc.val = 0 + t.val; rw [Fin.coe_castSucc]; omega)

/-- … and its right word at position `t + 1`. -/
theorem rightWords_apply (x4 : IVec S8192x2048 32) (i : Fin 8192) (t : Fin 2047) :
    rightWords x4 (ix2 i t) = x4 (ix2 i t.succ) := by
  unfold rightWords
  exact extractStridedSlice_apply ![0, 1] x4 slices_S8192x2048_S8192x2047_0_1 (ix2 i t) (ix2 i t.succ)
    (fun a => match a with
      | ⟨0, _⟩ => by show i.val = 0 + i.val; omega
      | ⟨1, _⟩ => by show t.succ.val = 1 + t.val; rw [Fin.val_succ]; omega)

/-- A word below 2048 is not negative, so counting from the end leaves it alone. -/
theorem wrap_word (w : BitVec 32) (hw : w.toNat < 2048) :
    Scalar.select (IntOp.cmpi .slt w 0#32) (IntOp.addi w 2048#32) w = w := by
  have h0 : IntOp.cmpi .slt w 0#32 = 0#1 := by
    refine eq_zero_of_ne_one fun h1 => ?_
    have h2 := (StableHlo.Predicate.slt_iff_toNat (a := w) (b := 0#32) (by omega) (by decide)).mp h1
    exact absurd h2 (by simp)
  rw [h0, select_zero]

theorem wrapPairs_apply (w : IVec S8192x2047 32) (j : S8192x2047.Idx) (hw : (w j).toNat < 2048) : wrapPairs w j = w j := by
  have hz : broadcastInDim S8192x2047 ![] bcast_S_S8192x2047 (constantI S_ 32 0#32) j = 0#32 :=
    broadcastInDim_apply _ bcast_S_S8192x2047 _ j ix0 (fun a => a.elim0)
  have hn : broadcastInDim S8192x2047 ![] bcast_S_S8192x2047 (constantI S_ 32 2048#32) j = 2048#32 :=
    broadcastInDim_apply _ bcast_S_S8192x2047 _ j ix0 (fun a => a.elim0)
  unfold wrapPairs
  show Scalar.select (IntOp.cmpi .slt (w j) (broadcastInDim S8192x2047 ![] bcast_S_S8192x2047 (constantI S_ 32 0#32) j))
    (IntOp.addi (w j) (broadcastInDim S8192x2047 ![] bcast_S_S8192x2047 (constantI S_ 32 2048#32) j)) (w j) = w j
  rw [hz, hn]
  exact wrap_word _ hw

theorem wrapVec_apply (w : IVec S8192 32) (j : S8192.Idx) (hw : (w j).toNat < 2048) : wrapVec w j = w j := by
  have hz : broadcastInDim S8192 ![] bcast_S_S8192 (constantI S_ 32 0#32) j = 0#32 :=
    broadcastInDim_apply _ bcast_S_S8192 _ j ix0 (fun a => a.elim0)
  have hn : broadcastInDim S8192 ![] bcast_S_S8192 (constantI S_ 32 2048#32) j = 2048#32 :=
    broadcastInDim_apply _ bcast_S_S8192 _ j ix0 (fun a => a.elim0)
  unfold wrapVec
  show Scalar.select (IntOp.cmpi .slt (w j) (broadcastInDim S8192 ![] bcast_S_S8192 (constantI S_ 32 0#32) j))
    (IntOp.addi (w j) (broadcastInDim S8192 ![] bcast_S_S8192 (constantI S_ 32 2048#32) j)) (w j) = w j
  rw [hz, hn]
  exact wrap_word _ hw

/-- A rectangle given a trailing unit axis reads, at `(i, t, 0)`, the rectangle at `(i, t)`. -/
theorem pairs_unit_apply {α : Type} (w : S8192x2047.Idx → α) (i : Fin 8192) (t : Fin 2047) :
    broadcastInDim S8192x2047x1 ![0, 1] bcast_S8192x2047_S8192x2047x1_0_1 w (ix3 i t (0 : Fin 1)) = w (ix2 i t) :=
  broadcastInDim_apply _ bcast_S8192x2047_S8192x2047x1_0_1 w (ix3 i t (0 : Fin 1)) (ix2 i t)
    (fun a => match a with
      | ⟨0, _⟩ => by show i.val = if (8192 : ℕ) = 1 then 0 else i.val; rw [if_neg (by decide)]
      | ⟨1, _⟩ => by show t.val = if (2047 : ℕ) = 1 then 0 else t.val; rw [if_neg (by decide)])

theorem table_unit_apply {α : Type} (x : S2048x2048.Idx → α) (r c : Fin 2048) :
    broadcastInDim S2048x2048x1 ![0, 1] bcast_S2048x2048_S2048x2048x1_0_1 x (ix3 r c (0 : Fin 1)) = x (ix2 r c) :=
  broadcastInDim_apply _ bcast_S2048x2048_S2048x2048x1_0_1 x (ix3 r c (0 : Fin 1)) (ix2 r c)
    (fun a => match a with
      | ⟨0, _⟩ => by show r.val = if (2048 : ℕ) = 1 then 0 else r.val; rw [if_neg (by decide)]
      | ⟨1, _⟩ => by show c.val = if (2048 : ℕ) = 1 then 0 else c.val; rw [if_neg (by decide)])

/-- The index vector of pair `t` of sample `i`: component `0` its left word, component `1` its right word. -/
theorem pairIdx_apply_left (x4 : IVec S8192x2048 32) (i : Fin 8192) (t : Fin 2047) :
    pairIdx x4 (ix3 i t (0 : Fin 2)) = wrapPairs (leftWords x4) (ix2 i t) := by
  unfold pairIdx
  refine (concatenate_pair_apply_left (t := S8192x2047x2) (s₁ := S8192x2047x1) (s₂ := S8192x2047x1) (2 : Fin 3) _ _
    concatenates_S8192x2047x1_S8192x2047x1_S8192x2047x2_d2
    (ix3 i t (0 : Fin 2)) rfl (ix3 i t (0 : Fin 1)) (fun b => match b with
      | ⟨0, _⟩ => rfl
      | ⟨1, _⟩ => rfl
      | ⟨2, _⟩ => rfl)).trans ?_
  exact pairs_unit_apply _ i t

theorem pairIdx_apply_right (x4 : IVec S8192x2048 32) (i : Fin 8192) (t : Fin 2047) :
    pairIdx x4 (ix3 i t (1 : Fin 2)) = wrapPairs (rightWords x4) (ix2 i t) := by
  unfold pairIdx
  refine (concatenate_pair_apply_right (t := S8192x2047x2) (s₁ := S8192x2047x1) (s₂ := S8192x2047x1) (2 : Fin 3) _ _
    concatenates_S8192x2047x1_S8192x2047x1_S8192x2047x2_d2
    (ix3 i t (1 : Fin 2)) rfl rfl (ix3 i t (0 : Fin 1)) (fun b hb => match b, hb with
      | ⟨0, _⟩, _ => rfl
      | ⟨1, _⟩, _ => rfl
      | ⟨2, _⟩, hb => absurd rfl hb) rfl).trans ?_
  exact pairs_unit_apply _ i t

variable {F : FTy → Type} [FloatOps F]

/-- Layer `0` of the stacked tables is the first table, layer `1` the second. -/
theorem stacked_apply_zero (x0 x3 : FVec F S2048x2048 .f32) (r c : Fin 2048) :
    stacked x0 x3 (ix3 r c (0 : Fin 2)) = x0 (ix2 r c) := by
  unfold stacked
  refine (concatenate_pair_apply_left (t := S2048x2048x2) (s₁ := S2048x2048x1) (s₂ := S2048x2048x1) (2 : Fin 3) _ _
    concatenates_S2048x2048x1_S2048x2048x1_S2048x2048x2_d2
    (ix3 r c (0 : Fin 2)) rfl (ix3 r c (0 : Fin 1)) (fun b => match b with
      | ⟨0, _⟩ => rfl
      | ⟨1, _⟩ => rfl
      | ⟨2, _⟩ => rfl)).trans ?_
  exact table_unit_apply _ r c

theorem stacked_apply_one (x0 x3 : FVec F S2048x2048 .f32) (r c : Fin 2048) :
    stacked x0 x3 (ix3 r c (1 : Fin 2)) = x3 (ix2 r c) := by
  unfold stacked
  refine (concatenate_pair_apply_right (t := S2048x2048x2) (s₁ := S2048x2048x1) (s₂ := S2048x2048x1) (2 : Fin 3) _ _
    concatenates_S2048x2048x1_S2048x2048x1_S2048x2048x2_d2
    (ix3 r c (1 : Fin 2)) rfl rfl (ix3 r c (0 : Fin 1)) (fun b hb => match b, hb with
      | ⟨0, _⟩, _ => rfl
      | ⟨1, _⟩, _ => rfl
      | ⟨2, _⟩, hb => absurd rfl hb) rfl).trans ?_
  exact table_unit_apply _ r c

end Reads

section Gathers

/-- The stacked lookup's dimension numbers: operand axes `0` and `1` are indexed and collapsed, axis `2` is kept whole. -/
abbrev pairDims : GatherDims S2048x2048x2 S8192x2047x2 S8192x2047x2 :=
  gather_S2048x2048x2_S8192x2047x2_S8192x2047x2_2_01_n_n_01_2_112

/-- The vector lookup's dimension numbers: the operand's one axis is indexed and collapsed. -/
abbrev vecDims : GatherDims S2048 S8192x1 S8192 := gather_S2048_S8192x1_S8192_n_0_n_n_0_1_1

/-- The stacked lookup at `(i, t, s)`: layer `s` of the operand at the row and column that index vector `(i, t)` names,
    each read signed and clamped into `[0, 2047]`. -/
theorem gather_pair_apply {α : Type} (x : S2048x2048x2.Idx → α) (idx : IVec S8192x2047x2 32)
    (i : Fin 8192) (t : Fin 2047) (s : Fin 2) :
    Host.gather pairDims x idx (ix3 i t s)
      = x (ix3 (⟨min (idx (ix3 i t (0 : Fin 2))).toInt.toNat 2047, by omega⟩ : Fin 2048)
               (⟨min (idx (ix3 i t (1 : Fin 2))).toInt.toNat 2047, by omega⟩ : Fin 2048) s) := by
  unfold Host.gather
  congr 1
  funext a
  refine Fin.ext ?_
  have hb : ∀ a : Fin 3, a ∉ pairDims.operandBatchingDims := fun a => List.not_mem_nil
  match a with
  | ⟨0, _⟩ =>
    show pairDims.start (ix3 i t s) idx 0 + pairDims.batchCoord (ix3 i t s) 0 + pairDims.offCoord (ix3 i t s) 0
      = min (idx (ix3 i t (0 : Fin 2))).toInt.toNat 2047
    rw [GatherDims.batchCoord_eq_zero _ _ _ (hb 0),
      GatherDims.offCoord_eq_zero _ _ _ (fun h => ((GatherDims.mem_sKept _ _).mp h).1
        (show (0 : Fin 3) ∈ ([0, 1] : List (Fin 3)) by decide))]
    simp only [Nat.add_zero]
    unfold GatherDims.start
    rw [dif_pos (show (0 : Fin 3) ∈ pairDims.startIndexMap from (show (0 : Fin 3) ∈ ([0, 1] : List (Fin 3)) by decide))]
    have hsi : pairDims.siIdx (ix3 i t s) ⟨List.idxOf (0 : Fin 3) pairDims.startIndexMap,
        List.idxOf_lt_length_iff.2 (show (0 : Fin 3) ∈ ([0, 1] : List (Fin 3)) by decide)⟩ = ix3 i t (0 : Fin 2) := by
      funext b; refine Fin.ext ?_
      match b with
      | ⟨0, _⟩ => rfl
      | ⟨1, _⟩ => rfl
      | ⟨2, _⟩ => rfl
    rw [hsi]
    rfl
  | ⟨1, _⟩ =>
    show pairDims.start (ix3 i t s) idx 1 + pairDims.batchCoord (ix3 i t s) 1 + pairDims.offCoord (ix3 i t s) 1
      = min (idx (ix3 i t (1 : Fin 2))).toInt.toNat 2047
    rw [GatherDims.batchCoord_eq_zero _ _ _ (hb 1),
      GatherDims.offCoord_eq_zero _ _ _ (fun h => ((GatherDims.mem_sKept _ _).mp h).1
        (show (1 : Fin 3) ∈ ([0, 1] : List (Fin 3)) by decide))]
    simp only [Nat.add_zero]
    unfold GatherDims.start
    rw [dif_pos (show (1 : Fin 3) ∈ pairDims.startIndexMap from (show (1 : Fin 3) ∈ ([0, 1] : List (Fin 3)) by decide))]
    have hsi : pairDims.siIdx (ix3 i t s) ⟨List.idxOf (1 : Fin 3) pairDims.startIndexMap,
        List.idxOf_lt_length_iff.2 (show (1 : Fin 3) ∈ ([0, 1] : List (Fin 3)) by decide)⟩ = ix3 i t (1 : Fin 2) := by
      funext b; refine Fin.ext ?_
      match b with
      | ⟨0, _⟩ => rfl
      | ⟨1, _⟩ => rfl
      | ⟨2, _⟩ => rfl
    rw [hsi]
    rfl
  | ⟨2, _⟩ =>
    show pairDims.start (ix3 i t s) idx 2 + pairDims.batchCoord (ix3 i t s) 2 + pairDims.offCoord (ix3 i t s) 2 = s.val
    rw [GatherDims.batchCoord_eq_zero _ _ _ (hb 2)]
    unfold GatherDims.start GatherDims.offCoord
    rw [dif_neg (show ¬ (2 : Fin 3) ∈ pairDims.startIndexMap from (show ¬ (2 : Fin 3) ∈ ([0, 1] : List (Fin 3)) by decide)),
      dif_pos (show (2 : Fin 3) ∈ pairDims.sKept from by decide)]
    simp only [Nat.add_zero, Nat.zero_add]
    rfl

/-- The vector lookup at `i`: the operand at word `i` of the index column, read signed and clamped into `[0, 2047]`. -/
theorem gather_vec_apply {α : Type} (x : S2048.Idx → α) (idx : IVec S8192x1 32) (i : Fin 8192) :
    Host.gather vecDims x idx (ix1 i)
      = x (ix1 (⟨min (idx (ix2 i (0 : Fin 1))).toInt.toNat 2047, by omega⟩ : Fin 2048)) := by
  unfold Host.gather
  congr 1
  funext a
  obtain rfl : a = 0 := Subsingleton.elim _ _
  refine Fin.ext ?_
  show vecDims.start (ix1 i) idx 0 + vecDims.batchCoord (ix1 i) 0 + vecDims.offCoord (ix1 i) 0
    = min (idx (ix2 i (0 : Fin 1))).toInt.toNat 2047
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ vecDims.startIndexMap from List.mem_singleton.mpr rfl)]
  have hsi : vecDims.siIdx (ix1 i) ⟨List.idxOf (0 : Fin 1) vecDims.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

end Gathers

section Sums

/-- A row sum: the lookups of sample `i` in layer `s`, summed over its 2047 pairs (the sum starts from zero). -/
theorem rowSums_apply (x0 x3 : FVec Ideal S2048x2048 .f32) (x4 : IVec S8192x2048 32) (i : Fin 8192) (s : Fin 2) :
    rowSums (F := Ideal) x0 x3 x4 (ix2 i s) = ∑ k : Fin 2047, gathered (F := Ideal) x0 x3 x4 (ix3 i k s) := by
  unfold rowSums
  generalize gathered (F := Ideal) x0 x3 x4 = y
  simp only [Host.reduceAdd, Ideal.hostReduceAdd_def]
  rw [Ideal.hostReduceAdd_single reducesTo_S8192x2047x2_S8192x2_d1 (by decide)]
  rw [show constant (F := Ideal) S_ .f32 0x00000000#32 (Shape.Idx.first h_S_) = (0 : EReal) from Ideal.ofBits_zero_f32, zero_add]
  refine Finset.sum_congr rfl fun k _ => ?_
  exact congrArg y (funext fun a => Fin.ext (by match a with | ⟨0, _⟩ => rfl | ⟨1, _⟩ => rfl | ⟨2, _⟩ => rfl))

variable {F : FTy → Type} [FloatOps F]

/-- Entry `i` of a layer's vector is that layer's row sum for sample `i`. -/
theorem sumLayer0_apply (x0 x3 : FVec F S2048x2048 .f32) (x4 : IVec S8192x2048 32) (i : Fin 8192) :
    sumLayer0 x0 x3 x4 (ix1 i) = rowSums x0 x3 x4 (ix2 i (0 : Fin 2)) := by
  unfold sumLayer0
  refine (shapeCast_apply _ shapeCasts_S8192x1_S8192 (ix1 i) (ix2 i (0 : Fin 1))
    (by rw [Shape.rowMajor_val_two, Shape.rowMajor_val_one]; show i.val * 1 + 0 = i.val; omega)).trans ?_
  exact extractStridedSlice_apply ![0, 0] _ slices_S8192x2_S8192x1_0_0 (ix2 i (0 : Fin 1)) (ix2 i (0 : Fin 2))
    (fun a => match a with
      | ⟨0, _⟩ => by show i.val = 0 + i.val; omega
      | ⟨1, _⟩ => by show (0 : ℕ) = 0 + 0; rfl)

theorem sumLayer1_apply (x0 x3 : FVec F S2048x2048 .f32) (x4 : IVec S8192x2048 32) (i : Fin 8192) :
    sumLayer1 x0 x3 x4 (ix1 i) = rowSums x0 x3 x4 (ix2 i (1 : Fin 2)) := by
  unfold sumLayer1
  refine (shapeCast_apply _ shapeCasts_S8192x1_S8192 (ix1 i) (ix2 i (0 : Fin 1))
    (by rw [Shape.rowMajor_val_two, Shape.rowMajor_val_one]; show i.val * 1 + 0 = i.val; omega)).trans ?_
  exact extractStridedSlice_apply ![0, 1] _ slices_S8192x2_S8192x1_0_1 (ix2 i (0 : Fin 1)) (ix2 i (1 : Fin 2))
    (fun a => match a with
      | ⟨0, _⟩ => by show i.val = 0 + i.val; omega
      | ⟨1, _⟩ => by show (1 : ℕ) = 1 + 0; rfl)

end Sums

/-! ## In-range words: the blocks in the vocabulary of the path loss -/

section InRangeReads

/-- A word below 2048 reads the same signed as unsigned, and the clamp into `[0, 2047]` leaves it: it is its own
    residue mod 2048. -/
theorem clamp_word (w : BitVec 32) (hw : w.toNat < 2048) : min w.toInt.toNat 2047 = w.toNat % 2048 := by
  rw [StableHlo.Predicate.toInt_eq_toNat_of_lt (by omega), Int.toNat_natCast]
  omega

variable {F : FTy → Type} [FloatOps F]

/-- A vector looked up at a vector of in-range words reads the vector at the word. -/
theorem lookup_apply (x : FVec F S2048 .f32) (w : IVec S8192 32) (i : Fin 8192) (hw : (w (ix1 i)).toNat < 2048) :
    lookup x w (ix1 i) = x (ix1 (⟨(w (ix1 i)).toNat % 2048, Nat.mod_lt _ (by norm_num)⟩ : Fin 2048)) := by
  have e : broadcastInDim S8192x1 ![0] bcast_S8192_S8192x1_0 (wrapVec w) (ix2 i (0 : Fin 1)) = w (ix1 i) := by
    refine (broadcastInDim_apply _ bcast_S8192_S8192x1_0 _ (ix2 i (0 : Fin 1)) (ix1 i) (fun a => match a with
      | ⟨0, _⟩ => by show i.val = if (8192 : ℕ) = 1 then 0 else i.val; rw [if_neg (by decide)])).trans ?_
    exact wrapVec_apply w (ix1 i) hw
  unfold lookup
  rw [gather_vec_apply]
  exact congrArg (fun k : Fin 2048 => x (ix1 k))
    (Fin.ext ((congrArg (fun z : BitVec 32 => min z.toInt.toNat 2047) e).trans (clamp_word _ hw)))

/-- For in-range samples the stacked lookup at `(i, t, s)` is layer `s` of the stacked tables at the pair
    (word `t`, word `t + 1`) of sample `i`. -/
theorem gathered_apply (x0 x3 : FVec F S2048x2048 .f32) (x4 : IVec S8192x2048 32) (h : InRange x4)
    (i : Fin 8192) (t : Fin 2047) (s : Fin 2) :
    gathered x0 x3 x4 (ix3 i t s) = stacked x0 x3 (ix3 (decode x4 i t.castSucc) (decode x4 i t.succ) s) := by
  have eL : pairIdx x4 (ix3 i t (0 : Fin 2)) = x4 (ix2 i t.castSucc) := by
    rw [pairIdx_apply_left, wrapPairs_apply _ _ (by rw [leftWords_apply]; exact h i _), leftWords_apply]
  have eR : pairIdx x4 (ix3 i t (1 : Fin 2)) = x4 (ix2 i t.succ) := by
    rw [pairIdx_apply_right, wrapPairs_apply _ _ (by rw [rightWords_apply]; exact h i _), rightWords_apply]
  unfold gathered
  rw [gather_pair_apply]
  exact congrArg₂ (fun a b : Fin 2048 => stacked x0 x3 (ix3 a b s))
    (Fin.ext ((congrArg (fun z : BitVec 32 => min z.toInt.toNat 2047) eL).trans (clamp_word _ (h i _))))
    (Fin.ext ((congrArg (fun z : BitVec 32 => min z.toInt.toNat 2047) eR).trans (clamp_word _ (h i _))))

/-- Entry `i` of the vector of ratios is sample `i`'s ratio. -/
theorem ratioVec_apply (x0 : FVec Ideal S2048x2048 .f32) (x1 x2 : FVec Ideal S2048 .f32) (x3 : FVec Ideal S2048x2048 .f32)
    (x4 : IVec S8192x2048 32) (h : InRange x4) (i : Fin 8192) :
    ratioVec (F := Ideal) x0 x1 x2 x3 x4 (ix1 i) = ratioOf x0 x1 x2 x4 i := by
  unfold ratioVec ratioOf pathA
  rw [addf_apply, addf_apply,
    lookup_apply x1 _ i (by rw [firstWord_apply]; exact h i 0),
    lookup_apply x2 _ i (by rw [lastWord_apply]; exact h i 2047),
    sumLayer0_apply, rowSums_apply, firstWord_apply, lastWord_apply]
  refine congrArg₂ (· + ·) rfl (Finset.sum_congr rfl fun t _ => ?_)
  rw [gathered_apply x0 x3 x4 h, stacked_apply_zero]
  rfl

/-- Entry `i` of layer `1` of the row sums is sample `i`'s bias sum. -/
theorem sumLayer1_eq_biasOf (x0 x3 : FVec Ideal S2048x2048 .f32) (x4 : IVec S8192x2048 32) (h : InRange x4) (i : Fin 8192) :
    sumLayer1 (F := Ideal) x0 x3 x4 (ix1 i) = biasOf x3 x4 i := by
  unfold biasOf pathB
  rw [sumLayer1_apply, rowSums_apply]
  refine Finset.sum_congr rfl fun t _ => ?_
  rw [gathered_apply x0 x3 x4 h, stacked_apply_one]
  rfl

end InRangeReads

/-! ## The two arrays the region is entered with -/

section Entry

variable {F : FTy → Type} [FloatOps F]
variable (m : (ℓ : Loc nD τ sig) → Buf (Elt F) ℓ)

/-- The first array is the vector of ratios, 128 to a row. -/
theorem V_ratio_eq (c : Dev nD) :
    (V (F := F) m c main_v44 : FVec F S64x128 .f32)
      = shapeCast _ (ratioVec (m ((c : Thread nD τ).loc main_arg0)) (m ((c : Thread nD τ).loc main_arg1))
          (m ((c : Thread nD τ).loc main_arg2)) (m ((c : Thread nD τ).loc main_arg3))
          (m ((c : Thread nD τ).loc main_arg4))) shapeCasts_S8192_S64x128 := by
  dsimp only [V, V0]
  simp only [hostOps0, List.flatten_cons, List.flatten_nil, List.append_nil, List.cons_append, List.nil_append]
  after_results_simp
  rfl

/-- The second array is layer `1` of the row sums, 128 to a row. -/
theorem V_bias_eq (c : Dev nD) :
    (V (F := F) m c main_v45 : FVec F S64x128 .f32)
      = shapeCast _ (sumLayer1 (m ((c : Thread nD τ).loc main_arg0)) (m ((c : Thread nD τ).loc main_arg3))
          (m ((c : Thread nD τ).loc main_arg4))) shapeCasts_S8192_S64x128 := by
  dsimp only [V, V0]
  simp only [hostOps0, List.flatten_cons, List.flatten_nil, List.append_nil, List.cons_append, List.nil_append]
  after_results_simp
  rfl

end Entry

end Prefix

open Prefix

variable (m : (ℓ : Loc nD τ sig) → Buf (Elt Ideal) ℓ)

/-- Entry `(r, l)` of the first array the region reads is the ratio of sample `128 r + l`. -/
theorem entry_ratio (c : Dev nD) (h : InRange (m ((c : Thread nD τ).loc main_arg4))) (r : Fin 64) (l : Fin 128) :
    V (F := Ideal) m c main_v44 (ix2 r l)
      = ratioOf (m ((c : Thread nD τ).loc main_arg0)) (m ((c : Thread nD τ).loc main_arg1))
          (m ((c : Thread nD τ).loc main_arg2)) (m ((c : Thread nD τ).loc main_arg4))
          ⟨128 * r.val + l.val, by omega⟩ := by
  rw [V_ratio_eq]
  refine (shapeCast_apply _ shapeCasts_S8192_S64x128 (ix2 r l) (ix1 (⟨128 * r.val + l.val, by omega⟩ : Fin 8192))
    (by rw [Shape.rowMajor_val_one, Shape.rowMajor_val_two]; show 128 * r.val + l.val = r.val * 128 + l.val; omega)).trans ?_
  exact ratioVec_apply _ _ _ _ _ h _

/-- Entry `(r, l)` of the second array the region reads is the bias sum of sample `128 r + l`. -/
theorem entry_bias (c : Dev nD) (h : InRange (m ((c : Thread nD τ).loc main_arg4))) (r : Fin 64) (l : Fin 128) :
    V (F := Ideal) m c main_v45 (ix2 r l)
      = biasOf (m ((c : Thread nD τ).loc main_arg3)) (m ((c : Thread nD τ).loc main_arg4))
          ⟨128 * r.val + l.val, by omega⟩ := by
  rw [V_bias_eq]
  refine (shapeCast_apply _ shapeCasts_S8192_S64x128 (ix2 r l) (ix1 (⟨128 * r.val + l.val, by omega⟩ : Fin 8192))
    (by rw [Shape.rowMajor_val_one, Shape.rowMajor_val_two]; show 128 * r.val + l.val = r.val * 128 + l.val; omega)).trans ?_
  exact sumLayer1_eq_biasOf _ _ _ h _

/-- No host line before the region writes an argument array. -/
theorem V_arg0 (c : Dev nD) : V (F := Ideal) m c main_arg0 = m ((c : Thread nD τ).loc main_arg0) := by
  dsimp only [V, V0]
  refine StableHlo.after_of_forall_not_mem _ _ fun op hop => ?_
  revert op
  rw [← List.forall_iff_forall_mem]
  simp only [hostOps0, List.flatten_cons, List.flatten_nil, List.append_nil, List.cons_append, List.nil_append,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
theorem V_arg1 (c : Dev nD) : V (F := Ideal) m c main_arg1 = m ((c : Thread nD τ).loc main_arg1) := by
  dsimp only [V, V0]
  refine StableHlo.after_of_forall_not_mem _ _ fun op hop => ?_
  revert op
  rw [← List.forall_iff_forall_mem]
  simp only [hostOps0, List.flatten_cons, List.flatten_nil, List.append_nil, List.cons_append, List.nil_append,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
theorem V_arg2 (c : Dev nD) : V (F := Ideal) m c main_arg2 = m ((c : Thread nD τ).loc main_arg2) := by
  dsimp only [V, V0]
  refine StableHlo.after_of_forall_not_mem _ _ fun op hop => ?_
  revert op
  rw [← List.forall_iff_forall_mem]
  simp only [hostOps0, List.flatten_cons, List.flatten_nil, List.append_nil, List.cons_append, List.nil_append,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
theorem V_arg3 (c : Dev nD) : V (F := Ideal) m c main_arg3 = m ((c : Thread nD τ).loc main_arg3) := by
  dsimp only [V, V0]
  refine StableHlo.after_of_forall_not_mem _ _ fun op hop => ?_
  revert op
  rw [← List.forall_iff_forall_mem]
  simp only [hostOps0, List.flatten_cons, List.flatten_nil, List.append_nil, List.cons_append, List.nil_append,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

end Cert.KernelIdeal.Hand

end
-- ==== Proof.KBody.lean ====
/-
  What the body leaves in its 8 × 3 block, entry by entry, at the ideal instance: row 0 holds the sum of the first
  input block, the sum of its squares, and the sum of its products with the second block; rows 1 to 7 hold zero.
-/
import proofs.«411131_j14714557956388_2_alg».proof.Proof.EntryIdeal
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

namespace Body

/-- The whole-block rectangles start at the origin. -/
theorem origin2 : (![0, 0] : Fin 2 → Nat) = fun _ => 0 := funext fun a => by fin_cases a <;> rfl

end Body

/-- The body's one store covers the block, and its two loads read whole blocks: the block is the stored value. -/
theorem outBlk_eq_pay (x0 x1 : Vec Ideal S32x128 .f32) :
    outBlk (F := Ideal) x0 x1 = k0_pay1 x0 x1 := by
  unfold outBlk
  rw [View.canon_unit_zero Body.origin2]
  simp only [View.ld_unit_zero (S := S32x128) Body.origin2]

namespace Body

/-- A one-entry vector has one index. -/
theorem idx1_eq (i j : S1.Idx) : i = j :=
  funext fun a => match a with
    | ⟨0, h⟩ => Fin.ext (by
        have h1 : (i ⟨0, h⟩).val < 1 := (i ⟨0, h⟩).isLt
        have h2 : (j ⟨0, h⟩).val < 1 := (j ⟨0, h⟩).isLt
        omega)

/-- A 1 × 1 vector spread over the 8 × 3 block reads its one entry everywhere. -/
theorem spread_apply {α : Type} (w : S1x1.Idx → α) (r : Fin 8) (k : Fin 3) :
    broadcastTo S8x3 w broadcasts_S1x1_S8x3 (ix2 r k) = w (ix2 (0 : Fin 1) (0 : Fin 1)) :=
  broadcastTo_apply w _ _ _ fun a => match a with | ⟨0, _⟩ => rfl | ⟨1, _⟩ => rfl

/-- The entry picked out of a one-entry vector viewed 1 × 1 × 1 is that entry. -/
theorem pick_apply {α : Type} (u : S1.Idx → α) :
    extractAt ![0, 0, 0] (shapeCast S1x1x1 u shapeCasts_S1_S1x1x1) inpos_S1x1x1_p0_0_0 = u (ix1 (0 : Fin 1)) := by
  unfold extractAt shapeCast
  exact congrArg u (idx1_eq _ _)

/-- Summing a 32 × 128 block viewed 1 × 32 × 128 over its last two axes gives the block's total: the sum into a
    one-entry vector runs over every index, and the view is a bijection of indices. -/
theorem total_apply (v : FVec Ideal S32x128 .f32) (hφ : FKind.Formats .f32)
    (hacc : (0x00000000#32 : BitVec 32) = 0x00000000#32) (j : S1.Idx) :
    multiReduction (F := Ideal) .add [1, 2] S1 (shapeCast S1x32x128 v shapeCasts_S32x128_S1x32x128) 0x00000000#32
        reduces_S1x32x128_S1 hφ hacc j
      = ∑ i : S32x128.Idx, v i := by
  refine (Ideal.multiReduction_add_total (shapeCast S1x32x128 v shapeCasts_S32x128_S1x32x128) 0x00000000#32
    reduces_S1x32x128_S1 (fun b => match b with | ⟨0, _⟩ => rfl) hφ hacc j).trans ?_
  exact Equiv.sum_comp (Shape.reshapeEquiv _) v

/-- One cell of the block's first row as the body builds it: the total, spread over the block. -/
theorem cell_apply (v : FVec Ideal S32x128 .f32) (hφ : FKind.Formats .f32)
    (hacc : (0x00000000#32 : BitVec 32) = 0x00000000#32) (r : Fin 8) (k : Fin 3) :
    broadcastTo S8x3
        (shapeCast S1x1
          (broadcast S1x1
            (extractAt ![0, 0, 0]
              (shapeCast S1x1x1
                (multiReduction (F := Ideal) .add [1, 2] S1 (shapeCast S1x32x128 v shapeCasts_S32x128_S1x32x128)
                  0x00000000#32 reduces_S1x32x128_S1 hφ hacc)
                shapeCasts_S1_S1x1x1)
              inpos_S1x1x1_p0_0_0))
          shapeCasts_S1x1_S1x1)
        broadcasts_S1x1_S8x3 (ix2 r k)
      = ∑ i : S32x128.Idx, v i := by
  rw [spread_apply, shapeCast_self, broadcast_apply, pick_apply, total_apply]

/-- The row test and the two column tests at `(r, k)`: the three-way choice by column in row 0, the last value below. -/
theorem tree_apply {α : Type} (A B C Z : α) (r : Fin 8) (k : Fin 3) :
    Scalar.select (cmpi .eq (iota .tc S8x3 32 [0] iota_S8x3_d0_w32) (broadcast S8x3 0#32) (ix2 r k))
        (Scalar.select (cmpi .eq (iota .tc S8x3 32 [1] iota_S8x3_d1_w32) (broadcast S8x3 0#32) (ix2 r k)) A
          (Scalar.select (cmpi .eq (iota .tc S8x3 32 [1] iota_S8x3_d1_w32) (broadcast S8x3 1#32) (ix2 r k)) B C))
        Z
      = if r.val = 0 then (if k.val = 0 then A else if k.val = 1 then B else C) else Z := by
  have e0 : cmpi .eq (iota .tc S8x3 32 [0] iota_S8x3_d0_w32) (broadcast S8x3 0#32) (ix2 r k)
      = IntOp.cmpi .eq (BitVec.ofNat 32 r.val) 0#32 := by
    show IntOp.cmpi .eq (iota .tc S8x3 32 [0] iota_S8x3_d0_w32 (ix2 r k)) 0#32 = _
    rw [iota_single_apply]
  have e1 : ∀ c : BitVec 32, cmpi .eq (iota .tc S8x3 32 [1] iota_S8x3_d1_w32) (broadcast S8x3 c) (ix2 r k)
      = IntOp.cmpi .eq (BitVec.ofNat 32 k.val) c := by
    intro c
    show IntOp.cmpi .eq (iota .tc S8x3 32 [1] iota_S8x3_d1_w32 (ix2 r k)) c = _
    rw [iota_single_apply]
  rw [e0, e1, e1]
  fin_cases r <;> fin_cases k <;> rfl

end Body

open Body in
/-- The block's entry `(r, k)`. -/
theorem outBlk_apply (x0 x1 : Vec Ideal S32x128 .f32) (r : Fin 8) (k : Fin 3) :
    outBlk (F := Ideal) x0 x1 (ix2 r k)
      = if r.val = 0 then
          (if k.val = 0 then ∑ j : S32x128.Idx, x0 j
           else if k.val = 1 then ∑ j : S32x128.Idx, x0 j * x0 j
           else ∑ j : S32x128.Idx, x0 j * x1 j)
        else 0 := by
  rw [outBlk_eq_pay]
  unfold k0_pay1
  simp only [select_apply, broadcast_apply]
  rw [cell_apply, cell_apply, cell_apply, tree_apply]
  have zero_word : (FloatOps.ofBits .f32 0x00000000#32 : Ideal .f32) = 0 := Ideal.ofBits_zero_f32
  simp only [shapeCast_self, mulf_apply, zero_word]

end Cert.KernelIdeal.Hand

end
-- ==== Proof.KArray.lean ====
/-
  The region's output array after the run, entry by entry: the 16 × 3 array is two 8 × 3 blocks, block `t` written by grid
  point `t` from rows `32 t … 32 t + 31` of the two input arrays; and its three column sums are the sums over all
  8192 samples of the ratio, of its square, and of its product with the bias sum.
-/
import proofs.«411131_j14714557956388_2_alg».proof.Proof.EntryIdeal
import proofs.«411131_j14714557956388_2_alg».proof.Proof.KBody
import proofs.«411131_j14714557956388_2_alg».proof.Proof.KPrefix
import Idealize.ShloMosaic.Lib.Pipeline.Value
import Mathlib.Logic.Equiv.Fin.Basic
import Mathlib.Algebra.BigOperators.Fin

noncomputable section

namespace Cert.KernelIdeal.Hand

open Cert.PathLoss Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The array of block sums -/

/-- Rows `32 q … 32 q + 31` of a 64 × 128 array, as a 32 × 128 block. -/
def rows32 (a : FVec Ideal S64x128 .f32) (q : Fin 2) : Vec Ideal S32x128 .f32 := fun j =>
  a (ix2 ⟨32 * q.val + (j 0).val, by have := idx2_lt0 j; have := q.isLt; omega⟩ (j 1))

/-- Which half of the 16 rows an index of the 16 × 3 array lies in: `row / 8`. -/
def halfOf (i : S16x3.Idx) : Fin 2 := ⟨(i 0).val / 8, by have := idx2_lt0 i; omega⟩

/-- Its place inside that half: `(row % 8, column)`. -/
def inHalf (i : S16x3.Idx) : S8x3.Idx := ix2 ⟨(i 0).val % 8, Nat.mod_lt _ (by norm_num)⟩ (i 1)

/-- The 16 × 3 array whose rows `8 q … 8 q + 7` are what the body makes of rows `32 q … 32 q + 31` of `a` and `b`. -/
def sumsArr (a b : FVec Ideal S64x128 .f32) : FVec Ideal S16x3 .f32 := fun i =>
  outBlk (F := Ideal) (rows32 a (halfOf i)) (rows32 b (halfOf i)) (inHalf i)

/-- Entry `8 q + y₀, y₁` of it is entry `y` of half `q`'s block. -/
theorem sumsArr_at (a b : FVec Ideal S64x128 .f32) (q : Fin 2) (i : S16x3.Idx) (y : S8x3.Idx)
    (h0 : (i 0).val = 8 * q.val + (y 0).val) (h1 : (i 1).val = (y 1).val) :
    sumsArr a b i = outBlk (F := Ideal) (rows32 a q) (rows32 b q) y := by
  have hy0 : (y 0).val < 8 := idx2_lt0 y
  have hq : halfOf i = q := Fin.ext (by show (i 0).val / 8 = q.val; omega)
  have hy : inHalf i = y := by
    funext d
    match d with
    | ⟨0, _⟩ => exact Fin.ext (by show (i 0).val % 8 = (y 0).val; omega)
    | ⟨1, _⟩ => exact Fin.ext h1
  unfold sumsArr
  rw [hq, hy]

variable (m : (ℓ : Loc nD τ sig) → Buf (Elt Ideal) ℓ)

/-! ## What each grid point reads and writes -/

/-- The three windows' block indices at point `t`: `(t, 0)`. -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The first input's block at point `t` is rows `32 t … 32 t + 31` of its array. -/
theorem iblk0_eq (c : Dev nD) (t : Fin cfg0.N) (q : Fin 2) (hq : q.val = t.val) :
    (iblk (F := Ideal) m c 0 t : Vec Ideal S32x128 .f32) = rows32 (V m c main_v44) q := by
  obtain ⟨e0, e1, -⟩ := blockIdx t
  funext x
  unfold iblk
  rw [View.read_apply]
  show V m c main_v44 _ = V m c main_v44 _
  congr 1
  funext d
  apply Fin.ext
  match d with
  | ⟨0, _⟩ => show win0_0.index t (0 : Fin 2) * 32 + 1 * (x 0).val = 32 * q.val + (x 0).val; rw [e0, hq]; omega
  | ⟨1, _⟩ => show win0_0.index t (1 : Fin 2) * 128 + 1 * (x 1).val = (x 1).val; rw [e1]; omega

/-- The second input's block at point `t` is rows `32 t … 32 t + 31` of its array. -/
theorem iblk1_eq (c : Dev nD) (t : Fin cfg0.N) (q : Fin 2) (hq : q.val = t.val) :
    (iblk (F := Ideal) m c 1 t : Vec Ideal S32x128 .f32) = rows32 (V m c main_v45) q := by
  obtain ⟨-, -, e0, e1, -⟩ := blockIdx t
  funext x
  unfold iblk
  rw [View.read_apply]
  show V m c main_v45 _ = V m c main_v45 _
  congr 1
  funext d
  apply Fin.ext
  match d with
  | ⟨0, _⟩ => show win0_1.index t (0 : Fin 2) * 32 + 1 * (x 0).val = 32 * q.val + (x 0).val; rw [e0, hq]; omega
  | ⟨1, _⟩ => show win0_1.index t (1 : Fin 2) * 128 + 1 * (x 1).val = (x 1).val; rw [e1]; omega

/-- What point `t` writes back is block `t` of the array of block sums. -/
theorem wrote_eq (c : Dev nD) (t : Fin cfg0.N) :
    (dats (F := Ideal) m 0 c).flushed 2 t
      = ((cfg0.win 2).blk t).view.read (Elt Ideal) (sumsArr (V m c main_v44) (V m c main_v45)) := by
  have hN : cfg0.N = 2 := N_0
  obtain ⟨-, -, -, -, e0, e1⟩ := blockIdx t
  show (cfg0.win 2).cut (grid0.coords t) ((dats (F := Ideal) m 0 c).after 2 t) = _
  rw [after_out, iblk0_eq m c t ⟨t.val, by have := t.isLt; omega⟩ rfl, iblk1_eq m c t ⟨t.val, by have := t.isLt; omega⟩ rfl]
  funext y
  rw [View.read_apply]
  refine (sumsArr_at _ _ ⟨t.val, by have := t.isLt; omega⟩ _ _ ?_ ?_).symm
  · show win0_2.index t (0 : Fin 2) * 8 + 1 * (y 0).val = 8 * t.val + (y 0).val; rw [e0]; omega
  · show win0_2.index t (1 : Fin 2) * 3 + 1 * (y 1).val = (y 1).val; rw [e1]; omega

/-- An index of the 16 × 3 array is in point `t`'s block iff each coordinate is in the block's range. -/
theorem mem_outBlock (t : Fin cfg0.N) (i : S16x3.Idx) :
    i ∈ ((cfg0.win 2).blk t).view.set
      ↔ ∀ a : Fin 2, win0_2.index t a * S8x3.size a ≤ (i a).val ∧ (i a).val < win0_2.index t a * S8x3.size a + S8x3.size a := by
  show i ∈ ((View.whole main_v46).slice (win0_2.rect t)).set ↔ _
  rw [View.set_slice_whole, Rect.mem_set_unit]
  exact Iff.rfl

/-- Row `r` lies in the block of point `r / 8`. -/
theorem covered (i : S16x3.Idx) :
    ∃ t : Fin cfg0.N, (cfg0.win 2).flush t = true ∧ i ∈ ((cfg0.win 2).blk t).view.set := by
  have hN : cfg0.N = 2 := N_0
  have hi0 : (i 0).val < 16 := idx2_lt0 i
  have hi1 : (i 1).val < 3 := idx2_lt1 i
  let t : Fin cfg0.N := ⟨(i 0).val / 8, by omega⟩
  obtain ⟨-, -, -, -, e0, e1⟩ := blockIdx t
  have ht : t.val = (i 0).val / 8 := rfl
  refine ⟨t, flush0_2 t, ?_⟩
  rw [mem_outBlock]
  intro a
  match a with
  | ⟨0, _⟩ => show win0_2.index t (0 : Fin 2) * 8 ≤ (i 0).val ∧ (i 0).val < win0_2.index t (0 : Fin 2) * 8 + 8; rw [e0, ht]; omega
  | ⟨1, _⟩ => show win0_2.index t (1 : Fin 2) * 3 ≤ (i 1).val ∧ (i 1).val < win0_2.index t (1 : Fin 2) * 3 + 3; rw [e1]; omega

/-- The output array after the last grid point. -/
abbrev outArr (c : Dev nD) : FVec Ideal S16x3 .f32 := (dats (F := Ideal) m 0 c).arrAt 2 cfg0.N

/-- It is the array of block sums of the two input arrays. -/
theorem outArr_eq (c : Dev nD) : outArr m c = sumsArr (V m c main_v44) (V m c main_v45) :=
  (dats (F := Ideal) m 0 c).arrAt_eq_of_cover 2 (sumsArr (V m c main_v44) (V m c main_v45)) (fun t _ => wrote_eq m c t) covered

/-! ## The column sums -/

/-- A sum over `Fin (p * n)` as a double sum: `i = b + n a`. -/
theorem sum_fin_mul {M : Type*} [AddCommMonoid M] (p n : ℕ) (f : Fin (p * n) → M) :
    ∑ i, f i = ∑ a : Fin p, ∑ b : Fin n, f (finProdFinEquiv (a, b)) := by
  rw [← Equiv.sum_comp finProdFinEquiv f, Fintype.sum_prod_type]

/-- A sum over the 8192 samples by half, row in the half, and lane: `i = 128 (32 q + r) + l`. -/
theorem sum_samples {M : Type*} [AddCommMonoid M] (φ : Fin 8192 → M) :
    ∑ i, φ i = ∑ q : Fin 2, ∑ r : Fin 32, ∑ l : Fin 128,
        φ ⟨128 * (32 * q.val + r.val) + l.val, by have := q.isLt; have := r.isLt; have := l.isLt; omega⟩ := by
  refine (sum_fin_mul 64 128 φ).trans ?_
  refine (sum_fin_mul 2 32 fun R => ∑ l : Fin 128, φ (finProdFinEquiv (R, l))).trans ?_
  refine Finset.sum_congr rfl fun q _ => Finset.sum_congr rfl fun r _ => Finset.sum_congr rfl fun l _ => ?_
  congr 1
  apply Fin.ext
  show l.val + 128 * (r.val + 32 * q.val) = 128 * (32 * q.val + r.val) + l.val
  omega

/-- Summing a function of the two arrays' entries over both halves' blocks is summing it over all samples, when the
    arrays hold the samples' values 128 to a row. -/
theorem sum_halves (a b : FVec Ideal S64x128 .f32) (A B : Fin 8192 → EReal)
    (ha : ∀ (r : Fin 64) (l : Fin 128), a (ix2 r l) = A ⟨128 * r.val + l.val, by omega⟩)
    (hb : ∀ (r : Fin 64) (l : Fin 128), b (ix2 r l) = B ⟨128 * r.val + l.val, by omega⟩)
    (f : EReal → EReal → EReal) :
    ∑ q : Fin 2, ∑ j : S32x128.Idx, f (rows32 a q j) (rows32 b q j) = ∑ i : Fin 8192, f (A i) (B i) := by
  rw [sum_samples fun i => f (A i) (B i)]
  refine Finset.sum_congr rfl fun q _ => ?_
  rw [sum_idx2]
  refine Finset.sum_congr rfl fun r _ => Finset.sum_congr rfl fun l _ => ?_
  unfold rows32
  rw [ha, hb]

/-- Column `k` of the array of block sums, summed over the 16 rows: only rows 0 and 8 are not zero, and they hold the
    two halves' sums. -/
theorem colsum_sumsArr (a b : FVec Ideal S64x128 .f32) (k : Fin 3) :
    ∑ row : Fin 16, sumsArr a b (ix2 row k)
      = ∑ q : Fin 2, (if k.val = 0 then ∑ j : S32x128.Idx, rows32 a q j
          else if k.val = 1 then ∑ j : S32x128.Idx, rows32 a q j * rows32 a q j
          else ∑ j : S32x128.Idx, rows32 a q j * rows32 b q j) := by
  refine (sum_fin_mul 2 8 fun row => sumsArr a b (ix2 row k)).trans ?_
  refine Finset.sum_congr rfl fun q _ => ?_
  have hterm : ∀ r : Fin 8, sumsArr a b (ix2 (finProdFinEquiv (q, r)) k)
      = outBlk (F := Ideal) (rows32 a q) (rows32 b q) (ix2 r k) := fun r =>
    sumsArr_at a b q _ _ (by show r.val + 8 * q.val = 8 * q.val + r.val; omega) rfl
  rw [Finset.sum_congr rfl fun r _ => hterm r]
  rw [Finset.sum_eq_single (0 : Fin 8)]
  · rw [outBlk_apply, if_pos (show ((0 : Fin 8) : ℕ) = 0 from rfl)]
  · intro r _ hr
    rw [outBlk_apply, if_neg fun h : r.val = 0 => hr (Fin.ext h)]
  · intro h; exact absurd (Finset.mem_univ _) h

/-- Column `k` of the output array summed over its 16 rows: over all samples, the ratio (`k = 0`), its square
    (`k = 1`), its product with the bias sum (`k = 2`). -/
theorem outArr_colsum (c : Dev nD) (h : InRange (m ((c : Thread nD τ).loc main_arg4))) (k : Fin 3) :
    ∑ row : Fin 16, outArr m c (ix2 row k)
      = (let A := ratioOf (m ((c : Thread nD τ).loc main_arg0)) (m ((c : Thread nD τ).loc main_arg1))
                    (m ((c : Thread nD τ).loc main_arg2)) (m ((c : Thread nD τ).loc main_arg4))
         let B := biasOf (m ((c : Thread nD τ).loc main_arg3)) (m ((c : Thread nD τ).loc main_arg4))
         if k.val = 0 then ∑ i : Fin 8192, A i
         else if k.val = 1 then ∑ i : Fin 8192, A i * A i
         else ∑ i : Fin 8192, A i * B i) := by
  rw [outArr_eq, colsum_sumsArr]
  have hs := sum_halves (V m c main_v44) (V m c main_v45) _ _ (entry_ratio m c h) (entry_bias m c h)
  show _ = if k.val = 0 then _ else if k.val = 1 then _ else _
  by_cases h0 : k.val = 0
  · simp only [if_pos h0]
    exact hs fun x _ => x
  · by_cases h1 : k.val = 1
    · simp only [if_neg h0, if_pos h1]
      exact hs fun x _ => x * x
    · simp only [if_neg h0, if_neg h1]
      exact hs fun x y => x * y

end Cert.KernelIdeal.Hand

end
-- ==== Proof.KFrameIdeal.lean ====
/-
  The program runs: the host lines, the two grid points of the region, the host lines after it.  Every weakly fair
  execution terminates without a fault; afterwards the region's output array holds what the proof data says, every
  other buffer what the later lines leave, and the five argument arrays are as launched.  For any float instance.
-/
import proofs.«411131_j14714557956388_2_alg».proof.Proof.EntryIdeal
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.Sem

open Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## No host line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## The entry function around its one region -/

/-- The entry function is the lines before the region, the region, and the five later stretches: so it reduces to the
    region continued by those stretches, entered at the contents the earlier lines leave. -/
theorem hmain (𝒱₀ : Variants) : Pipeline.HMainK (Ix := Unit) (Name := ℕ) (U := UR sig nD τ) (Lvl := ℕ) cfgs 0 defs₀ 𝒱₀ m
      (main (F := F)) (V m) (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## What each stretch of host lines writes

Every host line writes its one result buffer and nothing else.  Listing each stretch's results turns "this stretch leaves
buffer `r` alone" into "`r` is not in the list", which is decided on references. -/

/-- The results of the lines before the region, in order. -/
abbrev wr0 : List (Ref sig .tc) :=
  [main_v0, main_v1, main_v2, main_v3, main_v4, main_v5, main_v6, main_v7, main_v8, main_c, main_v9, main_v10,
   main_c_0, main_v11, main_v12, main_v13, main_c_1, main_v14, main_v15, main_c_2, main_v16, main_v17,
   main_v18, main_v19, main_v20, main_v21, main_v22, main_cst, main_v23, main_v24, main_v25, main_v26,
   main_v27, main_c_3, main_v28, main_v29, main_c_4, main_v30, main_v31, main_v32, main_v33, main_v34,
   main_c_5, main_v35, main_v36, main_c_6, main_v37, main_v38, main_v39, main_v40, main_v41, main_v42,
   main_v43, main_v44, main_v45]

/-- The results of the first later stretch, -/
abbrev wr1 : List (Ref sig .tc) :=
  [main_cst_7, main_v47, main_v48, main_v49, main_v50, main_v51, main_v52, main_v53, main_v54, main_v55,
   main_v56, main_v57, main_v58, main_v59]

/-- of the first superdiagonal's lines, -/
abbrev wr1_1 : List (Ref sig .tc) :=
  [main_call0_v0, main_call0_v1, main_call0_c, main_call0_v2, main_call0_v3, main_call0_c_0, main_call0_v4,
   main_call0_v5, main_call0_c_1, main_call0_v6, main_call0_v7, main_call0_v8, main_call0_c_2, main_call0_v9,
   main_call0_v10, main_call0_c_3, main_call0_v11, main_call0_v12, main_call0_v13, main_call0_v14,
   main_call0_v15, main_call0_v16, main_v60]

/-- of the stretch that sums it, -/
abbrev wr1_2 : List (Ref sig .tc) :=
  [main_cst_8, main_v61, main_v62]

/-- of the second superdiagonal's lines, -/
abbrev wr1_3 : List (Ref sig .tc) :=
  [main_call1_v0, main_call1_v1, main_call1_c, main_call1_v2, main_call1_v3, main_call1_c_0, main_call1_v4,
   main_call1_v5, main_call1_c_1, main_call1_v6, main_call1_v7, main_call1_v8, main_call1_c_2, main_call1_v9,
   main_call1_v10, main_call1_c_3, main_call1_v11, main_call1_v12, main_call1_v13, main_call1_v14,
   main_call1_v15, main_call1_v16, main_v63]

/-- and of the closing arithmetic. -/
abbrev wr1_4 : List (Ref sig .tc) :=
  [main_cst_9, main_v64, main_v65, main_v66, main_v67, main_v68]

theorem hostOps0_writes : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_writes : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_1_writes : (hostOps1_1 : List (HloOp τ sig (Elt F))).Forall fun op =>
    op.writes ⊆ (wr1_1.map (Proc.devRef (τ := τ) .tc)).toFinset := by
  simp only [hostOps1_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_2_writes : (hostOps1_2 : List (HloOp τ sig (Elt F))).Forall fun op =>
    op.writes ⊆ (wr1_2.map (Proc.devRef (τ := τ) .tc)).toFinset := by
  simp only [hostOps1_2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_3_writes : (hostOps1_3 : List (HloOp τ sig (Elt F))).Forall fun op =>
    op.writes ⊆ (wr1_3.map (Proc.devRef (τ := τ) .tc)).toFinset := by
  simp only [hostOps1_3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_4_writes : (hostOps1_4 : List (HloOp τ sig (Elt F))).Forall fun op =>
    op.writes ⊆ (wr1_4.map (Proc.devRef (τ := τ) .tc)).toFinset := by
  simp only [hostOps1_4, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside a list holding all that the lines write is written by none of them. -/
theorem not_written {L : List (Ref sig .tc)} {r : Ref sig .tc} {ops : List (HloOp τ sig (Elt F))}
    (hL : ops.Forall fun op => op.writes ⊆ (L.map (Proc.devRef (τ := τ) .tc)).toFinset) (hr : r ∉ L) :
    ∀ op ∈ ops, Proc.devRef (τ := τ) .tc r ∉ op.writes := fun op hop hb => by
  obtain ⟨y, hy, he⟩ := List.mem_map.mp (List.mem_toFinset.mp ((List.forall_iff_forall_mem.mp hL) op hop hb))
  exact hr (Proc.devRef_injective _ he ▸ hy)

/-- A buffer that is no result of any later line is written by no later line. -/
theorem tail_not_written {r : Ref sig .tc} (h : r ∉ wr1 ++ wr1_1 ++ wr1_2 ++ wr1_3 ++ wr1_4) :
    ∀ ops ∈ (tailOps : List (List (HloOp τ sig (Elt F)))), ∀ op ∈ ops, Proc.devRef (τ := τ) .tc r ∉ op.writes := by
  simp only [List.mem_append, not_or] at h
  obtain ⟨⟨⟨⟨h0, h1⟩, h2⟩, h3⟩, h4⟩ := h
  intro ops hops
  simp only [List.mem_cons, List.mem_nil_iff, or_false] at hops
  rcases hops with rfl | rfl | rfl | rfl | rfl
  · exact not_written hostOps1_writes h0
  · exact not_written hostOps1_1_writes h1
  · exact not_written hostOps1_2_writes h2
  · exact not_written hostOps1_3_writes h3
  · exact not_written hostOps1_4_writes h4

/-! ## The later lines, as the frame run takes them -/

/-- They touch the pipeline's arrays and the buffers that bypass the region only: each line's buffers are unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write no array of the pipeline: the two staged inputs and the 16 × 3 result are no later line's result. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_written (r := main_v44) (by decide) ops hops op hop
  · exact tail_not_written (r := main_v45) (by decide) ops hops op hop
  · exact tail_not_written (r := main_v46) (by decide) ops hops op hop

/-! ## The argument arrays are written by no host line -/

/-- No line before the region writes argument 0: the region finds it as launched. -/
theorem entry_keeps_arg0 (c : Dev nD) : V m c main_arg0 = m ((c : Thread nD τ).loc main_arg0) :=
  StableHlo.after_of_writes_sub (W := wr0) (r := main_arg0) _ _
    (by rw [List.flatten_cons, List.flatten_nil, List.append_nil]; exact hostOps0_writes) (by decide)

/-- No line after it does either: it ends as launched. -/
theorem tail_keeps_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact tail_not_written (r := main_arg0) (by decide) ops hops op hop'),
    Pipeline.withArrays_of_ne _ c (V0 m c) _ main_arg0 (by exact (by decide : ∀ w, Pipeline.arrRef spec0 w ≠ main_arg0))]
  exact entry_keeps_arg0 m c

/-- No line before the region writes argument 1: the region finds it as launched. -/
theorem entry_keeps_arg1 (c : Dev nD) : V m c main_arg1 = m ((c : Thread nD τ).loc main_arg1) :=
  StableHlo.after_of_writes_sub (W := wr0) (r := main_arg1) _ _
    (by rw [List.flatten_cons, List.flatten_nil, List.append_nil]; exact hostOps0_writes) (by decide)

/-- No line after it does either: it ends as launched. -/
theorem tail_keeps_arg1 (c : Dev nD) :
    Pipeline.afterTail₀ cfgs (dats m) 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop'⟩ := List.mem_flatten.mp hop
      exact tail_not_written (r := main_arg1) (by decide) ops hops op hop'),
    Pipeline.withArrays_of_ne _ c (V0 m c) _ main_arg1 (by exact (by decide : ∀ w, Pipeline.arrRef spec0 w ≠ main_arg1))]
  exact entry_keeps_arg1 m c

/-- No line before the region writes argument 2: the region finds it as launched. -/
theorem entry_keeps_arg2 (c : Dev nD) : V m c main_arg2 = m ((c : Thread nD τ).loc main_arg2) :=
  StableHlo.after_of_writes_sub (W := wr0) (r := main_arg2) _ _
    (by rw [List.flatten_cons, List.flatten_nil, List.append_nil]; exact hostOps0_writes) (by decide)

/-- No line after it does either: it ends as launched. -/
theorem tail_keeps_arg2 (c : Dev nD) :
    Pipeline.afterTail₀ cfgs (dats m) 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact tail_not_written (r := main_arg2) (by decide) ops hops op hop'),
    Pipeline.withArrays_of_ne _ c (V0 m c) _ main_arg2 (by exact (by decide : ∀ w, Pipeline.arrRef spec0 w ≠ main_arg2))]
  exact entry_keeps_arg2 m c

/-- No line before the region writes argument 3: the region finds it as launched. -/
theorem entry_keeps_arg3 (c : Dev nD) : V m c main_arg3 = m ((c : Thread nD τ).loc main_arg3) :=
  StableHlo.after_of_writes_sub (W := wr0) (r := main_arg3) _ _
    (by rw [List.flatten_cons, List.flatten_nil, List.append_nil]; exact hostOps0_writes) (by decide)

/-- No line after it does either: it ends as launched. -/
theorem tail_keeps_arg3 (c : Dev nD) :
    Pipeline.afterTail₀ cfgs (dats m) 0 (V0 m) tailOps c main_arg3 = m ((c : Thread nD τ).loc main_arg3) := by
  unfold Pipeline.afterTail₀
  rw [StableHlo.after_of_forall_not_mem (b := Proc.devRef .tc main_arg3) _ _ (fun op hop => by
      obtain ⟨ops, hops, hop'⟩ := List.mem_flatten.mp hop
      exact tail_not_written (r := main_arg3) (by decide) ops hops op hop'),
    Pipeline.withArrays_of_ne _ c (V0 m c) _ main_arg3 (by exact (by decide : ∀ w, Pipeline.arrRef spec0 w ≠ main_arg3))]
  exact entry_keeps_arg3 m c

/-- No line before the region writes argument 4: the region finds it as launched. -/
theorem entry_keeps_arg4 (c : Dev nD) : V m c main_arg4 = m ((c : Thread nD τ).loc main_arg4) :=
  StableHlo.after_of_writes_sub (W := wr0) (r := main_arg4) _ _
    (by rw [List.flatten_cons, List.flatten_nil, List.append_nil]; exact hostOps0_writes) (by decide)

/-- No line after it does either: it ends as launched. -/
theorem tail_keeps_arg4 (c : Dev nD) :
    Pipeline.afterTail₀ cfgs (dats m) 0 (V0 m) tailOps c main_arg4 = m ((c : Thread nD τ).loc main_arg4) := by
  unfold Pipeline.afterTail₀
  rw [StableHlo.after_of_forall_not_mem (b := Proc.devRef .tc main_arg4) _ _ (fun op hop => by
      obtain ⟨ops, hops, hop'⟩ := List.mem_flatten.mp hop
      exact tail_not_written (r := main_arg4) (by decide) ops hops op hop'),
    Pipeline.withArrays_of_ne _ c (V0 m c) _ main_arg4 (by exact (by decide : ∀ w, Pipeline.arrRef spec0 w ≠ main_arg4))]
  exact entry_keeps_arg4 m c

/-! ## The inputs' blocks -/

/-- An input's current staging buffer holds its block at every point, fetched there or not: the window is uncut and
    never idle, and the body leaves the block in place. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)

theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-! ## The body's triple -/

/-- The body's one store is of the whole 8 × 3 block, so it covers it. -/
theorem cover_out (p : Vec F S8x3 .f32) (y : S8x3.Idx) :
    ∃ pc ∈ ([⟨rOut, p⟩] : List (View.Piece (Elt F) S8x3 .f32)), y ∈ pc.1.set :=
  View.cover_of_tiled [⟨rOut, p⟩] S8x3.size (by rfl) y

set_option maxHeartbeats 1000000 in
/-- The body on whole staging memrefs, the inputs' at contents `x0`, `x1` and the output's at anything: it reads the
    two inputs whole, reads the output once (a value it never uses), and stores the whole output block; so it ends with
    the inputs as they were and the output at `outBlk x0 x1`. -/
theorem sound_kernel (c : Dev nD) (E : Set ℕ) (i : grid0.Coords)
    (arg1 : Memref sig .tc .vmem S32x128 .f32) (harg1 : arg1.IsWhole)
    (arg2 : Memref sig .tc .vmem S32x128 .f32) (harg2 : arg2.IsWhole)
    (arg3 : Memref sig .tc .vmem S8x3 .f32) (harg3 : arg3.IsWhole)
    (x0 x1 : Vec F S32x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E
          (cc0__finish_reduce_kernel i arg1 harg1 arg2 harg2 arg3 harg3) K := by
  simp only [cc0__finish_reduce_kernel_eq_skeleton]; unfold cc0__finish_reduce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation, at a generic point -/

/-- What the body is called with at point `t`: the invariant, what the core owes, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- The run of @main, to the library's post: the pipeline's arrays at the proof data's, the rest as the later lines
    leave them. -/
theorem run_main :
    θ_run defs (onTc (τ := τ) (main (F := F))) (s₀ m ρ)
      (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (tail_keeps_arg0 m c),
     ((h c).2 main_arg1 (Pipeline.mem_restRefs_of main_arg1 (by decide) (by decide))).trans (tail_keeps_arg1 m c),
     ((h c).2 main_arg2 (Pipeline.mem_restRefs_of main_arg2 (by decide) (by decide))).trans (tail_keeps_arg2 m c),
     ((h c).2 main_arg3 (Pipeline.mem_restRefs_of main_arg3 (by decide) (by decide))).trans (tail_keeps_arg3 m c),
     ((h c).2 main_arg4 (Pipeline.mem_restRefs_of main_arg4 (by decide) (by decide))).trans (tail_keeps_arg4 m c)⟩)
    (run_main m ρ)

end Cert.KernelIdeal.Hand

end
-- ==== Proof.KTail.lean ====
/-
  The host lines after the region, read off: from the 16 × 3 array and the argument arrays to the result.  The three
  column sums are picked out, the identity path's term is computed from the first and last vector entries and the two
  superdiagonals, and the result is that term plus (second column sum + third) / first.
-/
import proofs.«411131_j14714557956388_2_alg».proof.Proof.EntryIdeal
import proofs.«411131_j14714557956388_2_alg».proof.Proof.KPrefix
import proofs.«411131_j14714557956388_2_alg».proof.Proof.KArray
import proofs.«411131_j14714557956388_2_alg».proof.Proof.KFrameIdeal
import Idealize.ShloMosaic.Lib.IdealHost
import Idealize.ShloMosaic.Lib.Pipeline.Value

noncomputable section

namespace Cert.KernelIdeal.Hand

open Cert.PathLoss Cert.KernelIdeal Cert.KernelIdeal.Gen
open Idealize.ShloMosaic Idealize.ShloMosaic.TcCoe Idealize.ShloMosaic.ValueIdx Idealize.ShloMosaic.StableHlo
open Idealize.SL Idealize.SL.Sem

/-! ### The stages of the later lines, as functions of the arrays they read -/

/-- The three column sums of a 16 × 3 array, each summed from zero. -/
def colSums (O : FVec Ideal S16x3 .f32) : FVec Ideal S3 .f32 :=
  Host.reduceAdd O (constant (F := Ideal) S_ .f32 0x00000000#32) reducesTo_S16x3_S3_d0 h_S_

/-- Entry 0, 1, 2 of a vector of length three, as a scalar. -/
def entry0 (s : FVec Ideal S3 .f32) : FVec Ideal S_ .f32 :=
  fun i => shapeCast S_ (extractStridedSlice S1 ![0] s slices_S3_S1_0) shapeCasts_S1_S_ i
def entry1 (s : FVec Ideal S3 .f32) : FVec Ideal S_ .f32 :=
  fun i => shapeCast S_ (extractStridedSlice S1 ![1] s slices_S3_S1_1) shapeCasts_S1_S_ i
def entry2 (s : FVec Ideal S3 .f32) : FVec Ideal S_ .f32 :=
  fun i => shapeCast S_ (extractStridedSlice S1 ![2] s slices_S3_S1_2) shapeCasts_S1_S_ i

/-- The first and the last entry of a vector of length 2048, as a scalar. -/
def firstOf (x : FVec Ideal S2048 .f32) : FVec Ideal S_ .f32 :=
  fun i => shapeCast S_ (extractStridedSlice S1 ![0] x slices_S2048_S1_0) shapeCasts_S1_S_ i
def lastOf (x : FVec Ideal S2048 .f32) : FVec Ideal S_ .f32 :=
  fun i => shapeCast S_ (extractStridedSlice S1 ![2047] x slices_S2048_S1_2047) shapeCasts_S1_S_ i

/-- Minus the first entry of one vector, minus the last entry of another. -/
def endsTerm (x1 x2 : FVec Ideal S2048 .f32) : FVec Ideal S_ .f32 :=
  subf (Host.negf (firstOf x1)) (lastOf x2)

/-- The words `k` and `k + 1` for `k < 2047`, each passed through the wrap of a negative word by 2048. -/
def rowWords : IVec S2047 32 :=
  select (cmpi .slt (iotaInDim S2047 32 0) (broadcastInDim S2047 ![] bcast_S_S2047 (constantI S_ 32 0#32)))
    (addi (iotaInDim S2047 32 0) (broadcastInDim S2047 ![] bcast_S_S2047 (constantI S_ 32 2048#32)))
    (iotaInDim S2047 32 0)
def nextWords : IVec S2047 32 :=
  addi (broadcastInDim S2047 ![] bcast_S_S2047 (constantI S_ 32 1#32)) (iotaInDim S2047 32 0)
def colWords : IVec S2047 32 :=
  select (cmpi .slt nextWords (broadcastInDim S2047 ![] bcast_S_S2047 (constantI S_ 32 0#32)))
    (addi nextWords (broadcastInDim S2047 ![] bcast_S_S2047 (constantI S_ 32 2048#32)))
    nextWords

/-- The 2047 × 2 array of cell coordinates `(k, k + 1)`. -/
def diagIdx : IVec S2047x2 32 :=
  concatenate S2047x2 1
    [⟨S2047x1, broadcastInDim S2047x1 ![0] bcast_S2047_S2047x1_0 rowWords⟩,
     ⟨S2047x1, broadcastInDim S2047x1 ![0] bcast_S2047_S2047x1_0 colWords⟩]
    concatenates_S2047x1_S2047x1_S2047x2_d1

/-- The cells of a 2048 × 2048 table at those coordinates: its superdiagonal. -/
def diagOf (x : FVec Ideal S2048x2048 .f32) : FVec Ideal S2047 .f32 :=
  Host.gather gather_S2048x2048_S2047x2_S2047_n_01_n_n_01_1_11 x diagIdx

/-- The superdiagonal summed from zero. -/
def diagSum (x : FVec Ideal S2048x2048 .f32) : FVec Ideal S_ .f32 :=
  Host.reduceAdd (diagOf x) (constant (F := Ideal) S_ .f32 0x00000000#32) reducesTo_S2047_S_d0 h_S_

/-- The result of the later lines from the 16 × 3 array and the four float argument arrays. -/
def tailOf (O : FVec Ideal S16x3 .f32) (a0 : FVec Ideal S2048x2048 .f32) (a1 a2 : FVec Ideal S2048 .f32)
    (a3 : FVec Ideal S2048x2048 .f32) : FVec Ideal S_ .f32 :=
  addf (subf (subf (endsTerm a1 a2) (diagSum a0)) (diagSum a3))
    (Host.divf (addf (entry1 (colSums O)) (entry2 (colSums O))) (entry0 (colSums O)))

/-- A two-piece concatenation depends on its pieces only. -/
theorem concatenate_pair_congr {α : Type} {t s₁ s₂ : Shape} (ax : Fin t.rank) {a a' : s₁.Idx → α} {b b' : s₂.Idx → α}
    (h : Shape.Concatenates [s₁, s₂] t ax) (ha : a = a') (hb : b = b') :
    concatenate t ax [⟨s₁, a⟩, ⟨s₂, b⟩] h = concatenate t ax [⟨s₁, a'⟩, ⟨s₂, b'⟩] h := by
  subst ha; subst hb; rfl

/-! ### Each stretch of the later lines, from any contents -/

section Stretches

variable (Wv : Valuation τ sig (Elt Ideal))

attribute [local congr] concatenate_pair_congr

/-- The first stretch: the three column sums picked out, and the two vector ends. -/
theorem s0_v49 : after (hostOps1 (F := Ideal)) Wv (Proc.devRef .tc main_v49)
    = (entry0 (colSums (Wv (Proc.devRef .tc main_v46))) : FVec Ideal S_ .f32) := by
  dsimp only [hostOps1]; after_results <;> rfl
theorem s0_v51 : after (hostOps1 (F := Ideal)) Wv (Proc.devRef .tc main_v51)
    = (entry1 (colSums (Wv (Proc.devRef .tc main_v46))) : FVec Ideal S_ .f32) := by
  dsimp only [hostOps1]; after_results <;> rfl
theorem s0_v53 : after (hostOps1 (F := Ideal)) Wv (Proc.devRef .tc main_v53)
    = (entry2 (colSums (Wv (Proc.devRef .tc main_v46))) : FVec Ideal S_ .f32) := by
  dsimp only [hostOps1]; after_results <;> rfl
theorem s0_v59 : after (hostOps1 (F := Ideal)) Wv (Proc.devRef .tc main_v59)
    = (endsTerm (Wv (Proc.devRef .tc main_arg1)) (Wv (Proc.devRef .tc main_arg2)) : FVec Ideal S_ .f32) := by
  dsimp only [hostOps1]; after_results <;> rfl
theorem s0_arg0 : after (hostOps1 (F := Ideal)) Wv (Proc.devRef .tc main_arg0) = Wv (Proc.devRef .tc main_arg0) := by
  dsimp only [hostOps1]; after_results <;> rfl
theorem s0_arg3 : after (hostOps1 (F := Ideal)) Wv (Proc.devRef .tc main_arg3) = Wv (Proc.devRef .tc main_arg3) := by
  dsimp only [hostOps1]; after_results <;> rfl

/-- The second stretch: the first table's superdiagonal. -/
theorem s1_v60 : after (hostOps1_1 (F := Ideal)) Wv (Proc.devRef .tc main_v60)
    = (diagOf (Wv (Proc.devRef .tc main_arg0)) : FVec Ideal S2047 .f32) := by
  dsimp only [hostOps1_1]; after_results_simp
  simp only [TRef.ofBuf, TRef.toBuf, cast_eq]
  rfl
theorem s1_v59 : after (hostOps1_1 (F := Ideal)) Wv (Proc.devRef .tc main_v59) = Wv (Proc.devRef .tc main_v59) := by
  dsimp only [hostOps1_1]; after_results <;> rfl
theorem s1_arg3 : after (hostOps1_1 (F := Ideal)) Wv (Proc.devRef .tc main_arg3) = Wv (Proc.devRef .tc main_arg3) := by
  dsimp only [hostOps1_1]; after_results <;> rfl
theorem s1_v51 : after (hostOps1_1 (F := Ideal)) Wv (Proc.devRef .tc main_v51) = Wv (Proc.devRef .tc main_v51) := by
  dsimp only [hostOps1_1]; after_results <;> rfl
theorem s1_v53 : after (hostOps1_1 (F := Ideal)) Wv (Proc.devRef .tc main_v53) = Wv (Proc.devRef .tc main_v53) := by
  dsimp only [hostOps1_1]; after_results <;> rfl
theorem s1_v49 : after (hostOps1_1 (F := Ideal)) Wv (Proc.devRef .tc main_v49) = Wv (Proc.devRef .tc main_v49) := by
  dsimp only [hostOps1_1]; after_results <;> rfl

/-- The third stretch: that superdiagonal summed and taken off. -/
theorem s2_v62 : after (hostOps1_2 (F := Ideal)) Wv (Proc.devRef .tc main_v62)
    = (subf (Wv (Proc.devRef .tc main_v59))
        (Host.reduceAdd (Wv (Proc.devRef .tc main_v60)) (constant (F := Ideal) S_ .f32 0x00000000#32)
          reducesTo_S2047_S_d0 h_S_) : FVec Ideal S_ .f32) := by
  dsimp only [hostOps1_2]; after_results <;> rfl
theorem s2_arg3 : after (hostOps1_2 (F := Ideal)) Wv (Proc.devRef .tc main_arg3) = Wv (Proc.devRef .tc main_arg3) := by
  dsimp only [hostOps1_2]; after_results <;> rfl
theorem s2_v51 : after (hostOps1_2 (F := Ideal)) Wv (Proc.devRef .tc main_v51) = Wv (Proc.devRef .tc main_v51) := by
  dsimp only [hostOps1_2]; after_results <;> rfl
theorem s2_v53 : after (hostOps1_2 (F := Ideal)) Wv (Proc.devRef .tc main_v53) = Wv (Proc.devRef .tc main_v53) := by
  dsimp only [hostOps1_2]; after_results <;> rfl
theorem s2_v49 : after (hostOps1_2 (F := Ideal)) Wv (Proc.devRef .tc main_v49) = Wv (Proc.devRef .tc main_v49) := by
  dsimp only [hostOps1_2]; after_results <;> rfl

/-- The fourth stretch: the second table's superdiagonal. -/
theorem s3_v63 : after (hostOps1_3 (F := Ideal)) Wv (Proc.devRef .tc main_v63)
    = (diagOf (Wv (Proc.devRef .tc main_arg3)) : FVec Ideal S2047 .f32) := by
  dsimp only [hostOps1_3]; after_results_simp
  simp only [TRef.ofBuf, TRef.toBuf, cast_eq]
  rfl
theorem s3_v62 : after (hostOps1_3 (F := Ideal)) Wv (Proc.devRef .tc main_v62) = Wv (Proc.devRef .tc main_v62) := by
  dsimp only [hostOps1_3]; after_results <;> rfl
theorem s3_v51 : after (hostOps1_3 (F := Ideal)) Wv (Proc.devRef .tc main_v51) = Wv (Proc.devRef .tc main_v51) := by
  dsimp only [hostOps1_3]; after_results <;> rfl
theorem s3_v53 : after (hostOps1_3 (F := Ideal)) Wv (Proc.devRef .tc main_v53) = Wv (Proc.devRef .tc main_v53) := by
  dsimp only [hostOps1_3]; after_results <;> rfl
theorem s3_v49 : after (hostOps1_3 (F := Ideal)) Wv (Proc.devRef .tc main_v49) = Wv (Proc.devRef .tc main_v49) := by
  dsimp only [hostOps1_3]; after_results <;> rfl

/-- The last stretch: the second sum taken off, the quotient of the column sums added. -/
theorem s4_v68 : after (hostOps1_4 (F := Ideal)) Wv (Proc.devRef .tc main_v68)
    = (addf (subf (Wv (Proc.devRef .tc main_v62))
              (Host.reduceAdd (Wv (Proc.devRef .tc main_v63)) (constant (F := Ideal) S_ .f32 0x00000000#32)
                reducesTo_S2047_S_d0 h_S_))
        (Host.divf (addf (Wv (Proc.devRef .tc main_v51)) (Wv (Proc.devRef .tc main_v53)))
          (Wv (Proc.devRef .tc main_v49))) : FVec Ideal S_ .f32) := by
  dsimp only [hostOps1_4]; after_results <;> rfl

end Stretches

/-! ### The stages read at an index -/

/-- The one index of a shape with a single entry. -/
theorem idx_S1 (k : S1.Idx) : k = ix1 (0 : Fin 1) := by
  funext a
  match a with
  | ⟨0, _⟩ => exact Fin.ext (Nat.lt_one_iff.mp (k ⟨0, _⟩).isLt)

theorem entry0_apply (s : FVec Ideal S3 .f32) (i : S_.Idx) : entry0 s i = s (ix1 0) := by
  unfold entry0 shapeCast
  rw [idx_S1 (Shape.reshapeEquiv shapeCasts_S1_S_ i)]
  exact extractStridedSlice_apply ![0] s slices_S3_S1_0 (ix1 0) (ix1 0) (fun a => by match a with | ⟨0, _⟩ => rfl)
theorem entry1_apply (s : FVec Ideal S3 .f32) (i : S_.Idx) : entry1 s i = s (ix1 1) := by
  unfold entry1 shapeCast
  rw [idx_S1 (Shape.reshapeEquiv shapeCasts_S1_S_ i)]
  exact extractStridedSlice_apply ![1] s slices_S3_S1_1 (ix1 0) (ix1 1) (fun a => by match a with | ⟨0, _⟩ => rfl)
theorem entry2_apply (s : FVec Ideal S3 .f32) (i : S_.Idx) : entry2 s i = s (ix1 2) := by
  unfold entry2 shapeCast
  rw [idx_S1 (Shape.reshapeEquiv shapeCasts_S1_S_ i)]
  exact extractStridedSlice_apply ![2] s slices_S3_S1_2 (ix1 0) (ix1 2) (fun a => by match a with | ⟨0, _⟩ => rfl)
theorem firstOf_apply (x : FVec Ideal S2048 .f32) (i : S_.Idx) : firstOf x i = x (ix1 0) := by
  unfold firstOf shapeCast
  rw [idx_S1 (Shape.reshapeEquiv shapeCasts_S1_S_ i)]
  exact extractStridedSlice_apply ![0] x slices_S2048_S1_0 (ix1 0) (ix1 0) (fun a => by match a with | ⟨0, _⟩ => rfl)
theorem lastOf_apply (x : FVec Ideal S2048 .f32) (i : S_.Idx) : lastOf x i = x (ix1 2047) := by
  unfold lastOf shapeCast
  rw [idx_S1 (Shape.reshapeEquiv shapeCasts_S1_S_ i)]
  exact extractStridedSlice_apply ![2047] x slices_S2048_S1_2047 (ix1 0) (ix1 2047) (fun a => by match a with | ⟨0, _⟩ => rfl)

/-- A column sum is the sum of the column's sixteen entries. -/
theorem colSums_apply (O : FVec Ideal S16x3 .f32) (k : Fin 3) : colSums O (ix1 k) = ∑ row : Fin 16, O (ix2 row k) := by
  unfold colSums
  rw [hostReduceAdd_apply, Ideal.hostReduceAdd_single reducesTo_S16x3_S3_d0 (by decide), constant_apply,
    Ideal.ofBits_zero_f32, zero_add]
  refine Finset.sum_congr rfl fun row _ => ?_
  exact congrArg O (funext fun a => Fin.ext (by match a with | ⟨0, _⟩ => rfl | ⟨1, _⟩ => rfl))

/-- The summed superdiagonal is the sum of its 2047 cells. -/
theorem diagSum_apply (x : FVec Ideal S2048x2048 .f32) (i : S_.Idx) : diagSum x i = ∑ k : Fin 2047, diagOf x (ix1 k) := by
  unfold diagSum
  rw [hostReduceAdd_apply, Ideal.hostReduceAdd_total reducesTo_S2047_S_d0 (fun b => b.elim0), constant_apply,
    Ideal.ofBits_zero_f32, zero_add]
  exact Fintype.sum_equiv ⟨fun j => j 0, ix1, fun j => (eq_ix1 j).symm, fun k => rfl⟩ _ _
    (fun j => congrArg (diagOf x) (eq_ix1 j))

/-! ### The cell coordinates, and the superdiagonal's cells -/

/-- A word holding a number up to 2047 reads back as that number. -/
theorem word_toNat (n : Nat) (h : n ≤ 2047) : (BitVec.ofNat 32 n).toInt.toNat = n := by
  have h1 : (BitVec.ofNat 32 n).toNat = n := by rw [BitVec.toNat_ofNat]; omega
  rw [BitVec.toInt_eq_toNat_cond, h1, if_pos (by omega)]
  exact Int.toNat_natCast n

/-- Such a word is not negative. -/
theorem word_not_neg (n : Nat) (h : n ≤ 2047) : IntOp.cmpi .slt (BitVec.ofNat 32 n) 0#32 = 0#1 := by
  have h1 : (BitVec.ofNat 32 n).toNat = n := by rw [BitVec.toNat_ofNat]; omega
  have h2 : (BitVec.ofNat 32 n).toInt = (n : Int) := by
    rw [BitVec.toInt_eq_toNat_cond, h1, if_pos (by omega)]
  show BitVec.ofBool ((BitVec.ofNat 32 n).slt 0#32) = 0#1
  rw [BitVec.slt, h2]
  have : ¬ ((n : Int) < (0#32 : BitVec 32).toInt) := by
    show ¬ ((n : Int) < 0)
    omega
  rw [decide_eq_false this]
  rfl

/-- One added to the word of `n` is the word of `n + 1`. -/
theorem word_succ (n : Nat) : IntOp.addi (1#32) (BitVec.ofNat 32 n) = BitVec.ofNat 32 (n + 1) := by
  show 1#32 + BitVec.ofNat 32 n = _
  rw [BitVec.add_comm]
  exact (BitVec.ofNat_add n 1).symm

theorem rowWords_apply (k : Fin 2047) : rowWords (ix1 k) = BitVec.ofNat 32 k.val := by
  show Scalar.select (IntOp.cmpi .slt (BitVec.ofNat 32 k.val) 0#32) (IntOp.addi (BitVec.ofNat 32 k.val) 2048#32)
    (BitVec.ofNat 32 k.val) = _
  rw [word_not_neg k.val (by omega), Idealize.ShloMosaic.ValueIdx.select_zero]

theorem nextWords_apply (k : Fin 2047) : nextWords (ix1 k) = BitVec.ofNat 32 (k.val + 1) := by
  show IntOp.addi 1#32 (BitVec.ofNat 32 k.val) = _
  exact word_succ k.val

theorem colWords_apply (k : Fin 2047) : colWords (ix1 k) = BitVec.ofNat 32 (k.val + 1) := by
  show Scalar.select (IntOp.cmpi .slt (nextWords (ix1 k)) 0#32) (IntOp.addi (nextWords (ix1 k)) 2048#32)
    (nextWords (ix1 k)) = _
  rw [nextWords_apply, word_not_neg (k.val + 1) (by omega), Idealize.ShloMosaic.ValueIdx.select_zero]

/-- Row `k` of the coordinate array is `(k, k + 1)`. -/
theorem diagIdx_row (k : Fin 2047) : diagIdx (ix2 k (0 : Fin 2)) = BitVec.ofNat 32 k.val := by
  have e := concatenate_pair_apply_left (α := BitVec 32) (t := S2047x2) (s₁ := S2047x1) (s₂ := S2047x1) (1 : Fin 2)
    (broadcastInDim S2047x1 ![0] bcast_S2047_S2047x1_0 rowWords) (broadcastInDim S2047x1 ![0] bcast_S2047_S2047x1_0 colWords)
    concatenates_S2047x1_S2047x1_S2047x2_d1 (ix2 k (0 : Fin 2)) rfl (ix2 k (0 : Fin 1))
    (fun b => by match b with | ⟨0, _⟩ => rfl | ⟨1, _⟩ => rfl)
  have e2 := broadcastInDim_apply (α := BitVec 32) (s := S2047) (t := S2047x1) ![0] bcast_S2047_S2047x1_0 rowWords
    (ix2 k (0 : Fin 1)) (ix1 k) (fun a => by match a with | ⟨0, _⟩ => rfl)
  exact (e.trans e2).trans (rowWords_apply k)

theorem diagIdx_col (k : Fin 2047) : diagIdx (ix2 k (1 : Fin 2)) = BitVec.ofNat 32 (k.val + 1) := by
  have e := concatenate_pair_apply_right (α := BitVec 32) (t := S2047x2) (s₁ := S2047x1) (s₂ := S2047x1) (1 : Fin 2)
    (broadcastInDim S2047x1 ![0] bcast_S2047_S2047x1_0 rowWords) (broadcastInDim S2047x1 ![0] bcast_S2047_S2047x1_0 colWords)
    concatenates_S2047x1_S2047x1_S2047x2_d1 (ix2 k (1 : Fin 2)) rfl rfl (ix2 k (0 : Fin 1))
    (fun b hb => by match b with | ⟨0, _⟩ => rfl | ⟨1, _⟩ => exact absurd rfl hb) rfl
  have e2 := broadcastInDim_apply (α := BitVec 32) (s := S2047) (t := S2047x1) ![0] bcast_S2047_S2047x1_0 colWords
    (ix2 k (0 : Fin 1)) (ix1 k) (fun a => by match a with | ⟨0, _⟩ => rfl)
  exact (e.trans e2).trans (colWords_apply k)

/-- Cell `k` of the superdiagonal is the table's cell `(k, k + 1)`. -/
theorem diagOf_apply (x : FVec Ideal S2048x2048 .f32) (k : Fin 2047) :
    diagOf x (ix1 k) = x (ix2 k.castSucc k.succ) := by
  unfold diagOf Host.gather
  refine congrArg x (funext fun a => Fin.ext ?_)
  match a with
  | ⟨0, _⟩ =>
    show gather_S2048x2048_S2047x2_S2047_n_01_n_n_01_1_11.start (ix1 k) diagIdx 0
        + gather_S2048x2048_S2047x2_S2047_n_01_n_n_01_1_11.batchCoord (ix1 k) 0
        + gather_S2048x2048_S2047x2_S2047_n_01_n_n_01_1_11.offCoord (ix1 k) 0 = k.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S2048x2048_S2047x2_S2047_n_01_n_n_01_1_11.startIndexMap by decide)]
    have hsi : gather_S2048x2048_S2047x2_S2047_n_01_n_n_01_1_11.siIdx (ix1 k)
        ⟨List.idxOf (0 : Fin 2) gather_S2048x2048_S2047x2_S2047_n_01_n_n_01_1_11.startIndexMap,
          List.idxOf_lt_length_iff.2 (by decide)⟩ = ix2 k 0 := by
      funext b; refine Fin.ext ?_
      match b with
      | ⟨0, _⟩ => rfl
      | ⟨1, _⟩ => rfl
    rw [hsi, diagIdx_row, word_toNat _ (by omega)]
    show min k.val (2048 - 1) = k.val
    omega
  | ⟨1, _⟩ =>
    show gather_S2048x2048_S2047x2_S2047_n_01_n_n_01_1_11.start (ix1 k) diagIdx 1
        + gather_S2048x2048_S2047x2_S2047_n_01_n_n_01_1_11.batchCoord (ix1 k) 1
        + gather_S2048x2048_S2047x2_S2047_n_01_n_n_01_1_11.offCoord (ix1 k) 1 = k.val + 1
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S2048x2048_S2047x2_S2047_n_01_n_n_01_1_11.startIndexMap by decide)]
    have hsi : gather_S2048x2048_S2047x2_S2047_n_01_n_n_01_1_11.siIdx (ix1 k)
        ⟨List.idxOf (1 : Fin 2) gather_S2048x2048_S2047x2_S2047_n_01_n_n_01_1_11.startIndexMap,
          List.idxOf_lt_length_iff.2 (by decide)⟩ = ix2 k 1 := by
      funext b; refine Fin.ext ?_
      match b with
      | ⟨0, _⟩ => rfl
      | ⟨1, _⟩ => rfl
    rw [hsi, diagIdx_col, word_toNat _ (by omega)]
    show min (k.val + 1) (2048 - 1) = k.val + 1
    omega

/-! ### The later lines as a whole -/

variable (m : (ℓ : Loc nD τ sig) → Buf (Elt Ideal) ℓ) (ρ : Dev nD → PrngReg)

/-- Core `c`'s buffer contents when the region is left: the output array as the grid points wrote it, every other
    buffer as the region found it. -/
abbrev exitVal (c : Dev nD) : Valuation τ sig (Elt Ideal) :=
  Pipeline.withArrays (cfgs 0).spec c (V0 m c) fun w => (dats (F := Ideal) m 0 c).arrAt w (cfgs 0).N

theorem exit_v46 (c : Dev nD) : exitVal m c (Proc.devRef .tc main_v46) = outArr m c :=
  Pipeline.withArrays_arr spec0 launch0.win.arr_inj c (V0 m c) (fun w => (dats (F := Ideal) m 0 c).arrAt w (cfgs 0).N) 2

theorem exit_arg0 (c : Dev nD) : exitVal m c (Proc.devRef .tc main_arg0) = m ((c : Thread nD τ).loc main_arg0) :=
  (Pipeline.withArrays_of_ne spec0 c (V0 m c) _ main_arg0 (by decide)).trans (V_arg0 m c)
theorem exit_arg1 (c : Dev nD) : exitVal m c (Proc.devRef .tc main_arg1) = m ((c : Thread nD τ).loc main_arg1) :=
  (Pipeline.withArrays_of_ne spec0 c (V0 m c) _ main_arg1 (by decide)).trans (V_arg1 m c)
theorem exit_arg2 (c : Dev nD) : exitVal m c (Proc.devRef .tc main_arg2) = m ((c : Thread nD τ).loc main_arg2) :=
  (Pipeline.withArrays_of_ne spec0 c (V0 m c) _ main_arg2 (by decide)).trans (V_arg2 m c)
theorem exit_arg3 (c : Dev nD) : exitVal m c (Proc.devRef .tc main_arg3) = m ((c : Thread nD τ).loc main_arg3) :=
  (Pipeline.withArrays_of_ne spec0 c (V0 m c) _ main_arg3 (by decide)).trans (V_arg3 m c)

/-- The result buffer after the later lines is `tailOf` of the output array and the argument arrays. -/
theorem tail_eq (c : Dev nD) :
    Pipeline.afterTail₀ cfgs (dats (F := Ideal) m) 0 (V0 m) tailOps c main_v68
      = tailOf (outArr m c) (m ((c : Thread nD τ).loc main_arg0)) (m ((c : Thread nD τ).loc main_arg1))
          (m ((c : Thread nD τ).loc main_arg2)) (m ((c : Thread nD τ).loc main_arg3)) := by
  show after (List.flatten (tailOps (F := Ideal))) (exitVal m c) (Proc.devRef .tc main_v68) = _
  simp only [tailOps, List.flatten_cons, List.flatten_nil, List.append_nil]
  rw [StableHlo.after_append, StableHlo.after_append, StableHlo.after_append, StableHlo.after_append]
  rw [s4_v68, s3_v62, s3_v63, s3_v51, s3_v53, s3_v49, s2_v62, s2_arg3, s2_v51, s2_v53, s2_v49,
    s1_v59, s1_v60, s1_arg3, s1_v51, s1_v53, s1_v49, s0_v59, s0_arg0, s0_arg3, s0_v51, s0_v53, s0_v49,
    exit_v46, exit_arg0, exit_arg1, exit_arg2, exit_arg3]
  rfl

/-- `tailOf` read at its one index: the identity path's term plus the quotient of the column sums. -/
theorem tailOf_apply (O : FVec Ideal S16x3 .f32) (a0 : FVec Ideal S2048x2048 .f32) (a1 a2 : FVec Ideal S2048 .f32)
    (a3 : FVec Ideal S2048x2048 .f32) (i : S_.Idx) :
    tailOf O a0 a1 a2 a3 i
      = identityTerm (tab1 a1) (tab1 a2) (tab2 a0) (tab2 a3)
        + Ideal.div ((∑ row : Fin 16, O (ix2 row 1)) + (∑ row : Fin 16, O (ix2 row 2))) (∑ row : Fin 16, O (ix2 row 0)) := by
  show ((-(firstOf a1 i) - lastOf a2 i) - diagSum a0 i) - diagSum a3 i
      + Ideal.div (entry1 (colSums O) i + entry2 (colSums O) i) (entry0 (colSums O) i) = _
  rw [firstOf_apply, lastOf_apply, diagSum_apply, diagSum_apply, entry0_apply, entry1_apply, entry2_apply,
    colSums_apply, colSums_apply, colSums_apply]
  simp only [diagOf_apply]
  rfl

/-- The result buffer after the later lines, as a function of the output array and the argument arrays. -/
theorem tail_result (c : Dev nD) (i : S_.Idx) :
    Pipeline.afterTail₀ cfgs (dats (F := Ideal) m) 0 (V0 m) tailOps c main_v68 i
      = identityTerm (tab1 (m ((c : Thread nD τ).loc main_arg1))) (tab1 (m ((c : Thread nD τ).loc main_arg2)))
            (tab2 (m ((c : Thread nD τ).loc main_arg0))) (tab2 (m ((c : Thread nD τ).loc main_arg3)))
        + Ideal.div ((∑ row : Fin 16, outArr m c (ix2 row 1)) + (∑ row : Fin 16, outArr m c (ix2 row 2)))
            (∑ row : Fin 16, outArr m c (ix2 row 0)) := by
  rw [tail_eq m c]
  exact tailOf_apply (outArr m c) _ _ _ _ i

/-- With the three column sums named, the result is the loss in closed form. -/
theorem closed_form (c : Dev nD) (h : InRange (m ((c : Thread nD τ).loc main_arg4))) :
    identityTerm (tab1 (m ((c : Thread nD τ).loc main_arg1))) (tab1 (m ((c : Thread nD τ).loc main_arg2)))
            (tab2 (m ((c : Thread nD τ).loc main_arg0))) (tab2 (m ((c : Thread nD τ).loc main_arg3)))
        + Ideal.div ((∑ row : Fin 16, outArr m c (ix2 row 1)) + (∑ row : Fin 16, outArr m c (ix2 row 2)))
            (∑ row : Fin 16, outArr m c (ix2 row 0))
      = closedOf (m ((c : Thread nD τ).loc main_arg0)) (m ((c : Thread nD τ).loc main_arg1))
          (m ((c : Thread nD τ).loc main_arg2)) (m ((c : Thread nD τ).loc main_arg3)) (m ((c : Thread nD τ).loc main_arg4)) := by
  rw [outArr_colsum m c h 0, outArr_colsum m c h 1, outArr_colsum m c h 2]
  rfl

/-- The kernel's run with its result named: the loss in closed form. -/
theorem value_run (hr : ∀ c : Dev nD, InRange (m ((c : Thread nD τ).loc main_arg4))) :
    θ_run defs (onTc (τ := τ) (main (F := Ideal))) ⟨m, fun _ => 0, ρ⟩ (fun r => ∀ c : Dev nD,
      r.2.mem ((c.tc : Thread nD τ).loc main_v68)
          = (fun _ => closedOf (m ((c : Thread nD τ).loc main_arg0)) (m ((c : Thread nD τ).loc main_arg1))
              (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v68 (Pipeline.mem_restRefs_of main_v68 (by decide) (by decide))).trans
        (funext fun i => (tail_result m c i).trans (closed_form m c (hr c))),
     ((h c).2 main_arg0 (Pipeline.mem_restRefs_of main_arg0 (by decide) (by decide))).trans (tail_keeps_arg0 m c),
     ((h c).2 main_arg1 (Pipeline.mem_restRefs_of main_arg1 (by decide) (by decide))).trans (tail_keeps_arg1 m c),
     ((h c).2 main_arg2 (Pipeline.mem_restRefs_of main_arg2 (by decide) (by decide))).trans (tail_keeps_arg2 m c),
     ((h c).2 main_arg3 (Pipeline.mem_restRefs_of main_arg3 (by decide) (by decide))).trans (tail_keeps_arg3 m c),
     ((h c).2 main_arg4 (Pipeline.mem_restRefs_of main_arg4 (by decide) (by decide))).trans (tail_keeps_arg4 m c)⟩)
    (run_main m ρ)

end Cert.KernelIdeal.Hand

end
-- ==== Proof.EntryBits.lean ====
/-
  The one pallas_call of the program, as the pipeline sees it: what its arrays hold when the region is entered, which
  block of them each grid point reads, and what the body leaves in the output window's block.

  The grid has two points.  Point `t` reads rows `32 t … 32 t + 31` of two 64 × 128 arrays (the per-sample ratios and the
  per-sample bias sums, laid out 128 to a row) and writes rows `8 t … 8 t + 7` of a 16 × 3 array: in the first of its
  eight rows the block's three sums (of `a`, of `a²`, of `a·b`), zeros below.  Stated for any float instance.
-/
import proofs.«411131_j14714557956388_2_alg».proof.Proof.Gen.Kernel.Launch
import proofs.«411131_j14714557956388_2_alg».proof.Proof.Gen.Kernel.Skeleton
import proofs.«411131_j14714557956388_2_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]
variable (m : (ℓ : Loc nD τ sig) → Buf (Elt F) ℓ)

/-- The host lines after the region, stretch by stretch: the three sums picked out of the 16 × 3 array, the two
    superdiagonal sums (each a call of the diagonal function), and the closing arithmetic. -/
abbrev tailOps : List (List (HloOp τ sig (Elt F))) := [hostOps1, hostOps1_1, hostOps1_2, hostOps1_3, hostOps1_4]

/-- Core `c`'s buffer contents when the region is entered: the launch contents after the host lines before it. -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole 32 × 128 input block, and the whole 8 × 3 output block, as rectangles. -/
abbrev rIn : Rect S32x128 := Rect.unit (s := S32x128) ![0, 0] S32x128.size inb_S32x128_S32x128_0_0
abbrev rOut : Rect S8x3 := Rect.unit (s := S8x3) ![0, 0] S8x3.size inb_S8x3_S8x3_0_0

/-- What the body leaves in the output window's 8 × 3 block, from the two input blocks: its one whole-block store. -/
def outBlk (x0 x1 : Vec F S32x128 .f32) : Vec F S8x3 .f32 :=
  View.canon [⟨rOut, k0_pay1 (View.ld x0 rIn) (View.ld x1 rIn)⟩]

/-- The pipeline's proof data on core `c`: the arrays as the region finds them; after the body at point `t` each input's
    buffer still at its block and the output's at `outBlk` of the two; nothing of the body's own is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = outBlk (iblk m c 0 t) (iblk m c 1 t) := by dsimp only [dats]

end Cert.Kernel.Hand

end
-- ==== Proof.KFrameBits.lean ====
/-
  The program runs: the host lines, the two grid points of the region, the host lines after it.  Every weakly fair
  execution terminates without a fault; afterwards the region's output array holds what the proof data says, every
  other buffer what the later lines leave, and the five argument arrays are as launched.  For any float instance.
-/
import proofs.«411131_j14714557956388_2_alg».proof.Proof.EntryBits
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.Sem

open Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## No host line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## The entry function around its one region -/

/-- The entry function is the lines before the region, the region, and the five later stretches: so it reduces to the
    region continued by those stretches, entered at the contents the earlier lines leave. -/
theorem hmain (𝒱₀ : Variants) : Pipeline.HMainK (Ix := Unit) (Name := ℕ) (U := UR sig nD τ) (Lvl := ℕ) cfgs 0 defs₀ 𝒱₀ m
      (main (F := F)) (V m) (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## What each stretch of host lines writes

Every host line writes its one result buffer and nothing else.  Listing each stretch's results turns "this stretch leaves
buffer `r` alone" into "`r` is not in the list", which is decided on references. -/

/-- The results of the lines before the region, in order. -/
abbrev wr0 : List (Ref sig .tc) :=
  [main_v0, main_v1, main_v2, main_v3, main_v4, main_v5, main_v6, main_v7, main_v8, main_c, main_v9, main_v10,
   main_c_0, main_v11, main_v12, main_v13, main_c_1, main_v14, main_v15, main_c_2, main_v16, main_v17,
   main_v18, main_v19, main_v20, main_v21, main_v22, main_cst, main_v23, main_v24, main_v25, main_v26,
   main_v27, main_c_3, main_v28, main_v29, main_c_4, main_v30, main_v31, main_v32, main_v33, main_v34,
   main_c_5, main_v35, main_v36, main_c_6, main_v37, main_v38, main_v39, main_v40, main_v41, main_v42,
   main_v43, main_v44, main_v45]

/-- The results of the first later stretch, -/
abbrev wr1 : List (Ref sig .tc) :=
  [main_cst_7, main_v47, main_v48, main_v49, main_v50, main_v51, main_v52, main_v53, main_v54, main_v55,
   main_v56, main_v57, main_v58, main_v59]

/-- of the first superdiagonal's lines, -/
abbrev wr1_1 : List (Ref sig .tc) :=
  [main_call0_v0, main_call0_v1, main_call0_c, main_call0_v2, main_call0_v3, main_call0_c_0, main_call0_v4,
   main_call0_v5, main_call0_c_1, main_call0_v6, main_call0_v7, main_call0_v8, main_call0_c_2, main_call0_v9,
   main_call0_v10, main_call0_c_3, main_call0_v11, main_call0_v12, main_call0_v13, main_call0_v14,
   main_call0_v15, main_call0_v16, main_v60]

/-- of the stretch that sums it, -/
abbrev wr1_2 : List (Ref sig .tc) :=
  [main_cst_8, main_v61, main_v62]

/-- of the second superdiagonal's lines, -/
abbrev wr1_3 : List (Ref sig .tc) :=
  [main_call1_v0, main_call1_v1, main_call1_c, main_call1_v2, main_call1_v3, main_call1_c_0, main_call1_v4,
   main_call1_v5, main_call1_c_1, main_call1_v6, main_call1_v7, main_call1_v8, main_call1_c_2, main_call1_v9,
   main_call1_v10, main_call1_c_3, main_call1_v11, main_call1_v12, main_call1_v13, main_call1_v14,
   main_call1_v15, main_call1_v16, main_v63]

/-- and of the closing arithmetic. -/
abbrev wr1_4 : List (Ref sig .tc) :=
  [main_cst_9, main_v64, main_v65, main_v66, main_v67, main_v68]

theorem hostOps0_writes : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_writes : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_1_writes : (hostOps1_1 : List (HloOp τ sig (Elt F))).Forall fun op =>
    op.writes ⊆ (wr1_1.map (Proc.devRef (τ := τ) .tc)).toFinset := by
  simp only [hostOps1_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_2_writes : (hostOps1_2 : List (HloOp τ sig (Elt F))).Forall fun op =>
    op.writes ⊆ (wr1_2.map (Proc.devRef (τ := τ) .tc)).toFinset := by
  simp only [hostOps1_2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_3_writes : (hostOps1_3 : List (HloOp τ sig (Elt F))).Forall fun op =>
    op.writes ⊆ (wr1_3.map (Proc.devRef (τ := τ) .tc)).toFinset := by
  simp only [hostOps1_3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

theorem hostOps1_4_writes : (hostOps1_4 : List (HloOp τ sig (Elt F))).Forall fun op =>
    op.writes ⊆ (wr1_4.map (Proc.devRef (τ := τ) .tc)).toFinset := by
  simp only [hostOps1_4, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside a list holding all that the lines write is written by none of them. -/
theorem not_written {L : List (Ref sig .tc)} {r : Ref sig .tc} {ops : List (HloOp τ sig (Elt F))}
    (hL : ops.Forall fun op => op.writes ⊆ (L.map (Proc.devRef (τ := τ) .tc)).toFinset) (hr : r ∉ L) :
    ∀ op ∈ ops, Proc.devRef (τ := τ) .tc r ∉ op.writes := fun op hop hb => by
  obtain ⟨y, hy, he⟩ := List.mem_map.mp (List.mem_toFinset.mp ((List.forall_iff_forall_mem.mp hL) op hop hb))
  exact hr (Proc.devRef_injective _ he ▸ hy)

/-- A buffer that is no result of any later line is written by no later line. -/
theorem tail_not_written {r : Ref sig .tc} (h : r ∉ wr1 ++ wr1_1 ++ wr1_2 ++ wr1_3 ++ wr1_4) :
    ∀ ops ∈ (tailOps : List (List (HloOp τ sig (Elt F)))), ∀ op ∈ ops, Proc.devRef (τ := τ) .tc r ∉ op.writes := by
  simp only [List.mem_append, not_or] at h
  obtain ⟨⟨⟨⟨h0, h1⟩, h2⟩, h3⟩, h4⟩ := h
  intro ops hops
  simp only [List.mem_cons, List.mem_nil_iff, or_false] at hops
  rcases hops with rfl | rfl | rfl | rfl | rfl
  · exact not_written hostOps1_writes h0
  · exact not_written hostOps1_1_writes h1
  · exact not_written hostOps1_2_writes h2
  · exact not_written hostOps1_3_writes h3
  · exact not_written hostOps1_4_writes h4

/-! ## The later lines, as the frame run takes them -/

/-- They touch the pipeline's arrays and the buffers that bypass the region only: each line's buffers are unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write no array of the pipeline: the two staged inputs and the 16 × 3 result are no later line's result. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_written (r := main_v44) (by decide) ops hops op hop
  · exact tail_not_written (r := main_v45) (by decide) ops hops op hop
  · exact tail_not_written (r := main_v46) (by decide) ops hops op hop

/-! ## The argument arrays are written by no host line -/

/-- No line before the region writes argument 0: the region finds it as launched. -/
theorem entry_keeps_arg0 (c : Dev nD) : V m c main_arg0 = m ((c : Thread nD τ).loc main_arg0) :=
  StableHlo.after_of_writes_sub (W := wr0) (r := main_arg0) _ _
    (by rw [List.flatten_cons, List.flatten_nil, List.append_nil]; exact hostOps0_writes) (by decide)

/-- No line after it does either: it ends as launched. -/
theorem tail_keeps_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact tail_not_written (r := main_arg0) (by decide) ops hops op hop'),
    Pipeline.withArrays_of_ne _ c (V0 m c) _ main_arg0 (by exact (by decide : ∀ w, Pipeline.arrRef spec0 w ≠ main_arg0))]
  exact entry_keeps_arg0 m c

/-- No line before the region writes argument 1: the region finds it as launched. -/
theorem entry_keeps_arg1 (c : Dev nD) : V m c main_arg1 = m ((c : Thread nD τ).loc main_arg1) :=
  StableHlo.after_of_writes_sub (W := wr0) (r := main_arg1) _ _
    (by rw [List.flatten_cons, List.flatten_nil, List.append_nil]; exact hostOps0_writes) (by decide)

/-- No line after it does either: it ends as launched. -/
theorem tail_keeps_arg1 (c : Dev nD) :
    Pipeline.afterTail₀ cfgs (dats m) 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop'⟩ := List.mem_flatten.mp hop
      exact tail_not_written (r := main_arg1) (by decide) ops hops op hop'),
    Pipeline.withArrays_of_ne _ c (V0 m c) _ main_arg1 (by exact (by decide : ∀ w, Pipeline.arrRef spec0 w ≠ main_arg1))]
  exact entry_keeps_arg1 m c

/-- No line before the region writes argument 2: the region finds it as launched. -/
theorem entry_keeps_arg2 (c : Dev nD) : V m c main_arg2 = m ((c : Thread nD τ).loc main_arg2) :=
  StableHlo.after_of_writes_sub (W := wr0) (r := main_arg2) _ _
    (by rw [List.flatten_cons, List.flatten_nil, List.append_nil]; exact hostOps0_writes) (by decide)

/-- No line after it does either: it ends as launched. -/
theorem tail_keeps_arg2 (c : Dev nD) :
    Pipeline.afterTail₀ cfgs (dats m) 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact tail_not_written (r := main_arg2) (by decide) ops hops op hop'),
    Pipeline.withArrays_of_ne _ c (V0 m c) _ main_arg2 (by exact (by decide : ∀ w, Pipeline.arrRef spec0 w ≠ main_arg2))]
  exact entry_keeps_arg2 m c

/-- No line before the region writes argument 3: the region finds it as launched. -/
theorem entry_keeps_arg3 (c : Dev nD) : V m c main_arg3 = m ((c : Thread nD τ).loc main_arg3) :=
  StableHlo.after_of_writes_sub (W := wr0) (r := main_arg3) _ _
    (by rw [List.flatten_cons, List.flatten_nil, List.append_nil]; exact hostOps0_writes) (by decide)

/-- No line after it does either: it ends as launched. -/
theorem tail_keeps_arg3 (c : Dev nD) :
    Pipeline.afterTail₀ cfgs (dats m) 0 (V0 m) tailOps c main_arg3 = m ((c : Thread nD τ).loc main_arg3) := by
  unfold Pipeline.afterTail₀
  rw [StableHlo.after_of_forall_not_mem (b := Proc.devRef .tc main_arg3) _ _ (fun op hop => by
      obtain ⟨ops, hops, hop'⟩ := List.mem_flatten.mp hop
      exact tail_not_written (r := main_arg3) (by decide) ops hops op hop'),
    Pipeline.withArrays_of_ne _ c (V0 m c) _ main_arg3 (by exact (by decide : ∀ w, Pipeline.arrRef spec0 w ≠ main_arg3))]
  exact entry_keeps_arg3 m c

/-- No line before the region writes argument 4: the region finds it as launched. -/
theorem entry_keeps_arg4 (c : Dev nD) : V m c main_arg4 = m ((c : Thread nD τ).loc main_arg4) :=
  StableHlo.after_of_writes_sub (W := wr0) (r := main_arg4) _ _
    (by rw [List.flatten_cons, List.flatten_nil, List.append_nil]; exact hostOps0_writes) (by decide)

/-- No line after it does either: it ends as launched. -/
theorem tail_keeps_arg4 (c : Dev nD) :
    Pipeline.afterTail₀ cfgs (dats m) 0 (V0 m) tailOps c main_arg4 = m ((c : Thread nD τ).loc main_arg4) := by
  unfold Pipeline.afterTail₀
  rw [StableHlo.after_of_forall_not_mem (b := Proc.devRef .tc main_arg4) _ _ (fun op hop => by
      obtain ⟨ops, hops, hop'⟩ := List.mem_flatten.mp hop
      exact tail_not_written (r := main_arg4) (by decide) ops hops op hop'),
    Pipeline.withArrays_of_ne _ c (V0 m c) _ main_arg4 (by exact (by decide : ∀ w, Pipeline.arrRef spec0 w ≠ main_arg4))]
  exact entry_keeps_arg4 m c

/-! ## The inputs' blocks -/

/-- An input's current staging buffer holds its block at every point, fetched there or not: the window is uncut and
    never idle, and the body leaves the block in place. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)

theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-! ## The body's triple -/

/-- The body's one store is of the whole 8 × 3 block, so it covers it. -/
theorem cover_out (p : Vec F S8x3 .f32) (y : S8x3.Idx) :
    ∃ pc ∈ ([⟨rOut, p⟩] : List (View.Piece (Elt F) S8x3 .f32)), y ∈ pc.1.set :=
  View.cover_of_tiled [⟨rOut, p⟩] S8x3.size (by rfl) y

set_option maxHeartbeats 1000000 in
/-- The body on whole staging memrefs, the inputs' at contents `x0`, `x1` and the output's at anything: it reads the
    two inputs whole, reads the output once (a value it never uses), and stores the whole output block; so it ends with
    the inputs as they were and the output at `outBlk x0 x1`. -/
theorem sound_kernel (c : Dev nD) (E : Set ℕ) (i : grid0.Coords)
    (arg1 : Memref sig .tc .vmem S32x128 .f32) (harg1 : arg1.IsWhole)
    (arg2 : Memref sig .tc .vmem S32x128 .f32) (harg2 : arg2.IsWhole)
    (arg3 : Memref sig .tc .vmem S8x3 .f32) (harg3 : arg3.IsWhole)
    (x0 x1 : Vec F S32x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E
          (cc0__finish_reduce_kernel i arg1 harg1 arg2 harg2 arg3 harg3) K := by
  simp only [cc0__finish_reduce_kernel_eq_skeleton]; unfold cc0__finish_reduce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation, at a generic point -/

/-- What the body is called with at point `t`: the invariant, what the core owes, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- The run of @main, to the library's post: the pipeline's arrays at the proof data's, the rest as the later lines
    leave them. -/
theorem run_main :
    θ_run defs (onTc (τ := τ) (main (F := F))) (s₀ m ρ)
      (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (tail_keeps_arg0 m c),
     ((h c).2 main_arg1 (Pipeline.mem_restRefs_of main_arg1 (by decide) (by decide))).trans (tail_keeps_arg1 m c),
     ((h c).2 main_arg2 (Pipeline.mem_restRefs_of main_arg2 (by decide) (by decide))).trans (tail_keeps_arg2 m c),
     ((h c).2 main_arg3 (Pipeline.mem_restRefs_of main_arg3 (by decide) (by decide))).trans (tail_keeps_arg3 m c),
     ((h c).2 main_arg4 (Pipeline.mem_restRefs_of main_arg4 (by decide) (by decide))).trans (tail_keeps_arg4 m c)⟩)
    (run_main m ρ)

end Cert.Kernel.Hand

end
-- ==== Proof.lean ====
/-
  The certificate of the importance-sampled path loss.

  Both programs compute, from two 2048 × 2048 tables, two vectors of length 2048 and 8192 sampled paths of 2048 words,
  the loss of `Proof/Spec.lean`: the reference by scattering each path's normalised weight onto the tables and taking
  dot products (`scatterLoss`), the kernel by the closed form `identityTerm + (∑ A² + ∑ A·B) / ∑ A` (`closedLoss`),
  its one pallas_call summing `A`, `A²` and `A·B` over two halves of the samples.  Under the precondition — the float
  inputs finite, every sampled word a word index, the normaliser `∑ A` nonzero — the two are equal as extended reals:
  every quantity is then a real, a scattered dot product is the sum over samples of weight times visited cells, and
  the weights share one nonzero denominator.

  The frames: the reference is a straight line of host operations (its generated run); the kernel's @main is host lines,
  the region, host lines, run by the library's one-region theorem over the proof data of `Proof/EntryIdeal.lean`
  (`Proof/KFrame….lean`).
  The kernel's idealization rewrote nothing, so `preserves` is `True`.
-/
import proofs.«411131_j14714557956388_2_alg».proof.Defs
import proofs.«411131_j14714557956388_2_alg».proof.Proof.Gen.Kernel
import proofs.«411131_j14714557956388_2_alg».proof.Proof.Gen.KernelIdeal
import proofs.«411131_j14714557956388_2_alg».proof.Proof.Gen.ReferenceIdeal
import proofs.«411131_j14714557956388_2_alg».proof.Proof.Gen.Pre_finite_inputs
import proofs.«411131_j14714557956388_2_alg».proof.Proof.Gen.ReferenceIdeal.Run
import proofs.«411131_j14714557956388_2_alg».proof.Proof.Gen.ReferenceIdeal.Read
import proofs.«411131_j14714557956388_2_alg».proof.Proof.PreFacts
import proofs.«411131_j14714557956388_2_alg».proof.Proof.RefLoss
import proofs.«411131_j14714557956388_2_alg».proof.Proof.KTail
import proofs.«411131_j14714557956388_2_alg».proof.Proof.KFrameBits

noncomputable section

namespace Cert.Proof

open Idealize.ShloMosaic Idealize.ShloMosaic.TcCoe Idealize.SL.Sem Cert.PathLoss

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, of which the precondition holds, the kernel ends at the closed form and the
    reference at the scattered form of the same arrays; the two forms are equal for real tables and a nonzero normaliser. -/
theorem algebraic : Cert.algebraic_KernelIdeal_ReferenceIdeal := by
  intro m ρ m' ρ' hpre hagree
  have hf := fun c => Cert.PreFacts.of_pre _ _ _ _ _ (hpre c)
  refine ⟨fun c => fun _ => closedOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.value_run m ρ (fun c => (hf c).1), ?_⟩
  refine (θ_run Cert.ReferenceIdeal.defs _ _).mono (fun _ h c => ⟨(h c).1.trans ?_, (h c).2⟩)
    (Cert.ReferenceIdeal.Value.run (F := Ideal) m' ρ')
  obtain ⟨hr, h0, h1, h2, h3, hS⟩ := hf c
  rw [Cert.ReferenceIdeal.Read.val_main_v105_eq, (hagree c).1, (hagree c).2.1, (hagree c).2.2.1, (hagree c).2.2.2.1,
    (hagree c).2.2.2.2]
  funext i
  rw [Cert.RefValue.loss_apply _ _ _ _ _ hr i]
  exact (closedOf_eq_scatterOf _ _ _ _ _ h0 h1 h2 h3 hS).symm

/-- The claim. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
